-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v128) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x4096 : Shape := ⟨3, ![8, 256, 4096]⟩
abbrev S8x4096 : Shape := ⟨2, ![8, 4096]⟩
abbrev S1x1x8 : Shape := ⟨3, ![1, 1, 8]⟩
abbrev S_ : Shape := ⟨0, ![]⟩

class Facts : Prop where
  bcast_S_S8x256x4096 : S_.BroadcastsInDim S8x256x4096 (![] : Fin 0 → Fin S8x256x4096.rank)
  reducesTo_S8x256x4096_S_d0_1_2 : S8x256x4096.ReducesTo [0, 1, 2] S_
  h_S_ : 0 < S_.numel
  bcast_S_S8x4096 : S_.BroadcastsInDim S8x4096 (![] : Fin 0 → Fin S8x4096.rank)
  reducesTo_S8x4096_S_d0_1 : S8x4096.ReducesTo [0, 1] S_
  bcast_S_S1x1x8 : S_.BroadcastsInDim S1x1x8 (![] : Fin 0 → Fin S1x1x8.rank)
  reducesTo_S1x1x8_S_d0_1_2 : S1x1x8.ReducesTo [0, 1, 2] S_

variable [Facts]

def fn {F : FTy → Type} [FloatOps F] (main_arg0 : FVec F S8x256x4096 .f32) (main_arg1 : FVec F S8x4096 .f32) (main_arg2 : FVec F S1x1x8 .f32) : IVec S_ 1 :=
  let main_v0 : FVec F S8x256x4096 .f32 := Host.absf main_arg0
  let main_cst : FVec F S_ .f32 := constant S_ .f32 0x7F800000#32
  let main_v1 : FVec F S8x256x4096 .f32 := broadcastInDim S8x256x4096 ![] bcast_S_S8x256x4096 main_cst
  let main_v2 : IVec S8x256x4096 1 := cmpf .olt main_v0 main_v1
  let main_c : IVec S_ 1 := constantI S_ 1 1#1
  let main_v3 : IVec S_ 1 := (fun x v => Host.reduce IntOp.andi x v reducesTo_S8x256x4096_S_d0_1_2 h_S_) main_v2 main_c
  let main_v4 : FVec F S8x4096 .f32 := Host.absf main_arg1
  let main_cst_0 : FVec F S_ .f32 := constant S_ .f32 0x7F800000#32
  let main_v5 : FVec F S8x4096 .f32 := broadcastInDim S8x4096 ![] bcast_S_S8x4096 main_cst_0
  let main_v6 : IVec S8x4096 1 := cmpf .olt main_v4 main_v5
  let main_c_1 : IVec S_ 1 := constantI S_ 1 1#1
  let main_v7 : IVec S_ 1 := (fun x v => Host.reduce IntOp.andi x v reducesTo_S8x4096_S_d0_1 h_S_) main_v6 main_c_1
  let main_v8 : IVec S_ 1 := andi main_v3 main_v7
  let main_v9 : FVec F S1x1x8 .f32 := Host.absf main_arg2
  let main_cst_2 : FVec F S_ .f32 := constant S_ .f32 0x7F800000#32
  let main_v10 : FVec F S1x1x8 .f32 := broadcastInDim S1x1x8 ![] bcast_S_S1x1x8 main_cst_2
  let main_v11 : IVec S1x1x8 1 := cmpf .olt main_v9 main_v10
  let main_c_3 : IVec S_ 1 := constantI S_ 1 1#1
  let main_v12 : IVec S_ 1 := (fun x v => Host.reduce IntOp.andi x v reducesTo_S1x1x8_S_d0_1_2 h_S_) main_v11 main_c_3
  let main_v13 : IVec S_ 1 := andi main_v8 main_v12
  main_v13
-- ==== Kernel.lean ====
abbrev S8x256x4096 : Shape := ⟨3, ![8, 256, 4096]⟩
abbrev S8x4096 : Shape := ⟨2, ![8, 4096]⟩
abbrev S1x1x8 : Shape := ⟨3, ![1, 1, 8]⟩
abbrev S4096 : Shape := ⟨1, ![4096]⟩
abbrev S_ : Shape := ⟨0, ![]⟩
abbrev S8x0 : Shape := ⟨2, ![8, 0]⟩
abbrev S8x1 : Shape := ⟨2, ![8, 1]⟩
abbrev S8x4095 : Shape := ⟨2, ![8, 4095]⟩
abbrev S8x2 : Shape := ⟨2, ![8, 2]⟩
abbrev S8x4094 : Shape := ⟨2, ![8, 4094]⟩
abbrev S8x3 : Shape := ⟨2, ![8, 3]⟩
abbrev S8x4093 : Shape := ⟨2, ![8, 4093]⟩
abbrev S8x4 : Shape := ⟨2, ![8, 4]⟩
abbrev S8x4092 : Shape := ⟨2, ![8, 4092]⟩
abbrev S8x5 : Shape := ⟨2, ![8, 5]⟩
abbrev S8x4091 : Shape := ⟨2, ![8, 4091]⟩
abbrev S8x6 : Shape := ⟨2, ![8, 6]⟩
abbrev S8x4090 : Shape := ⟨2, ![8, 4090]⟩
abbrev S8x7 : Shape := ⟨2, ![8, 7]⟩
abbrev S8x4089 : Shape := ⟨2, ![8, 4089]⟩
abbrev S8x4096x1 : Shape := ⟨3, ![8, 4096, 1]⟩
abbrev S8x4096x8 : Shape := ⟨3, ![8, 4096, 8]⟩
abbrev S1x4096x1 : Shape := ⟨3, ![1, 4096, 1]⟩
abbrev S8 : Shape := ⟨1, ![8]⟩
abbrev S1x4096x8 : Shape := ⟨3, ![1, 4096, 8]⟩
abbrev S8x8x4096 : Shape := ⟨3, ![8, 8, 4096]⟩
abbrev S1x4096 : Shape := ⟨2, ![1, 4096]⟩
abbrev S8x16x4096 : Shape := ⟨3, ![8, 16, 4096]⟩
abbrev S8x1x4096 : Shape := ⟨3, ![8, 1, 4096]⟩
abbrev S1x1x4096 : Shape := ⟨3, ![1, 1, 4096]⟩
abbrev S8x16 : Shape := ⟨2, ![8, 16]⟩
abbrev S8x16x1 : Shape := ⟨3, ![8, 16, 1]⟩

abbrev nBuf : Space → Nat
  | .hbm => 150
  | .vmem => 6
  | .smem => 0
  | _ => 0

abbrev hbmTy0_0 (i : Nat) : BufTy := match i % 128 with
  | 0 => ⟨S8x256x4096, .f32⟩
  | 1 => ⟨S8x4096, .f32⟩
  | 2 => ⟨S1x1x8, .f32⟩
  | 3 => ⟨S4096, .i32⟩
  | 4 => ⟨S_, .i32⟩
  | 5 => ⟨S4096, .i32⟩
  | 6 => ⟨S4096, .i1⟩
  | 7 => ⟨S8x4096, .f32⟩
  | 8 => ⟨S8x0, .f32⟩
  | 9 => ⟨S8x4096, .f32⟩
  | 10 => ⟨S_, .f32⟩
  | 11 => ⟨S_, .f32⟩
  | 12 => ⟨S8x4096, .i1⟩
  | 13 => ⟨S8x4096, .f32⟩
  | 14 => ⟨S8x4096, .f32⟩
  | 15 => ⟨S8x4096, .f32⟩
  | 16 => ⟨S_, .i32⟩
  | 17 => ⟨S4096, .i32⟩
  | 18 => ⟨S4096, .i1⟩
  | 19 => ⟨S8x1, .f32⟩
  | 20 => ⟨S8x4095, .f32⟩
  | 21 => ⟨S8x4096, .f32⟩
  | 22 => ⟨S_, .f32⟩
  | 23 => ⟨S_, .f32⟩
  | 24 => ⟨S8x4096, .i1⟩
  | 25 => ⟨S8x4096, .f32⟩
  | 26 => ⟨S8x4096, .f32⟩
  | 27 => ⟨S8x4096, .f32⟩
  | 28 => ⟨S_, .i32⟩
  | 29 => ⟨S4096, .i32⟩
  | 30 => ⟨S4096, .i1⟩
  | 31 => ⟨S8x2, .f32⟩
  | 32 => ⟨S8x4094, .f32⟩
  | 33 => ⟨S8x4096, .f32⟩
  | 34 => ⟨S_, .f32⟩
  | 35 => ⟨S_, .f32⟩
  | 36 => ⟨S8x4096, .i1⟩
  | 37 => ⟨S8x4096, .f32⟩
  | 38 => ⟨S8x4096, .f32⟩
  | 39 => ⟨S8x4096, .f32⟩
  | 40 => ⟨S_, .i32⟩
  | 41 => ⟨S4096, .i32⟩
  | 42 => ⟨S4096, .i1⟩
  | 43 => ⟨S8x3, .f32⟩
  | 44 => ⟨S8x4093, .f32⟩
  | 45 => ⟨S8x4096, .f32⟩
  | 46 => ⟨S_, .f32⟩
  | 47 => ⟨S_, .f32⟩
  | 48 => ⟨S8x4096, .i1⟩
  | 49 => ⟨S8x4096, .f32⟩
  | 50 => ⟨S8x4096, .f32⟩
  | 51 => ⟨S8x4096, .f32⟩
  | 52 => ⟨S_, .i32⟩
  | 53 => ⟨S4096, .i32⟩
  | 54 => ⟨S4096, .i1⟩
  | 55 => ⟨S8x4, .f32⟩
  | 56 => ⟨S8x4092, .f32⟩
  | 57 => ⟨S8x4096, .f32⟩
  | 58 => ⟨S_, .f32⟩
  | 59 => ⟨S_, .f32⟩
  | 60 => ⟨S8x4096, .i1⟩
  | 61 => ⟨S8x4096, .f32⟩
  | 62 => ⟨S8x4096, .f32⟩
  | 63 => ⟨S8x4096, .f32⟩
  | 64 => ⟨S_, .i32⟩
  | 65 => ⟨S4096, .i32⟩
  | 66 => ⟨S4096, .i1⟩
  | 67 => ⟨S8x5, .f32⟩
  | 68 => ⟨S8x4091, .f32⟩
  | 69 => ⟨S8x4096, .f32⟩
  | 70 => ⟨S_, .f32⟩
  | 71 => ⟨S_, .f32⟩
  | 72 => ⟨S8x4096, .i1⟩
  | 73 => ⟨S8x4096, .f32⟩
  | 74 => ⟨S8x4096, .f32⟩
  | 75 => ⟨S8x4096, .f32⟩
  | 76 => ⟨S_, .i32⟩
  | 77 => ⟨S4096, .i32⟩
  | 78 => ⟨S4096, .i1⟩
  | 79 => ⟨S8x6, .f32⟩
  | 80 => ⟨S8x4090, .f32⟩
  | 81 => ⟨S8x4096, .f32⟩
  | 82 => ⟨S_, .f32⟩
  | 83 => ⟨S_, .f32⟩
  | 84 => ⟨S8x4096, .i1⟩
  | 85 => ⟨S8x4096, .f32⟩
  | 86 => ⟨S8x4096, .f32⟩
  | 87 => ⟨S8x4096, .f32⟩
  | 88 => ⟨S_, .i32⟩
  | 89 => ⟨S4096, .i32⟩
  | 90 => ⟨S4096, .i1⟩
  | 91 => ⟨S8x7, .f32⟩
  | 92 => ⟨S8x4089, .f32⟩
  | 93 => ⟨S8x4096, .f32⟩
  | 94 => ⟨S_, .f32⟩
  | 95 => ⟨S_, .f32⟩
  | 96 => ⟨S8x4096, .i1⟩
  | 97 => ⟨S8x4096, .f32⟩
  | 98 => ⟨S8x4096, .f32⟩
  | 99 => ⟨S8x4096, .f32⟩
  | 100 => ⟨S8x4096x1, .f32⟩
  | 101 => ⟨S8x4096x1, .f32⟩
  | 102 => ⟨S8x4096x1, .f32⟩
  | 103 => ⟨S8x4096x1, .f32⟩
  | 104 => ⟨S8x4096x1, .f32⟩
  | 105 => ⟨S8x4096x1, .f32⟩
  | 106 => ⟨S8x4096x1, .f32⟩
  | 107 => ⟨S8x4096x1, .f32⟩
  | 108 => ⟨S8x4096x8, .f32⟩
  | 109 => ⟨S_, .f32⟩
  | 110 => ⟨S8x4096, .f32⟩
  | 111 => ⟨S_, .f32⟩
  | 112 => ⟨S8x4096, .f32⟩
  | 113 => ⟨S8x4096, .f32⟩
  | 114 => ⟨S8x4096x1, .f32⟩
  | 115 => ⟨S8x4096x8, .f32⟩
  | 116 => ⟨S8x4096x8, .f32⟩
  | 117 => ⟨S8x4096x8, .f32⟩
  | 118 => ⟨S_, .f32⟩
  | 119 => ⟨S8x4096, .f32⟩
  | 120 => ⟨S8x4096x1, .f32⟩
  | 121 => ⟨S8x4096x8, .f32⟩
  | 122 => ⟨S8x4096x8, .f32⟩
  | 123 => ⟨S1x4096x1, .i32⟩
  | 124 => ⟨S8, .i32⟩
  | 125 => ⟨S1x1x8, .i32⟩
  | 126 => ⟨S1x4096x8, .i32⟩
  | 127 => ⟨S1x4096x8, .i32⟩
  | _ => ⟨S8x256x4096, .f32⟩

abbrev hbmTy0_1 (i : Nat) : BufTy := match i % 128 with
  | 0 => ⟨S1x4096x8, .i1⟩
  | 1 => ⟨S_, .f32⟩
  | 2 => ⟨S_, .f32⟩
  | 3 => ⟨S8x4096x8, .i1⟩
  | 4 => ⟨S8x4096x8, .f32⟩
  | 5 => ⟨S8x4096x8, .f32⟩
  | 6 => ⟨S8x8x4096, .f32⟩
  | 7 => ⟨S8, .f32⟩
  | 8 => ⟨S4096, .i32⟩
  | 9 => ⟨S1x4096, .i32⟩
  | 10 => ⟨S8, .i32⟩
  | 11 => ⟨S8x1, .i32⟩
  | 12 => ⟨S8x4096, .i32⟩
  | 13 => ⟨S8x4096, .i32⟩
  | 14 => ⟨S8x4096, .i1⟩
  | 15 => ⟨S8x1, .f32⟩
  | 16 => ⟨S_, .f32⟩
  | 17 => ⟨S_, .f32⟩
  | 18 => ⟨S8x4096, .f32⟩
  | 19 => ⟨S8x4096, .f32⟩
  | 20 => ⟨S8x4096, .f32⟩
  | 21 => ⟨S8x256x4096, .f32⟩
  | _ => ⟨S8x256x4096, .f32⟩

abbrev hbmTy (i : Nat) : BufTy := match i / 128 with
  | 0 => hbmTy0_0 i
  | 1 => hbmTy0_1 i
  | _ => ⟨S8x256x4096, .f32⟩

abbrev bufTy : (tb : Table) → Fin (tcTables nBuf tb) → BufTy
  | .hbm, ⟨i, _⟩ => hbmTy i
  | .local _ .vmem, ⟨0, _⟩ => ⟨S8x16x4096, .f32⟩
  | .local _ .vmem, ⟨1, _⟩ => ⟨S8x16x4096, .f32⟩
  | .local _ .vmem, ⟨2, _⟩ => ⟨S8x8x4096, .f32⟩
  | .local _ .vmem, ⟨3, _⟩ => ⟨S8x4096, .f32⟩
  | .local _ .vmem, ⟨4, _⟩ => ⟨S8x16x4096, .f32⟩
  | .local _ .vmem, ⟨5, _⟩ => ⟨S8x16x4096, .f32⟩
  | _, _ => ⟨S8x256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_v3 : Ref sig .tc := ⟨.hbm, 9, rfl⟩
abbrev main_cst : Ref sig .tc := ⟨.hbm, 10, rfl⟩
abbrev main_call1_v0 : Ref sig .tc := ⟨.hbm, 11, rfl⟩
abbrev main_call1_v1 : Ref sig .tc := ⟨.hbm, 12, rfl⟩
abbrev main_call1_v2 : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_call2_v0 : Ref sig .tc := ⟨.hbm, 19, rfl⟩
abbrev main_call2_v1 : Ref sig .tc := ⟨.hbm, 20, rfl⟩
abbrev main_v8 : Ref sig .tc := ⟨.hbm, 21, rfl⟩
abbrev main_cst_1 : Ref sig .tc := ⟨.hbm, 22, rfl⟩
abbrev main_call3_v0 : Ref sig .tc := ⟨.hbm, 23, rfl⟩
abbrev main_call3_v1 : Ref sig .tc := ⟨.hbm, 24, rfl⟩
abbrev main_call3_v2 : Ref sig .tc := ⟨.hbm, 25, rfl⟩
abbrev main_v9 : Ref sig .tc := ⟨.hbm, 26, rfl⟩
abbrev main_v10 : Ref sig .tc := ⟨.hbm, 27, rfl⟩
abbrev main_c_2 : Ref sig .tc := ⟨.hbm, 28, rfl⟩
abbrev main_v11 : Ref sig .tc := ⟨.hbm, 29, rfl⟩
abbrev main_v12 : Ref sig .tc := ⟨.hbm, 30, rfl⟩
abbrev main_call4_v0 : Ref sig .tc := ⟨.hbm, 31, rfl⟩
abbrev main_call4_v1 : Ref sig .tc := ⟨.hbm, 32, rfl⟩
abbrev main_v13 : Ref sig .tc := ⟨.hbm, 33, rfl⟩
abbrev main_cst_3 : Ref sig .tc := ⟨.hbm, 34, rfl⟩
abbrev main_call5_v0 : Ref sig .tc := ⟨.hbm, 35, rfl⟩
abbrev main_call5_v1 : Ref sig .tc := ⟨.hbm, 36, rfl⟩
abbrev main_call5_v2 : Ref sig .tc := ⟨.hbm, 37, rfl⟩
abbrev main_v14 : Ref sig .tc := ⟨.hbm, 38, rfl⟩
abbrev main_v15 : Ref sig .tc := ⟨.hbm, 39, rfl⟩
abbrev main_c_4 : Ref sig .tc := ⟨.hbm, 40, rfl⟩
abbrev main_v16 : Ref sig .tc := ⟨.hbm, 41, rfl⟩
abbrev main_v17 : Ref sig .tc := ⟨.hbm, 42, rfl⟩
abbrev main_call6_v0 : Ref sig .tc := ⟨.hbm, 43, rfl⟩
abbrev main_call6_v1 : Ref sig .tc := ⟨.hbm, 44, rfl⟩
abbrev main_v18 : Ref sig .tc := ⟨.hbm, 45, rfl⟩
abbrev main_cst_5 : Ref sig .tc := ⟨.hbm, 46, rfl⟩
abbrev main_call7_v0 : Ref sig .tc := ⟨.hbm, 47, rfl⟩
abbrev main_call7_v1 : Ref sig .tc := ⟨.hbm, 48, rfl⟩
abbrev main_call7_v2 : Ref sig .tc := ⟨.hbm, 49, rfl⟩
abbrev main_v19 : Ref sig .tc := ⟨.hbm, 50, rfl⟩
abbrev main_v20 : Ref sig .tc := ⟨.hbm, 51, rfl⟩
abbrev main_c_6 : Ref sig .tc := ⟨.hbm, 52, rfl⟩
abbrev main_v21 : Ref sig .tc := ⟨.hbm, 53, rfl⟩
abbrev main_v22 : Ref sig .tc := ⟨.hbm, 54, rfl⟩
abbrev main_call8_v0 : Ref sig .tc := ⟨.hbm, 55, rfl⟩
abbrev main_call8_v1 : Ref sig .tc := ⟨.hbm, 56, rfl⟩
abbrev main_v23 : Ref sig .tc := ⟨.hbm, 57, rfl⟩
abbrev main_cst_7 : Ref sig .tc := ⟨.hbm, 58, rfl⟩
abbrev main_call9_v0 : Ref sig .tc := ⟨.hbm, 59, rfl⟩
abbrev main_call9_v1 : Ref sig .tc := ⟨.hbm, 60, rfl⟩
abbrev main_call9_v2 : Ref sig .tc := ⟨.hbm, 61, rfl⟩
abbrev main_v24 : Ref sig .tc := ⟨.hbm, 62, rfl⟩
abbrev main_v25 : Ref sig .tc := ⟨.hbm, 63, rfl⟩
abbrev main_c_8 : Ref sig .tc := ⟨.hbm, 64, rfl⟩
abbrev main_v26 : Ref sig .tc := ⟨.hbm, 65, rfl⟩
abbrev main_v27 : Ref sig .tc := ⟨.hbm, 66, rfl⟩
abbrev main_call10_v0 : Ref sig .tc := ⟨.hbm, 67, rfl⟩
abbrev main_call10_v1 : Ref sig .tc := ⟨.hbm, 68, rfl⟩
abbrev main_v28 : Ref sig .tc := ⟨.hbm, 69, rfl⟩
abbrev main_cst_9 : Ref sig .tc := ⟨.hbm, 70, rfl⟩
abbrev main_call11_v0 : Ref sig .tc := ⟨.hbm, 71, rfl⟩
abbrev main_call11_v1 : Ref sig .tc := ⟨.hbm, 72, rfl⟩
abbrev main_call11_v2 : Ref sig .tc := ⟨.hbm, 73, rfl⟩
abbrev main_v29 : Ref sig .tc := ⟨.hbm, 74, rfl⟩
abbrev main_v30 : Ref sig .tc := ⟨.hbm, 75, rfl⟩
abbrev main_c_10 : Ref sig .tc := ⟨.hbm, 76, rfl⟩
abbrev main_v31 : Ref sig .tc := ⟨.hbm, 77, rfl⟩
abbrev main_v32 : Ref sig .tc := ⟨.hbm, 78, rfl⟩
abbrev main_call12_v0 : Ref sig .tc := ⟨.hbm, 79, rfl⟩
abbrev main_call12_v1 : Ref sig .tc := ⟨.hbm, 80, rfl⟩
abbrev main_v33 : Ref sig .tc := ⟨.hbm, 81, rfl⟩
abbrev main_cst_11 : Ref sig .tc := ⟨.hbm, 82, rfl⟩
abbrev main_call13_v0 : Ref sig .tc := ⟨.hbm, 83, rfl⟩
abbrev main_call13_v1 : Ref sig .tc := ⟨.hbm, 84, rfl⟩
abbrev main_call13_v2 : Ref sig .tc := ⟨.hbm, 85, rfl⟩
abbrev main_v34 : Ref sig .tc := ⟨.hbm, 86, rfl⟩
abbrev main_v35 : Ref sig .tc := ⟨.hbm, 87, rfl⟩
abbrev main_c_12 : Ref sig .tc := ⟨.hbm, 88, rfl⟩
abbrev main_v36 : Ref sig .tc := ⟨.hbm, 89, rfl⟩
abbrev main_v37 : Ref sig .tc := ⟨.hbm, 90, rfl⟩
abbrev main_call14_v0 : Ref sig .tc := ⟨.hbm, 91, rfl⟩
abbrev main_call14_v1 : Ref sig .tc := ⟨.hbm, 92, rfl⟩
abbrev main_v38 : Ref sig .tc := ⟨.hbm, 93, rfl⟩
abbrev main_cst_13 : Ref sig .tc := ⟨.hbm, 94, rfl⟩
abbrev main_call15_v0 : Ref sig .tc := ⟨.hbm, 95, rfl⟩
abbrev main_call15_v1 : Ref sig .tc := ⟨.hbm, 96, rfl⟩
abbrev main_call15_v2 : Ref sig .tc := ⟨.hbm, 97, rfl⟩
abbrev main_v39 : Ref sig .tc := ⟨.hbm, 98, rfl⟩
abbrev main_v40 : Ref sig .tc := ⟨.hbm, 99, rfl⟩
abbrev main_v41 : Ref sig .tc := ⟨.hbm, 100, rfl⟩
abbrev main_v42 : Ref sig .tc := ⟨.hbm, 101, rfl⟩
abbrev main_v43 : Ref sig .tc := ⟨.hbm, 102, rfl⟩
abbrev main_v44 : Ref sig .tc := ⟨.hbm, 103, rfl⟩
abbrev main_v45 : Ref sig .tc := ⟨.hbm, 104, rfl⟩
abbrev main_v46 : Ref sig .tc := ⟨.hbm, 105, rfl⟩
abbrev main_v47 : Ref sig .tc := ⟨.hbm, 106, rfl⟩
abbrev main_v48 : Ref sig .tc := ⟨.hbm, 107, rfl⟩
abbrev main_v49 : Ref sig .tc := ⟨.hbm, 108, rfl⟩
abbrev main_cst_14 : Ref sig .tc := ⟨.hbm, 109, rfl⟩
abbrev main_v50 : Ref sig .tc := ⟨.hbm, 110, rfl⟩
abbrev main_cst_15 : Ref sig .tc := ⟨.hbm, 111, rfl⟩
abbrev main_v51 : Ref sig .tc := ⟨.hbm, 112, rfl⟩
abbrev main_v52 : Ref sig .tc := ⟨.hbm, 113, rfl⟩
abbrev main_v53 : Ref sig .tc := ⟨.hbm, 114, rfl⟩
abbrev main_v54 : Ref sig .tc := ⟨.hbm, 115, rfl⟩
abbrev main_v55 : Ref sig .tc := ⟨.hbm, 116, rfl⟩
abbrev main_v56 : Ref sig .tc := ⟨.hbm, 117, rfl⟩
abbrev main_cst_16 : Ref sig .tc := ⟨.hbm, 118, rfl⟩
abbrev main_v57 : Ref sig .tc := ⟨.hbm, 119, rfl⟩
abbrev main_v58 : Ref sig .tc := ⟨.hbm, 120, rfl⟩
abbrev main_v59 : Ref sig .tc := ⟨.hbm, 121, rfl⟩
abbrev main_v60 : Ref sig .tc := ⟨.hbm, 122, rfl⟩
abbrev main_v61 : Ref sig .tc := ⟨.hbm, 123, rfl⟩
abbrev main_v62 : Ref sig .tc := ⟨.hbm, 124, rfl⟩
abbrev main_v63 : Ref sig .tc := ⟨.hbm, 125, rfl⟩
abbrev main_v64 : Ref sig .tc := ⟨.hbm, 126, rfl⟩
abbrev main_v65 : Ref sig .tc := ⟨.hbm, 127, rfl⟩
abbrev main_v66 : Ref sig .tc := ⟨.hbm, 128, rfl⟩
abbrev main_cst_17 : Ref sig .tc := ⟨.hbm, 129, rfl⟩
abbrev main_call16_v0 : Ref sig .tc := ⟨.hbm, 130, rfl⟩
abbrev main_call16_v1 : Ref sig .tc := ⟨.hbm, 131, rfl⟩
abbrev main_call16_v2 : Ref sig .tc := ⟨.hbm, 132, rfl⟩
abbrev main_v67 : Ref sig .tc := ⟨.hbm, 133, rfl⟩
abbrev main_v68 : Ref sig .tc := ⟨.hbm, 134, rfl⟩
abbrev main_v69 : Ref sig .tc := ⟨.hbm, 135, rfl⟩
abbrev main_v70 : Ref sig .tc := ⟨.hbm, 136, rfl⟩
abbrev main_v71 : Ref sig .tc := ⟨.hbm, 137, rfl⟩
abbrev main_v72 : Ref sig .tc := ⟨.hbm, 138, rfl⟩
abbrev main_v73 : Ref sig .tc := ⟨.hbm, 139, rfl⟩
abbrev main_v74 : Ref sig .tc := ⟨.hbm, 140, rfl⟩
abbrev main_v75 : Ref sig .tc := ⟨.hbm, 141, rfl⟩
abbrev main_v76 : Ref sig .tc := ⟨.hbm, 142, rfl⟩
abbrev main_v77 : Ref sig .tc := ⟨.hbm, 143, rfl⟩
abbrev main_cst_18 : Ref sig .tc := ⟨.hbm, 144, rfl⟩
abbrev main_call17_v0 : Ref sig .tc := ⟨.hbm, 145, rfl⟩
abbrev main_call17_v1 : Ref sig .tc := ⟨.hbm, 146, rfl⟩
abbrev main_call17_v2 : Ref sig .tc := ⟨.hbm, 147, rfl⟩
abbrev main_v78 : Ref sig .tc := ⟨.hbm, 148, rfl⟩
abbrev main_v79 : Ref sig .tc := ⟨.hbm, 149, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x16x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x8x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x16x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S4096 : S_.BroadcastsInDim S4096 (![] : Fin 0 → Fin S4096.rank)
  slices_S8x4096_S8x4096_0_0 : S8x4096.Slices ![0, 0] S8x4096
  slices_S8x4096_S8x0_0_0 : S8x4096.Slices ![0, 0] S8x0
  concatenates_S8x4096_S8x0_S8x4096_d1 : Shape.Concatenates [S8x4096, S8x0] S8x4096 1
  bcast_S4096_S8x4096_1 : S4096.BroadcastsInDim S8x4096 (![1] : Fin 1 → Fin S8x4096.rank)
  bcast_S_S8x4096 : S_.BroadcastsInDim S8x4096 (![] : Fin 0 → Fin S8x4096.rank)
  slices_S8x4096_S8x1_0_4095 : S8x4096.Slices ![0, 4095] S8x1
  slices_S8x4096_S8x4095_0_0 : S8x4096.Slices ![0, 0] S8x4095
  concatenates_S8x1_S8x4095_S8x4096_d1 : Shape.Concatenates [S8x1, S8x4095] S8x4096 1
  slices_S8x4096_S8x2_0_4094 : S8x4096.Slices ![0, 4094] S8x2
  slices_S8x4096_S8x4094_0_0 : S8x4096.Slices ![0, 0] S8x4094
  concatenates_S8x2_S8x4094_S8x4096_d1 : Shape.Concatenates [S8x2, S8x4094] S8x4096 1
  slices_S8x4096_S8x3_0_4093 : S8x4096.Slices ![0, 4093] S8x3
  slices_S8x4096_S8x4093_0_0 : S8x4096.Slices ![0, 0] S8x4093
  concatenates_S8x3_S8x4093_S8x4096_d1 : Shape.Concatenates [S8x3, S8x4093] S8x4096 1
  slices_S8x4096_S8x4_0_4092 : S8x4096.Slices ![0, 4092] S8x4
  slices_S8x4096_S8x4092_0_0 : S8x4096.Slices ![0, 0] S8x4092
  concatenates_S8x4_S8x4092_S8x4096_d1 : Shape.Concatenates [S8x4, S8x4092] S8x4096 1
  slices_S8x4096_S8x5_0_4091 : S8x4096.Slices ![0, 4091] S8x5
  slices_S8x4096_S8x4091_0_0 : S8x4096.Slices ![0, 0] S8x4091
  concatenates_S8x5_S8x4091_S8x4096_d1 : Shape.Concatenates [S8x5, S8x4091] S8x4096 1
  slices_S8x4096_S8x6_0_4090 : S8x4096.Slices ![0, 4090] S8x6
  slices_S8x4096_S8x4090_0_0 : S8x4096.Slices ![0, 0] S8x4090
  concatenates_S8x6_S8x4090_S8x4096_d1 : Shape.Concatenates [S8x6, S8x4090] S8x4096 1
  slices_S8x4096_S8x7_0_4089 : S8x4096.Slices ![0, 4089] S8x7
  slices_S8x4096_S8x4089_0_0 : S8x4096.Slices ![0, 0] S8x4089
  concatenates_S8x7_S8x4089_S8x4096_d1 : Shape.Concatenates [S8x7, S8x4089] S8x4096 1
  bcast_S8x4096_S8x4096x1_0_1 : S8x4096.BroadcastsInDim S8x4096x1 (![0, 1] : Fin 2 → Fin S8x4096x1.rank)
  concatenates_S8x4096x1_S8x4096x1_S8x4096x1_S8x4096x1_S8x4096x1_S8x4096x1_S8x4096x1_S8x4096x1_S8x4096x8_d2 : Shape.Concatenates [S8x4096x1, S8x4096x1, S8x4096x1, S8x4096x1, S8x4096x1, S8x4096x1, S8x4096x1, S8x4096x1] S8x4096x8 2
  reducesTo_S8x4096x8_S8x4096_d2 : S8x4096x8.ReducesTo [2] S8x4096
  h_S_ : 0 < S_.numel
  bcast_S8x4096x1_S8x4096x8_0_1_2 : S8x4096x1.BroadcastsInDim S8x4096x8 (![0, 1, 2] : Fin 3 → Fin S8x4096x8.rank)
  bcast_S4096_S1x4096x1_1 : S4096.BroadcastsInDim S1x4096x1 (![1] : Fin 1 → Fin S1x4096x1.rank)
  bcast_S8_S1x1x8_2 : S8.BroadcastsInDim S1x1x8 (![2] : Fin 1 → Fin S1x1x8.rank)
  bcast_S1x4096x1_S1x4096x8_0_1_2 : S1x4096x1.BroadcastsInDim S1x4096x8 (![0, 1, 2] : Fin 3 → Fin S1x4096x8.rank)
  bcast_S1x1x8_S1x4096x8_0_1_2 : S1x1x8.BroadcastsInDim S1x4096x8 (![0, 1, 2] : Fin 3 → Fin S1x4096x8.rank)
  bcast_S1x4096x8_S8x4096x8_0_1_2 : S1x4096x8.BroadcastsInDim S8x4096x8 (![0, 1, 2] : Fin 3 → Fin S8x4096x8.rank)
  bcast_S_S8x4096x8 : S_.BroadcastsInDim S8x4096x8 (![] : Fin 0 → Fin S8x4096x8.rank)
  transposes_S8x4096x8_S8x8x4096_0_2_1 : S8x4096x8.Transposes [0, 2, 1] S8x8x4096
  shapeCasts_S1x1x8_S8 : S1x1x8.ShapeCasts S8
  bcast_S4096_S1x4096_1 : S4096.BroadcastsInDim S1x4096 (![1] : Fin 1 → Fin S1x4096.rank)
  bcast_S8_S8x1_0 : S8.BroadcastsInDim S8x1 (![0] : Fin 1 → Fin S8x1.rank)
  bcast_S1x4096_S8x4096_0_1 : S1x4096.BroadcastsInDim S8x4096 (![0, 1] : Fin 2 → Fin S8x4096.rank)
  bcast_S8x1_S8x4096_0_1 : S8x1.BroadcastsInDim S8x4096 (![0, 1] : Fin 2 → Fin S8x4096.rank)
  inb_S8x16x4096_S8x16x4096_0_0_0 : ∀ a, (![0, 0, 0] : Fin 3 → Nat) a + S8x16x4096.size a ≤ S8x16x4096.size a
  h_S8x16x4096 : 0 < S8x16x4096.numel
  inb_S8x8x4096_S8x8x4096_0_0_0 : ∀ a, (![0, 0, 0] : Fin 3 → Nat) a + S8x8x4096.size a ≤ S8x8x4096.size a
  h_S8x8x4096 : 0 < S8x8x4096.numel
  shapeCasts_S8x8x4096_S8x8x4096 : S8x8x4096.ShapeCasts S8x8x4096
  inb_S8x4096_S8x4096_0_0 : ∀ a, (![0, 0] : Fin 2 → Nat) a + S8x4096.size a ≤ S8x4096.size a
  h_S8x4096 : 0 < S8x4096.numel
  shapeCasts_S8x4096_S8x4096 : S8x4096.ShapeCasts S8x4096
  slices_S8x8x4096_o0_0_0_S8x1x4096 : S8x8x4096.Slices ![0, 0, 0] S8x1x4096
  shapeCasts_S8x1x4096_S8x4096 : S8x1x4096.ShapeCasts S8x4096
  shapeCasts_S8x4096_S8x1x4096 : S8x4096.ShapeCasts S8x1x4096
  slices_S8x4096_o0_0_S1x4096 : S8x4096.Slices ![0, 0] S1x4096
  shapeCasts_S1x4096_S4096 : S1x4096.ShapeCasts S4096
  shapeCasts_S4096_S1x1x4096 : S4096.ShapeCasts S1x1x4096
  broadcasts_S8x1x4096_S8x16x4096 : S8x1x4096.Broadcasts S8x16x4096
  broadcasts_S1x1x4096_S8x16x4096 : S1x1x4096.Broadcasts S8x16x4096
  rotates_S8x16x4096_d2 : S8x16x4096.Rotates 2 none
  slices_S8x8x4096_o0_1_0_S8x1x4096 : S8x8x4096.Slices ![0, 1, 0] S8x1x4096
  slices_S8x4096_o1_0_S1x4096 : S8x4096.Slices ![1, 0] S1x4096
  slices_S8x8x4096_o0_2_0_S8x1x4096 : S8x8x4096.Slices ![0, 2, 0] S8x1x4096
  slices_S8x4096_o2_0_S1x4096 : S8x4096.Slices ![2, 0] S1x4096
  slices_S8x8x4096_o0_3_0_S8x1x4096 : S8x8x4096.Slices ![0, 3, 0] S8x1x4096
  slices_S8x4096_o3_0_S1x4096 : S8x4096.Slices ![3, 0] S1x4096
  slices_S8x8x4096_o0_4_0_S8x1x4096 : S8x8x4096.Slices ![0, 4, 0] S8x1x4096
  slices_S8x4096_o4_0_S1x4096 : S8x4096.Slices ![4, 0] S1x4096
  slices_S8x8x4096_o0_5_0_S8x1x4096 : S8x8x4096.Slices ![0, 5, 0] S8x1x4096
  slices_S8x4096_o5_0_S1x4096 : S8x4096.Slices ![5, 0] S1x4096
  slices_S8x8x4096_o0_6_0_S8x1x4096 : S8x8x4096.Slices ![0, 6, 0] S8x1x4096
  slices_S8x4096_o6_0_S1x4096 : S8x4096.Slices ![6, 0] S1x4096
  slices_S8x8x4096_o0_7_0_S8x1x4096 : S8x8x4096.Slices ![0, 7, 0] S8x1x4096
  slices_S8x4096_o7_0_S1x4096 : S8x4096.Slices ![7, 0] S1x4096
  reduces_S8x16x4096_S8x16 : S8x16x4096.Reduces [2] S8x16
  shapeCasts_S8x16_S8x16x1 : S8x16.ShapeCasts S8x16x1
  broadcasts_S8x16x1_S8x16x4096 : S8x16x1.Broadcasts S8x16x4096
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x16x4096.size a ≤ S8x256x4096.size a
  hwx0_0 : ∀ i : grid0.Coords, EltTy.bits .f32 = 32 ∨ (Rect.block (s := S8x256x4096) S8x16x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x8x4096.size a ≤ S8x8x4096.size a
  hwx0_1 : ∀ i : grid0.Coords, EltTy.bits .f32 = 32 ∨ (Rect.block (s := S8x8x4096) S8x8x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x4096.size a ≤ S8x4096.size a
  hwx0_2 : ∀ i : grid0.Coords, EltTy.bits .f32 = 32 ∨ (Rect.block (s := S8x4096) S8x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x16x4096.size a ≤ S8x256x4096.size a
  hwx0_3 : ∀ i : grid0.Coords, EltTy.bits .f32 = 32 ∨ (Rect.block (s := S8x256x4096) S8x16x4096.size (cc0_transform_3 i) (hinb0_3 i)).WholeWords (EltTy.packing .f32)

variable [Facts₀]

abbrev win0_0 : Pipeline.Window sig grid0 :=
  Pipeline.Window.ofSpec (Memref.whole main_arg0) S8x16x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v68) S8x8x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v78) S8x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v79) S8x16x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x256x4096 : Shape := ⟨3, ![8, 256, 4096]⟩
abbrev S8x4096 : Shape := ⟨2, ![8, 4096]⟩
abbrev S1x1x8 : Shape := ⟨3, ![1, 1, 8]⟩
abbrev S4096 : Shape := ⟨1, ![4096]⟩
abbrev S_ : Shape := ⟨0, ![]⟩
abbrev S8x256x0 : Shape := ⟨3, ![8, 256, 0]⟩
abbrev S8x256x1 : Shape := ⟨3, ![8, 256, 1]⟩
abbrev S8x256x4095 : Shape := ⟨3, ![8, 256, 4095]⟩
abbrev S8x256x2 : Shape := ⟨3, ![8, 256, 2]⟩
abbrev S8x256x4094 : Shape := ⟨3, ![8, 256, 4094]⟩
abbrev S8x256x3 : Shape := ⟨3, ![8, 256, 3]⟩
abbrev S8x256x4093 : Shape := ⟨3, ![8, 256, 4093]⟩
abbrev S8x256x4 : Shape := ⟨3, ![8, 256, 4]⟩
abbrev S8x256x4092 : Shape := ⟨3, ![8, 256, 4092]⟩
abbrev S8x256x5 : Shape := ⟨3, ![8, 256, 5]⟩
abbrev S8x256x4091 : Shape := ⟨3, ![8, 256, 4091]⟩
abbrev S8x256x6 : Shape := ⟨3, ![8, 256, 6]⟩
abbrev S8x256x4090 : Shape := ⟨3, ![8, 256, 4090]⟩
abbrev S8x256x7 : Shape := ⟨3, ![8, 256, 7]⟩
abbrev S8x256x4089 : Shape := ⟨3, ![8, 256, 4089]⟩
abbrev S8x256x4096x1 : Shape := ⟨4, ![8, 256, 4096, 1]⟩
abbrev S8x256x4096x8 : Shape := ⟨4, ![8, 256, 4096, 8]⟩
abbrev S8x0 : Shape := ⟨2, ![8, 0]⟩
abbrev S8x1 : Shape := ⟨2, ![8, 1]⟩
abbrev S8x4095 : Shape := ⟨2, ![8, 4095]⟩
abbrev S8x2 : Shape := ⟨2, ![8, 2]⟩
abbrev S8x4094 : Shape := ⟨2, ![8, 4094]⟩
abbrev S8x3 : Shape := ⟨2, ![8, 3]⟩
abbrev S8x4093 : Shape := ⟨2, ![8, 4093]⟩
abbrev S8x4 : Shape := ⟨2, ![8, 4]⟩
abbrev S8x4092 : Shape := ⟨2, ![8, 4092]⟩
abbrev S8x5 : Shape := ⟨2, ![8, 5]⟩
abbrev S8x4091 : Shape := ⟨2, ![8, 4091]⟩
abbrev S8x6 : Shape := ⟨2, ![8, 6]⟩
abbrev S8x4090 : Shape := ⟨2, ![8, 4090]⟩
abbrev S8x7 : Shape := ⟨2, ![8, 7]⟩
abbrev S8x4089 : Shape := ⟨2, ![8, 4089]⟩
abbrev S8x4096x1 : Shape := ⟨3, ![8, 4096, 1]⟩
abbrev S8x4096x8 : Shape := ⟨3, ![8, 4096, 8]⟩
abbrev S8x1x4096x8 : Shape := ⟨4, ![8, 1, 4096, 8]⟩
abbrev S1x1x1x8 : Shape := ⟨4, ![1, 1, 1, 8]⟩
abbrev S8x256x1x4096 : Shape := ⟨4, ![8, 256, 1, 4096]⟩
abbrev S8x256x2x4096 : Shape := ⟨4, ![8, 256, 2, 4096]⟩
abbrev S8x256x2x2 : Shape := ⟨4, ![8, 256, 2, 2]⟩
abbrev S8x256x2x1 : Shape := ⟨4, ![8, 256, 2, 1]⟩

abbrev nBuf : Space → Nat
  | .hbm => 254
  | .vmem => 0
  | .smem => 0
  | _ => 0

abbrev hbmTy0_0 (i : Nat) : BufTy := match i % 128 with
  | 0 => ⟨S8x256x4096, .f32⟩
  | 1 => ⟨S8x4096, .f32⟩
  | 2 => ⟨S1x1x8, .f32⟩
  | 3 => ⟨S4096, .i32⟩
  | 4 => ⟨S_, .i32⟩
  | 5 => ⟨S4096, .i32⟩
  | 6 => ⟨S4096, .i1⟩
  | 7 => ⟨S8x256x4096, .f32⟩
  | 8 => ⟨S8x256x0, .f32⟩
  | 9 => ⟨S8x256x4096, .f32⟩
  | 10 => ⟨S_, .f32⟩
  | 11 => ⟨S_, .f32⟩
  | 12 => ⟨S8x256x4096, .i1⟩
  | 13 => ⟨S8x256x4096, .f32⟩
  | 14 => ⟨S8x256x4096, .f32⟩
  | 15 => ⟨S_, .i32⟩
  | 16 => ⟨S4096, .i32⟩
  | 17 => ⟨S4096, .i1⟩
  | 18 => ⟨S8x256x1, .f32⟩
  | 19 => ⟨S8x256x4095, .f32⟩
  | 20 => ⟨S8x256x4096, .f32⟩
  | 21 => ⟨S_, .f32⟩
  | 22 => ⟨S_, .f32⟩
  | 23 => ⟨S8x256x4096, .i1⟩
  | 24 => ⟨S8x256x4096, .f32⟩
  | 25 => ⟨S8x256x4096, .f32⟩
  | 26 => ⟨S_, .i32⟩
  | 27 => ⟨S4096, .i32⟩
  | 28 => ⟨S4096, .i1⟩
  | 29 => ⟨S8x256x2, .f32⟩
  | 30 => ⟨S8x256x4094, .f32⟩
  | 31 => ⟨S8x256x4096, .f32⟩
  | 32 => ⟨S_, .f32⟩
  | 33 => ⟨S_, .f32⟩
  | 34 => ⟨S8x256x4096, .i1⟩
  | 35 => ⟨S8x256x4096, .f32⟩
  | 36 => ⟨S8x256x4096, .f32⟩
  | 37 => ⟨S_, .i32⟩
  | 38 => ⟨S4096, .i32⟩
  | 39 => ⟨S4096, .i1⟩
  | 40 => ⟨S8x256x3, .f32⟩
  | 41 => ⟨S8x256x4093, .f32⟩
  | 42 => ⟨S8x256x4096, .f32⟩
  | 43 => ⟨S_, .f32⟩
  | 44 => ⟨S_, .f32⟩
  | 45 => ⟨S8x256x4096, .i1⟩
  | 46 => ⟨S8x256x4096, .f32⟩
  | 47 => ⟨S8x256x4096, .f32⟩
  | 48 => ⟨S_, .i32⟩
  | 49 => ⟨S4096, .i32⟩
  | 50 => ⟨S4096, .i1⟩
  | 51 => ⟨S8x256x4, .f32⟩
  | 52 => ⟨S8x256x4092, .f32⟩
  | 53 => ⟨S8x256x4096, .f32⟩
  | 54 => ⟨S_, .f32⟩
  | 55 => ⟨S_, .f32⟩
  | 56 => ⟨S8x256x4096, .i1⟩
  | 57 => ⟨S8x256x4096, .f32⟩
  | 58 => ⟨S8x256x4096, .f32⟩
  | 59 => ⟨S_, .i32⟩
  | 60 => ⟨S4096, .i32⟩
  | 61 => ⟨S4096, .i1⟩
  | 62 => ⟨S8x256x5, .f32⟩
  | 63 => ⟨S8x256x4091, .f32⟩
  | 64 => ⟨S8x256x4096, .f32⟩
  | 65 => ⟨S_, .f32⟩
  | 66 => ⟨S_, .f32⟩
  | 67 => ⟨S8x256x4096, .i1⟩
  | 68 => ⟨S8x256x4096, .f32⟩
  | 69 => ⟨S8x256x4096, .f32⟩
  | 70 => ⟨S_, .i32⟩
  | 71 => ⟨S4096, .i32⟩
  | 72 => ⟨S4096, .i1⟩
  | 73 => ⟨S8x256x6, .f32⟩
  | 74 => ⟨S8x256x4090, .f32⟩
  | 75 => ⟨S8x256x4096, .f32⟩
  | 76 => ⟨S_, .f32⟩
  | 77 => ⟨S_, .f32⟩
  | 78 => ⟨S8x256x4096, .i1⟩
  | 79 => ⟨S8x256x4096, .f32⟩
  | 80 => ⟨S8x256x4096, .f32⟩
  | 81 => ⟨S_, .i32⟩
  | 82 => ⟨S4096, .i32⟩
  | 83 => ⟨S4096, .i1⟩
  | 84 => ⟨S8x256x7, .f32⟩
  | 85 => ⟨S8x256x4089, .f32⟩
  | 86 => ⟨S8x256x4096, .f32⟩
  | 87 => ⟨S_, .f32⟩
  | 88 => ⟨S_, .f32⟩
  | 89 => ⟨S8x256x4096, .i1⟩
  | 90 => ⟨S8x256x4096, .f32⟩
  | 91 => ⟨S8x256x4096, .f32⟩
  | 92 => ⟨S8x256x4096x1, .f32⟩
  | 93 => ⟨S8x256x4096x1, .f32⟩
  | 94 => ⟨S8x256x4096x1, .f32⟩
  | 95 => ⟨S8x256x4096x1, .f32⟩
  | 96 => ⟨S8x256x4096x1, .f32⟩
  | 97 => ⟨S8x256x4096x1, .f32⟩
  | 98 => ⟨S8x256x4096x1, .f32⟩
  | 99 => ⟨S8x256x4096x1, .f32⟩
  | 100 => ⟨S8x256x4096x8, .f32⟩
  | 101 => ⟨S_, .i32⟩
  | 102 => ⟨S4096, .i32⟩
  | 103 => ⟨S4096, .i1⟩
  | 104 => ⟨S8x4096, .f32⟩
  | 105 => ⟨S8x0, .f32⟩
  | 106 => ⟨S8x4096, .f32⟩
  | 107 => ⟨S_, .f32⟩
  | 108 => ⟨S_, .f32⟩
  | 109 => ⟨S8x4096, .i1⟩
  | 110 => ⟨S8x4096, .f32⟩
  | 111 => ⟨S8x4096, .f32⟩
  | 112 => ⟨S8x4096, .f32⟩
  | 113 => ⟨S_, .i32⟩
  | 114 => ⟨S4096, .i32⟩
  | 115 => ⟨S4096, .i1⟩
  | 116 => ⟨S8x1, .f32⟩
  | 117 => ⟨S8x4095, .f32⟩
  | 118 => ⟨S8x4096, .f32⟩
  | 119 => ⟨S_, .f32⟩
  | 120 => ⟨S_, .f32⟩
  | 121 => ⟨S8x4096, .i1⟩
  | 122 => ⟨S8x4096, .f32⟩
  | 123 => ⟨S8x4096, .f32⟩
  | 124 => ⟨S8x4096, .f32⟩
  | 125 => ⟨S_, .i32⟩
  | 126 => ⟨S4096, .i32⟩
  | 127 => ⟨S4096, .i1⟩
  | _ => ⟨S8x256x4096, .f32⟩

abbrev hbmTy0_1 (i : Nat) : BufTy := match i % 128 with
  | 0 => ⟨S8x2, .f32⟩
  | 1 => ⟨S8x4094, .f32⟩
  | 2 => ⟨S8x4096, .f32⟩
  | 3 => ⟨S_, .f32⟩
  | 4 => ⟨S_, .f32⟩
  | 5 => ⟨S8x4096, .i1⟩
  | 6 => ⟨S8x4096, .f32⟩
  | 7 => ⟨S8x4096, .f32⟩
  | 8 => ⟨S8x4096, .f32⟩
  | 9 => ⟨S_, .i32⟩
  | 10 => ⟨S4096, .i32⟩
  | 11 => ⟨S4096, .i1⟩
  | 12 => ⟨S8x3, .f32⟩
  | 13 => ⟨S8x4093, .f32⟩
  | 14 => ⟨S8x4096, .f32⟩
  | 15 => ⟨S_, .f32⟩
  | 16 => ⟨S_, .f32⟩
  | 17 => ⟨S8x4096, .i1⟩
  | 18 => ⟨S8x4096, .f32⟩
  | 19 => ⟨S8x4096, .f32⟩
  | 20 => ⟨S8x4096, .f32⟩
  | 21 => ⟨S_, .i32⟩
  | 22 => ⟨S4096, .i32⟩
  | 23 => ⟨S4096, .i1⟩
  | 24 => ⟨S8x4, .f32⟩
  | 25 => ⟨S8x4092, .f32⟩
  | 26 => ⟨S8x4096, .f32⟩
  | 27 => ⟨S_, .f32⟩
  | 28 => ⟨S_, .f32⟩
  | 29 => ⟨S8x4096, .i1⟩
  | 30 => ⟨S8x4096, .f32⟩
  | 31 => ⟨S8x4096, .f32⟩
  | 32 => ⟨S8x4096, .f32⟩
  | 33 => ⟨S_, .i32⟩
  | 34 => ⟨S4096, .i32⟩
  | 35 => ⟨S4096, .i1⟩
  | 36 => ⟨S8x5, .f32⟩
  | 37 => ⟨S8x4091, .f32⟩
  | 38 => ⟨S8x4096, .f32⟩
  | 39 => ⟨S_, .f32⟩
  | 40 => ⟨S_, .f32⟩
  | 41 => ⟨S8x4096, .i1⟩
  | 42 => ⟨S8x4096, .f32⟩
  | 43 => ⟨S8x4096, .f32⟩
  | 44 => ⟨S8x4096, .f32⟩
  | 45 => ⟨S_, .i32⟩
  | 46 => ⟨S4096, .i32⟩
  | 47 => ⟨S4096, .i1⟩
  | 48 => ⟨S8x6, .f32⟩
  | 49 => ⟨S8x4090, .f32⟩
  | 50 => ⟨S8x4096, .f32⟩
  | 51 => ⟨S_, .f32⟩
  | 52 => ⟨S_, .f32⟩
  | 53 => ⟨S8x4096, .i1⟩
  | 54 => ⟨S8x4096, .f32⟩
  | 55 => ⟨S8x4096, .f32⟩
  | 56 => ⟨S8x4096, .f32⟩
  | 57 => ⟨S_, .i32⟩
  | 58 => ⟨S4096, .i32⟩
  | 59 => ⟨S4096, .i1⟩
  | 60 => ⟨S8x7, .f32⟩
  | 61 => ⟨S8x4089, .f32⟩
  | 62 => ⟨S8x4096, .f32⟩
  | 63 => ⟨S_, .f32⟩
  | 64 => ⟨S_, .f32⟩
  | 65 => ⟨S8x4096, .i1⟩
  | 66 => ⟨S8x4096, .f32⟩
  | 67 => ⟨S8x4096, .f32⟩
  | 68 => ⟨S8x4096, .f32⟩
  | 69 => ⟨S8x4096x1, .f32⟩
  | 70 => ⟨S8x4096x1, .f32⟩
  | 71 => ⟨S8x4096x1, .f32⟩
  | 72 => ⟨S8x4096x1, .f32⟩
  | 73 => ⟨S8x4096x1, .f32⟩
  | 74 => ⟨S8x4096x1, .f32⟩
  | 75 => ⟨S8x4096x1, .f32⟩
  | 76 => ⟨S8x4096x1, .f32⟩
  | 77 => ⟨S8x4096x8, .f32⟩
  | 78 => ⟨S_, .f32⟩
  | 79 => ⟨S8x4096, .f32⟩
  | 80 => ⟨S_, .f32⟩
  | 81 => ⟨S8x4096, .f32⟩
  | 82 => ⟨S8x4096, .f32⟩
  | 83 => ⟨S8x4096x1, .f32⟩
  | 84 => ⟨S8x4096x8, .f32⟩
  | 85 => ⟨S8x4096x8, .f32⟩
  | 86 => ⟨S8x4096x8, .f32⟩
  | 87 => ⟨S_, .f32⟩
  | 88 => ⟨S8x4096, .f32⟩
  | 89 => ⟨S8x4096x1, .f32⟩
  | 90 => ⟨S8x4096x8, .f32⟩
  | 91 => ⟨S8x4096x8, .f32⟩
  | 92 => ⟨S8x1x4096x8, .f32⟩
  | 93 => ⟨S8x256x4096x8, .f32⟩
  | 94 => ⟨S8x256x4096x8, .f32⟩
  | 95 => ⟨S_, .f32⟩
  | 96 => ⟨S8x256x4096, .f32⟩
  | 97 => ⟨S1x1x1x8, .f32⟩
  | 98 => ⟨S8x256x4096x8, .f32⟩
  | 99 => ⟨S8x256x4096x8, .f32⟩
  | 100 => ⟨S_, .f32⟩
  | 101 => ⟨S8x256x4096, .f32⟩
  | 102 => ⟨S8x256x1x4096, .f32⟩
  | 103 => ⟨S8x256x1x4096, .f32⟩
  | 104 => ⟨S8x256x2x4096, .f32⟩
  | 105 => ⟨S8x256x2x2, .f32⟩
  | 106 => ⟨S_, .f32⟩
  | 107 => ⟨S8x256x2, .f32⟩
  | 108 => ⟨S_, .f32⟩
  | 109 => ⟨S8x256x2, .f32⟩
  | 110 => ⟨S8x256x2, .f32⟩
  | 111 => ⟨S8x256x2x1, .f32⟩
  | 112 => ⟨S8x256x2x2, .f32⟩
  | 113 => ⟨S8x256x2x2, .f32⟩
  | 114 => ⟨S8x256x2x2, .f32⟩
  | 115 => ⟨S_, .f32⟩
  | 116 => ⟨S8x256x2, .f32⟩
  | 117 => ⟨S8x256x2x1, .f32⟩
  | 118 => ⟨S8x256x2x2, .f32⟩
  | 119 => ⟨S8x256x2x2, .f32⟩
  | 120 => ⟨S8x256x2x4096, .f32⟩
  | 121 => ⟨S_, .f32⟩
  | 122 => ⟨S8x256x4096, .f32⟩
  | 123 => ⟨S_, .f32⟩
  | 124 => ⟨S8x256x4096, .f32⟩
  | 125 => ⟨S8x256x4096, .f32⟩
  | _ => ⟨S8x256x4096, .f32⟩

abbrev hbmTy (i : Nat) : BufTy := match i / 128 with
  | 0 => hbmTy0_0 i
  | 1 => hbmTy0_1 i
  | _ => ⟨S8x256x4096, .f32⟩

abbrev bufTy : (tb : Table) → Fin (tcTables nBuf tb) → BufTy
  | .hbm, ⟨i, _⟩ => hbmTy i
  | _, _ => ⟨S8x256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_v3 : Ref sig .tc := ⟨.hbm, 9, rfl⟩
abbrev main_cst : Ref sig .tc := ⟨.hbm, 10, rfl⟩
abbrev main_call1_v0 : Ref sig .tc := ⟨.hbm, 11, rfl⟩
abbrev main_call1_v1 : Ref sig .tc := ⟨.hbm, 12, rfl⟩
abbrev main_call1_v2 : Ref sig .tc := ⟨.hbm, 13, rfl⟩
abbrev main_v4 : Ref sig .tc := ⟨.hbm, 14, rfl⟩
abbrev main_c_0 : Ref sig .tc := ⟨.hbm, 15, rfl⟩
abbrev main_v5 : Ref sig .tc := ⟨.hbm, 16, rfl⟩
abbrev main_v6 : Ref sig .tc := ⟨.hbm, 17, rfl⟩
abbrev main_call2_v0 : Ref sig .tc := ⟨.hbm, 18, rfl⟩
abbrev main_call2_v1 : Ref sig .tc := ⟨.hbm, 19, rfl⟩
abbrev main_v7 : Ref sig .tc := ⟨.hbm, 20, rfl⟩
abbrev main_cst_1 : Ref sig .tc := ⟨.hbm, 21, rfl⟩
abbrev main_call3_v0 : Ref sig .tc := ⟨.hbm, 22, rfl⟩
abbrev main_call3_v1 : Ref sig .tc := ⟨.hbm, 23, rfl⟩
abbrev main_call3_v2 : Ref sig .tc := ⟨.hbm, 24, rfl⟩
abbrev main_v8 : Ref sig .tc := ⟨.hbm, 25, rfl⟩
abbrev main_c_2 : Ref sig .tc := ⟨.hbm, 26, rfl⟩
abbrev main_v9 : Ref sig .tc := ⟨.hbm, 27, rfl⟩
abbrev main_v10 : Ref sig .tc := ⟨.hbm, 28, rfl⟩
abbrev main_call4_v0 : Ref sig .tc := ⟨.hbm, 29, rfl⟩
abbrev main_call4_v1 : Ref sig .tc := ⟨.hbm, 30, rfl⟩
abbrev main_v11 : Ref sig .tc := ⟨.hbm, 31, rfl⟩
abbrev main_cst_3 : Ref sig .tc := ⟨.hbm, 32, rfl⟩
abbrev main_call5_v0 : Ref sig .tc := ⟨.hbm, 33, rfl⟩
abbrev main_call5_v1 : Ref sig .tc := ⟨.hbm, 34, rfl⟩
abbrev main_call5_v2 : Ref sig .tc := ⟨.hbm, 35, rfl⟩
abbrev main_v12 : Ref sig .tc := ⟨.hbm, 36, rfl⟩
abbrev main_c_4 : Ref sig .tc := ⟨.hbm, 37, rfl⟩
abbrev main_v13 : Ref sig .tc := ⟨.hbm, 38, rfl⟩
abbrev main_v14 : Ref sig .tc := ⟨.hbm, 39, rfl⟩
abbrev main_call6_v0 : Ref sig .tc := ⟨.hbm, 40, rfl⟩
abbrev main_call6_v1 : Ref sig .tc := ⟨.hbm, 41, rfl⟩
abbrev main_v15 : Ref sig .tc := ⟨.hbm, 42, rfl⟩
abbrev main_cst_5 : Ref sig .tc := ⟨.hbm, 43, rfl⟩
abbrev main_call7_v0 : Ref sig .tc := ⟨.hbm, 44, rfl⟩
abbrev main_call7_v1 : Ref sig .tc := ⟨.hbm, 45, rfl⟩
abbrev main_call7_v2 : Ref sig .tc := ⟨.hbm, 46, rfl⟩
abbrev main_v16 : Ref sig .tc := ⟨.hbm, 47, rfl⟩
abbrev main_c_6 : Ref sig .tc := ⟨.hbm, 48, rfl⟩
abbrev main_v17 : Ref sig .tc := ⟨.hbm, 49, rfl⟩
abbrev main_v18 : Ref sig .tc := ⟨.hbm, 50, rfl⟩
abbrev main_call8_v0 : Ref sig .tc := ⟨.hbm, 51, rfl⟩
abbrev main_call8_v1 : Ref sig .tc := ⟨.hbm, 52, rfl⟩
abbrev main_v19 : Ref sig .tc := ⟨.hbm, 53, rfl⟩
abbrev main_cst_7 : Ref sig .tc := ⟨.hbm, 54, rfl⟩
abbrev main_call9_v0 : Ref sig .tc := ⟨.hbm, 55, rfl⟩
abbrev main_call9_v1 : Ref sig .tc := ⟨.hbm, 56, rfl⟩
abbrev main_call9_v2 : Ref sig .tc := ⟨.hbm, 57, rfl⟩
abbrev main_v20 : Ref sig .tc := ⟨.hbm, 58, rfl⟩
abbrev main_c_8 : Ref sig .tc := ⟨.hbm, 59, rfl⟩
abbrev main_v21 : Ref sig .tc := ⟨.hbm, 60, rfl⟩
abbrev main_v22 : Ref sig .tc := ⟨.hbm, 61, rfl⟩
abbrev main_call10_v0 : Ref sig .tc := ⟨.hbm, 62, rfl⟩
abbrev main_call10_v1 : Ref sig .tc := ⟨.hbm, 63, rfl⟩
abbrev main_v23 : Ref sig .tc := ⟨.hbm, 64, rfl⟩
abbrev main_cst_9 : Ref sig .tc := ⟨.hbm, 65, rfl⟩
abbrev main_call11_v0 : Ref sig .tc := ⟨.hbm, 66, rfl⟩
abbrev main_call11_v1 : Ref sig .tc := ⟨.hbm, 67, rfl⟩
abbrev main_call11_v2 : Ref sig .tc := ⟨.hbm, 68, rfl⟩
abbrev main_v24 : Ref sig .tc := ⟨.hbm, 69, rfl⟩
abbrev main_c_10 : Ref sig .tc := ⟨.hbm, 70, rfl⟩
abbrev main_v25 : Ref sig .tc := ⟨.hbm, 71, rfl⟩
abbrev main_v26 : Ref sig .tc := ⟨.hbm, 72, rfl⟩
abbrev main_call12_v0 : Ref sig .tc := ⟨.hbm, 73, rfl⟩
abbrev main_call12_v1 : Ref sig .tc := ⟨.hbm, 74, rfl⟩
abbrev main_v27 : Ref sig .tc := ⟨.hbm, 75, rfl⟩
abbrev main_cst_11 : Ref sig .tc := ⟨.hbm, 76, rfl⟩
abbrev main_call13_v0 : Ref sig .tc := ⟨.hbm, 77, rfl⟩
abbrev main_call13_v1 : Ref sig .tc := ⟨.hbm, 78, rfl⟩
abbrev main_call13_v2 : Ref sig .tc := ⟨.hbm, 79, rfl⟩
abbrev main_v28 : Ref sig .tc := ⟨.hbm, 80, rfl⟩
abbrev main_c_12 : Ref sig .tc := ⟨.hbm, 81, rfl⟩
abbrev main_v29 : Ref sig .tc := ⟨.hbm, 82, rfl⟩
abbrev main_v30 : Ref sig .tc := ⟨.hbm, 83, rfl⟩
abbrev main_call14_v0 : Ref sig .tc := ⟨.hbm, 84, rfl⟩
abbrev main_call14_v1 : Ref sig .tc := ⟨.hbm, 85, rfl⟩
abbrev main_v31 : Ref sig .tc := ⟨.hbm, 86, rfl⟩
abbrev main_cst_13 : Ref sig .tc := ⟨.hbm, 87, rfl⟩
abbrev main_call15_v0 : Ref sig .tc := ⟨.hbm, 88, rfl⟩
abbrev main_call15_v1 : Ref sig .tc := ⟨.hbm, 89, rfl⟩
abbrev main_call15_v2 : Ref sig .tc := ⟨.hbm, 90, rfl⟩
abbrev main_v32 : Ref sig .tc := ⟨.hbm, 91, rfl⟩
abbrev main_v33 : Ref sig .tc := ⟨.hbm, 92, rfl⟩
abbrev main_v34 : Ref sig .tc := ⟨.hbm, 93, rfl⟩
abbrev main_v35 : Ref sig .tc := ⟨.hbm, 94, rfl⟩
abbrev main_v36 : Ref sig .tc := ⟨.hbm, 95, rfl⟩
abbrev main_v37 : Ref sig .tc := ⟨.hbm, 96, rfl⟩
abbrev main_v38 : Ref sig .tc := ⟨.hbm, 97, rfl⟩
abbrev main_v39 : Ref sig .tc := ⟨.hbm, 98, rfl⟩
abbrev main_v40 : Ref sig .tc := ⟨.hbm, 99, rfl⟩
abbrev main_v41 : Ref sig .tc := ⟨.hbm, 100, rfl⟩
abbrev main_c_14 : Ref sig .tc := ⟨.hbm, 101, rfl⟩
abbrev main_v42 : Ref sig .tc := ⟨.hbm, 102, rfl⟩
abbrev main_v43 : Ref sig .tc := ⟨.hbm, 103, rfl⟩
abbrev main_call16_v0 : Ref sig .tc := ⟨.hbm, 104, rfl⟩
abbrev main_call16_v1 : Ref sig .tc := ⟨.hbm, 105, rfl⟩
abbrev main_v44 : Ref sig .tc := ⟨.hbm, 106, rfl⟩
abbrev main_cst_15 : Ref sig .tc := ⟨.hbm, 107, rfl⟩
abbrev main_call17_v0 : Ref sig .tc := ⟨.hbm, 108, rfl⟩
abbrev main_call17_v1 : Ref sig .tc := ⟨.hbm, 109, rfl⟩
abbrev main_call17_v2 : Ref sig .tc := ⟨.hbm, 110, rfl⟩
abbrev main_v45 : Ref sig .tc := ⟨.hbm, 111, rfl⟩
abbrev main_v46 : Ref sig .tc := ⟨.hbm, 112, rfl⟩
abbrev main_c_16 : Ref sig .tc := ⟨.hbm, 113, rfl⟩
abbrev main_v47 : Ref sig .tc := ⟨.hbm, 114, rfl⟩
abbrev main_v48 : Ref sig .tc := ⟨.hbm, 115, rfl⟩
abbrev main_call18_v0 : Ref sig .tc := ⟨.hbm, 116, rfl⟩
abbrev main_call18_v1 : Ref sig .tc := ⟨.hbm, 117, rfl⟩
abbrev main_v49 : Ref sig .tc := ⟨.hbm, 118, rfl⟩
abbrev main_cst_17 : Ref sig .tc := ⟨.hbm, 119, rfl⟩
abbrev main_call19_v0 : Ref sig .tc := ⟨.hbm, 120, rfl⟩
abbrev main_call19_v1 : Ref sig .tc := ⟨.hbm, 121, rfl⟩
abbrev main_call19_v2 : Ref sig .tc := ⟨.hbm, 122, rfl⟩
abbrev main_v50 : Ref sig .tc := ⟨.hbm, 123, rfl⟩
abbrev main_v51 : Ref sig .tc := ⟨.hbm, 124, rfl⟩
abbrev main_c_18 : Ref sig .tc := ⟨.hbm, 125, rfl⟩
abbrev main_v52 : Ref sig .tc := ⟨.hbm, 126, rfl⟩
abbrev main_v53 : Ref sig .tc := ⟨.hbm, 127, rfl⟩
abbrev main_call20_v0 : Ref sig .tc := ⟨.hbm, 128, rfl⟩
abbrev main_call20_v1 : Ref sig .tc := ⟨.hbm, 129, rfl⟩
abbrev main_v54 : Ref sig .tc := ⟨.hbm, 130, rfl⟩
abbrev main_cst_19 : Ref sig .tc := ⟨.hbm, 131, rfl⟩
abbrev main_call21_v0 : Ref sig .tc := ⟨.hbm, 132, rfl⟩
abbrev main_call21_v1 : Ref sig .tc := ⟨.hbm, 133, rfl⟩
abbrev main_call21_v2 : Ref sig .tc := ⟨.hbm, 134, rfl⟩
abbrev main_v55 : Ref sig .tc := ⟨.hbm, 135, rfl⟩
abbrev main_v56 : Ref sig .tc := ⟨.hbm, 136, rfl⟩
abbrev main_c_20 : Ref sig .tc := ⟨.hbm, 137, rfl⟩
abbrev main_v57 : Ref sig .tc := ⟨.hbm, 138, rfl⟩
abbrev main_v58 : Ref sig .tc := ⟨.hbm, 139, rfl⟩
abbrev main_call22_v0 : Ref sig .tc := ⟨.hbm, 140, rfl⟩
abbrev main_call22_v1 : Ref sig .tc := ⟨.hbm, 141, rfl⟩
abbrev main_v59 : Ref sig .tc := ⟨.hbm, 142, rfl⟩
abbrev main_cst_21 : Ref sig .tc := ⟨.hbm, 143, rfl⟩
abbrev main_call23_v0 : Ref sig .tc := ⟨.hbm, 144, rfl⟩
abbrev main_call23_v1 : Ref sig .tc := ⟨.hbm, 145, rfl⟩
abbrev main_call23_v2 : Ref sig .tc := ⟨.hbm, 146, rfl⟩
abbrev main_v60 : Ref sig .tc := ⟨.hbm, 147, rfl⟩
abbrev main_v61 : Ref sig .tc := ⟨.hbm, 148, rfl⟩
abbrev main_c_22 : Ref sig .tc := ⟨.hbm, 149, rfl⟩
abbrev main_v62 : Ref sig .tc := ⟨.hbm, 150, rfl⟩
abbrev main_v63 : Ref sig .tc := ⟨.hbm, 151, rfl⟩
abbrev main_call24_v0 : Ref sig .tc := ⟨.hbm, 152, rfl⟩
abbrev main_call24_v1 : Ref sig .tc := ⟨.hbm, 153, rfl⟩
abbrev main_v64 : Ref sig .tc := ⟨.hbm, 154, rfl⟩
abbrev main_cst_23 : Ref sig .tc := ⟨.hbm, 155, rfl⟩
abbrev main_call25_v0 : Ref sig .tc := ⟨.hbm, 156, rfl⟩
abbrev main_call25_v1 : Ref sig .tc := ⟨.hbm, 157, rfl⟩
abbrev main_call25_v2 : Ref sig .tc := ⟨.hbm, 158, rfl⟩
abbrev main_v65 : Ref sig .tc := ⟨.hbm, 159, rfl⟩
abbrev main_v66 : Ref sig .tc := ⟨.hbm, 160, rfl⟩
abbrev main_c_24 : Ref sig .tc := ⟨.hbm, 161, rfl⟩
abbrev main_v67 : Ref sig .tc := ⟨.hbm, 162, rfl⟩
abbrev main_v68 : Ref sig .tc := ⟨.hbm, 163, rfl⟩
abbrev main_call26_v0 : Ref sig .tc := ⟨.hbm, 164, rfl⟩
abbrev main_call26_v1 : Ref sig .tc := ⟨.hbm, 165, rfl⟩
abbrev main_v69 : Ref sig .tc := ⟨.hbm, 166, rfl⟩
abbrev main_cst_25 : Ref sig .tc := ⟨.hbm, 167, rfl⟩
abbrev main_call27_v0 : Ref sig .tc := ⟨.hbm, 168, rfl⟩
abbrev main_call27_v1 : Ref sig .tc := ⟨.hbm, 169, rfl⟩
abbrev main_call27_v2 : Ref sig .tc := ⟨.hbm, 170, rfl⟩
abbrev main_v70 : Ref sig .tc := ⟨.hbm, 171, rfl⟩
abbrev main_v71 : Ref sig .tc := ⟨.hbm, 172, rfl⟩
abbrev main_c_26 : Ref sig .tc := ⟨.hbm, 173, rfl⟩
abbrev main_v72 : Ref sig .tc := ⟨.hbm, 174, rfl⟩
abbrev main_v73 : Ref sig .tc := ⟨.hbm, 175, rfl⟩
abbrev main_call28_v0 : Ref sig .tc := ⟨.hbm, 176, rfl⟩
abbrev main_call28_v1 : Ref sig .tc := ⟨.hbm, 177, rfl⟩
abbrev main_v74 : Ref sig .tc := ⟨.hbm, 178, rfl⟩
abbrev main_cst_27 : Ref sig .tc := ⟨.hbm, 179, rfl⟩
abbrev main_call29_v0 : Ref sig .tc := ⟨.hbm, 180, rfl⟩
abbrev main_call29_v1 : Ref sig .tc := ⟨.hbm, 181, rfl⟩
abbrev main_call29_v2 : Ref sig .tc := ⟨.hbm, 182, rfl⟩
abbrev main_v75 : Ref sig .tc := ⟨.hbm, 183, rfl⟩
abbrev main_v76 : Ref sig .tc := ⟨.hbm, 184, rfl⟩
abbrev main_c_28 : Ref sig .tc := ⟨.hbm, 185, rfl⟩
abbrev main_v77 : Ref sig .tc := ⟨.hbm, 186, rfl⟩
abbrev main_v78 : Ref sig .tc := ⟨.hbm, 187, rfl⟩
abbrev main_call30_v0 : Ref sig .tc := ⟨.hbm, 188, rfl⟩
abbrev main_call30_v1 : Ref sig .tc := ⟨.hbm, 189, rfl⟩
abbrev main_v79 : Ref sig .tc := ⟨.hbm, 190, rfl⟩
abbrev main_cst_29 : Ref sig .tc := ⟨.hbm, 191, rfl⟩
abbrev main_call31_v0 : Ref sig .tc := ⟨.hbm, 192, rfl⟩
abbrev main_call31_v1 : Ref sig .tc := ⟨.hbm, 193, rfl⟩
abbrev main_call31_v2 : Ref sig .tc := ⟨.hbm, 194, rfl⟩
abbrev main_v80 : Ref sig .tc := ⟨.hbm, 195, rfl⟩
abbrev main_v81 : Ref sig .tc := ⟨.hbm, 196, rfl⟩
abbrev main_v82 : Ref sig .tc := ⟨.hbm, 197, rfl⟩
abbrev main_v83 : Ref sig .tc := ⟨.hbm, 198, rfl⟩
abbrev main_v84 : Ref sig .tc := ⟨.hbm, 199, rfl⟩
abbrev main_v85 : Ref sig .tc := ⟨.hbm, 200, rfl⟩
abbrev main_v86 : Ref sig .tc := ⟨.hbm, 201, rfl⟩
abbrev main_v87 : Ref sig .tc := ⟨.hbm, 202, rfl⟩
abbrev main_v88 : Ref sig .tc := ⟨.hbm, 203, rfl⟩
abbrev main_v89 : Ref sig .tc := ⟨.hbm, 204, rfl⟩
abbrev main_v90 : Ref sig .tc := ⟨.hbm, 205, rfl⟩
abbrev main_cst_30 : Ref sig .tc := ⟨.hbm, 206, rfl⟩
abbrev main_v91 : Ref sig .tc := ⟨.hbm, 207, rfl⟩
abbrev main_cst_31 : Ref sig .tc := ⟨.hbm, 208, rfl⟩
abbrev main_v92 : Ref sig .tc := ⟨.hbm, 209, rfl⟩
abbrev main_v93 : Ref sig .tc := ⟨.hbm, 210, rfl⟩
abbrev main_v94 : Ref sig .tc := ⟨.hbm, 211, rfl⟩
abbrev main_v95 : Ref sig .tc := ⟨.hbm, 212, rfl⟩
abbrev main_v96 : Ref sig .tc := ⟨.hbm, 213, rfl⟩
abbrev main_v97 : Ref sig .tc := ⟨.hbm, 214, rfl⟩
abbrev main_cst_32 : Ref sig .tc := ⟨.hbm, 215, rfl⟩
abbrev main_v98 : Ref sig .tc := ⟨.hbm, 216, rfl⟩
abbrev main_v99 : Ref sig .tc := ⟨.hbm, 217, rfl⟩
abbrev main_v100 : Ref sig .tc := ⟨.hbm, 218, rfl⟩
abbrev main_v101 : Ref sig .tc := ⟨.hbm, 219, rfl⟩
abbrev main_v102 : Ref sig .tc := ⟨.hbm, 220, rfl⟩
abbrev main_v103 : Ref sig .tc := ⟨.hbm, 221, rfl⟩
abbrev main_v104 : Ref sig .tc := ⟨.hbm, 222, rfl⟩
abbrev main_cst_33 : Ref sig .tc := ⟨.hbm, 223, rfl⟩
abbrev main_v105 : Ref sig .tc := ⟨.hbm, 224, rfl⟩
abbrev main_v106 : Ref sig .tc := ⟨.hbm, 225, rfl⟩
abbrev main_v107 : Ref sig .tc := ⟨.hbm, 226, rfl⟩
abbrev main_v108 : Ref sig .tc := ⟨.hbm, 227, rfl⟩
abbrev main_cst_34 : Ref sig .tc := ⟨.hbm, 228, rfl⟩
abbrev main_v109 : Ref sig .tc := ⟨.hbm, 229, rfl⟩
abbrev main_v110 : Ref sig .tc := ⟨.hbm, 230, rfl⟩
abbrev main_v111 : Ref sig .tc := ⟨.hbm, 231, rfl⟩
abbrev main_v112 : Ref sig .tc := ⟨.hbm, 232, rfl⟩
abbrev main_v113 : Ref sig .tc := ⟨.hbm, 233, rfl⟩
abbrev main_cst_35 : Ref sig .tc := ⟨.hbm, 234, rfl⟩
abbrev main_v114 : Ref sig .tc := ⟨.hbm, 235, rfl⟩
abbrev main_cst_36 : Ref sig .tc := ⟨.hbm, 236, rfl⟩
abbrev main_v115 : Ref sig .tc := ⟨.hbm, 237, rfl⟩
abbrev main_v116 : Ref sig .tc := ⟨.hbm, 238, rfl⟩
abbrev main_v117 : Ref sig .tc := ⟨.hbm, 239, rfl⟩
abbrev main_v118 : Ref sig .tc := ⟨.hbm, 240, rfl⟩
abbrev main_v119 : Ref sig .tc := ⟨.hbm, 241, rfl⟩
abbrev main_v120 : Ref sig .tc := ⟨.hbm, 242, rfl⟩
abbrev main_cst_37 : Ref sig .tc := ⟨.hbm, 243, rfl⟩
abbrev main_v121 : Ref sig .tc := ⟨.hbm, 244, rfl⟩
abbrev main_v122 : Ref sig .tc := ⟨.hbm, 245, rfl⟩
abbrev main_v123 : Ref sig .tc := ⟨.hbm, 246, rfl⟩
abbrev main_v124 : Ref sig .tc := ⟨.hbm, 247, rfl⟩
abbrev main_v125 : Ref sig .tc := ⟨.hbm, 248, rfl⟩
abbrev main_cst_38 : Ref sig .tc := ⟨.hbm, 249, rfl⟩
abbrev main_v126 : Ref sig .tc := ⟨.hbm, 250, rfl⟩
abbrev main_cst_39 : Ref sig .tc := ⟨.hbm, 251, rfl⟩
abbrev main_v127 : Ref sig .tc := ⟨.hbm, 252, rfl⟩
abbrev main_v128 : Ref sig .tc := ⟨.hbm, 253, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  slices_S8x256x4096_S8x256x4096_0_0_0 : S8x256x4096.Slices ![0, 0, 0] S8x256x4096
  slices_S8x256x4096_S8x256x0_0_0_0 : S8x256x4096.Slices ![0, 0, 0] S8x256x0
  concatenates_S8x256x4096_S8x256x0_S8x256x4096_d2 : Shape.Concatenates [S8x256x4096, S8x256x0] S8x256x4096 2
  bcast_S4096_S8x256x4096_2 : S4096.BroadcastsInDim S8x256x4096 (![2] : Fin 1 → Fin S8x256x4096.rank)
  bcast_S_S8x256x4096 : S_.BroadcastsInDim S8x256x4096 (![] : Fin 0 → Fin S8x256x4096.rank)
  slices_S8x256x4096_S8x256x1_0_0_4095 : S8x256x4096.Slices ![0, 0, 4095] S8x256x1
  slices_S8x256x4096_S8x256x4095_0_0_0 : S8x256x4096.Slices ![0, 0, 0] S8x256x4095
  concatenates_S8x256x1_S8x256x4095_S8x256x4096_d2 : Shape.Concatenates [S8x256x1, S8x256x4095] S8x256x4096 2
  slices_S8x256x4096_S8x256x2_0_0_4094 : S8x256x4096.Slices ![0, 0, 4094] S8x256x2
  slices_S8x256x4096_S8x256x4094_0_0_0 : S8x256x4096.Slices ![0, 0, 0] S8x256x4094
  concatenates_S8x256x2_S8x256x4094_S8x256x4096_d2 : Shape.Concatenates [S8x256x2, S8x256x4094] S8x256x4096 2
  slices_S8x256x4096_S8x256x3_0_0_4093 : S8x256x4096.Slices ![0, 0, 4093] S8x256x3
  slices_S8x256x4096_S8x256x4093_0_0_0 : S8x256x4096.Slices ![0, 0, 0] S8x256x4093
  concatenates_S8x256x3_S8x256x4093_S8x256x4096_d2 : Shape.Concatenates [S8x256x3, S8x256x4093] S8x256x4096 2
  slices_S8x256x4096_S8x256x4_0_0_4092 : S8x256x4096.Slices ![0, 0, 4092] S8x256x4
  slices_S8x256x4096_S8x256x4092_0_0_0 : S8x256x4096.Slices ![0, 0, 0] S8x256x4092
  concatenates_S8x256x4_S8x256x4092_S8x256x4096_d2 : Shape.Concatenates [S8x256x4, S8x256x4092] S8x256x4096 2
  slices_S8x256x4096_S8x256x5_0_0_4091 : S8x256x4096.Slices ![0, 0, 4091] S8x256x5
  slices_S8x256x4096_S8x256x4091_0_0_0 : S8x256x4096.Slices ![0, 0, 0] S8x256x4091
  concatenates_S8x256x5_S8x256x4091_S8x256x4096_d2 : Shape.Concatenates [S8x256x5, S8x256x4091] S8x256x4096 2
  slices_S8x256x4096_S8x256x6_0_0_4090 : S8x256x4096.Slices ![0, 0, 4090] S8x256x6
  slices_S8x256x4096_S8x256x4090_0_0_0 : S8x256x4096.Slices ![0, 0, 0] S8x256x4090
  concatenates_S8x256x6_S8x256x4090_S8x256x4096_d2 : Shape.Concatenates [S8x256x6, S8x256x4090] S8x256x4096 2
  slices_S8x256x4096_S8x256x7_0_0_4089 : S8x256x4096.Slices ![0, 0, 4089] S8x256x7
  slices_S8x256x4096_S8x256x4089_0_0_0 : S8x256x4096.Slices ![0, 0, 0] S8x256x4089
  concatenates_S8x256x7_S8x256x4089_S8x256x4096_d2 : Shape.Concatenates [S8x256x7, S8x256x4089] S8x256x4096 2
  bcast_S8x256x4096_S8x256x4096x1_0_1_2 : S8x256x4096.BroadcastsInDim S8x256x4096x1 (![0, 1, 2] : Fin 3 → Fin S8x256x4096x1.rank)
  concatenates_S8x256x4096x1_S8x256x4096x1_S8x256x4096x1_S8x256x4096x1_S8x256x4096x1_S8x256x4096x1_S8x256x4096x1_S8x256x4096x1_S8x256x4096x8_d3 : Shape.Concatenates [S8x256x4096x1, S8x256x4096x1, S8x256x4096x1, S8x256x4096x1, S8x256x4096x1, S8x256x4096x1, S8x256x4096x1, S8x256x4096x1] S8x256x4096x8 3
  slices_S8x4096_S8x4096_0_0 : S8x4096.Slices ![0, 0] S8x4096
  slices_S8x4096_S8x0_0_0 : S8x4096.Slices ![0, 0] S8x0
  concatenates_S8x4096_S8x0_S8x4096_d1 : Shape.Concatenates [S8x4096, S8x0] S8x4096 1
  bcast_S4096_S8x4096_1 : S4096.BroadcastsInDim S8x4096 (![1] : Fin 1 → Fin S8x4096.rank)
  bcast_S_S8x4096 : S_.BroadcastsInDim S8x4096 (![] : Fin 0 → Fin S8x4096.rank)
  slices_S8x4096_S8x1_0_4095 : S8x4096.Slices ![0, 4095] S8x1
  slices_S8x4096_S8x4095_0_0 : S8x4096.Slices ![0, 0] S8x4095
  concatenates_S8x1_S8x4095_S8x4096_d1 : Shape.Concatenates [S8x1, S8x4095] S8x4096 1
  slices_S8x4096_S8x2_0_4094 : S8x4096.Slices ![0, 4094] S8x2
  slices_S8x4096_S8x4094_0_0 : S8x4096.Slices ![0, 0] S8x4094
  concatenates_S8x2_S8x4094_S8x4096_d1 : Shape.Concatenates [S8x2, S8x4094] S8x4096 1
  slices_S8x4096_S8x3_0_4093 : S8x4096.Slices ![0, 4093] S8x3
  slices_S8x4096_S8x4093_0_0 : S8x4096.Slices ![0, 0] S8x4093
  concatenates_S8x3_S8x4093_S8x4096_d1 : Shape.Concatenates [S8x3, S8x4093] S8x4096 1
  slices_S8x4096_S8x4_0_4092 : S8x4096.Slices ![0, 4092] S8x4
  slices_S8x4096_S8x4092_0_0 : S8x4096.Slices ![0, 0] S8x4092
  concatenates_S8x4_S8x4092_S8x4096_d1 : Shape.Concatenates [S8x4, S8x4092] S8x4096 1
  slices_S8x4096_S8x5_0_4091 : S8x4096.Slices ![0, 4091] S8x5
  slices_S8x4096_S8x4091_0_0 : S8x4096.Slices ![0, 0] S8x4091
  concatenates_S8x5_S8x4091_S8x4096_d1 : Shape.Concatenates [S8x5, S8x4091] S8x4096 1
  slices_S8x4096_S8x6_0_4090 : S8x4096.Slices ![0, 4090] S8x6
  slices_S8x4096_S8x4090_0_0 : S8x4096.Slices ![0, 0] S8x4090
  concatenates_S8x6_S8x4090_S8x4096_d1 : Shape.Concatenates [S8x6, S8x4090] S8x4096 1
  slices_S8x4096_S8x7_0_4089 : S8x4096.Slices ![0, 4089] S8x7
  slices_S8x4096_S8x4089_0_0 : S8x4096.Slices ![0, 0] S8x4089
  concatenates_S8x7_S8x4089_S8x4096_d1 : Shape.Concatenates [S8x7, S8x4089] S8x4096 1
  bcast_S8x4096_S8x4096x1_0_1 : S8x4096.BroadcastsInDim S8x4096x1 (![0, 1] : Fin 2 → Fin S8x4096x1.rank)
  concatenates_S8x4096x1_S8x4096x1_S8x4096x1_S8x4096x1_S8x4096x1_S8x4096x1_S8x4096x1_S8x4096x1_S8x4096x8_d2 : Shape.Concatenates [S8x4096x1, S8x4096x1, S8x4096x1, S8x4096x1, S8x4096x1, S8x4096x1, S8x4096x1, S8x4096x1] S8x4096x8 2
  reducesTo_S8x4096x8_S8x4096_d2 : S8x4096x8.ReducesTo [2] S8x4096
  h_S_ : 0 < S_.numel
  bcast_S8x4096x1_S8x4096x8_0_1_2 : S8x4096x1.BroadcastsInDim S8x4096x8 (![0, 1, 2] : Fin 3 → Fin S8x4096x8.rank)
  bcast_S8x4096x8_S8x1x4096x8_0_2_3 : S8x4096x8.BroadcastsInDim S8x1x4096x8 (![0, 2, 3] : Fin 3 → Fin S8x1x4096x8.rank)
  bcast_S8x1x4096x8_S8x256x4096x8_0_1_2_3 : S8x1x4096x8.BroadcastsInDim S8x256x4096x8 (![0, 1, 2, 3] : Fin 4 → Fin S8x256x4096x8.rank)
  reducesTo_S8x256x4096x8_S8x256x4096_d3 : S8x256x4096x8.ReducesTo [3] S8x256x4096
  bcast_S1x1x8_S1x1x1x8_1_2_3 : S1x1x8.BroadcastsInDim S1x1x1x8 (![1, 2, 3] : Fin 3 → Fin S1x1x1x8.rank)
  bcast_S1x1x1x8_S8x256x4096x8_0_1_2_3 : S1x1x1x8.BroadcastsInDim S8x256x4096x8 (![0, 1, 2, 3] : Fin 4 → Fin S8x256x4096x8.rank)
  bcast_S8x256x4096_S8x256x1x4096_0_1_3 : S8x256x4096.BroadcastsInDim S8x256x1x4096 (![0, 1, 3] : Fin 3 → Fin S8x256x1x4096.rank)
  concatenates_S8x256x1x4096_S8x256x1x4096_S8x256x2x4096_d2 : Shape.Concatenates [S8x256x1x4096, S8x256x1x4096] S8x256x2x4096 2
  reducesTo_S8x256x2x2_S8x256x2_d3 : S8x256x2x2.ReducesTo [3] S8x256x2
  bcast_S_S8x256x2 : S_.BroadcastsInDim S8x256x2 (![] : Fin 0 → Fin S8x256x2.rank)
  bcast_S8x256x2_S8x256x2x1_0_1_2 : S8x256x2.BroadcastsInDim S8x256x2x1 (![0, 1, 2] : Fin 3 → Fin S8x256x2x1.rank)
  bcast_S8x256x2x1_S8x256x2x2_0_1_2_3 : S8x256x2x1.BroadcastsInDim S8x256x2x2 (![0, 1, 2, 3] : Fin 4 → Fin S8x256x2x2.rank)
  reducesTo_S8x256x2x4096_S8x256x4096_d2 : S8x256x2x4096.ReducesTo [2] S8x256x4096
  dot_S8x256x2x4096_S8x256x2x4096_S8x256x2x2_3_3_2_2_01_01_wf : DotDims.WF S8x256x2x4096 S8x256x2x4096 S8x256x2x2 [3] [3] [2] [2] [0, 1] [0, 1]
  dot_S8x256x2x2_S8x256x2x4096_S8x256x2x4096_3_2_2_3_01_01_wf : DotDims.WF S8x256x2x2 S8x256x2x4096 S8x256x2x4096 [3] [2] [2] [3] [0, 1] [0, 1]

variable [Facts₀]

def dot_S8x256x2x4096_S8x256x2x4096_S8x256x2x2_3_3_2_2_01_01 : DotDims S8x256x2x4096 S8x256x2x4096 S8x256x2x2 where
  lhsContracting := [3]
  rhsContracting := [3]
  lhsNonContracting := [2]
  rhsNonContracting := [2]
  lhsBatch := [0, 1]
  rhsBatch := [0, 1]
  wf := dot_S8x256x2x4096_S8x256x2x4096_S8x256x2x2_3_3_2_2_01_01_wf
def dot_S8x256x2x2_S8x256x2x4096_S8x256x2x4096_3_2_2_3_01_01 : DotDims S8x256x2x2 S8x256x2x4096 S8x256x2x4096 where
  lhsContracting := [3]
  rhsContracting := [2]
  lhsNonContracting := [2]
  rhsNonContracting := [3]
  lhsBatch := [0, 1]
  rhsBatch := [0, 1]
  wf := dot_S8x256x2x2_S8x256x2x4096_S8x256x2x4096_3_2_2_3_01_01_wf

class Facts : Prop extends Facts₀ where

variable [Facts]
-- ==== Proof.KBase.lean ====
/-
  The region-entry contents and the kernel body's stored value, for `Kernel`.
  `V` is what each TensorCore buffer holds when the one region of @main is entered: the launch contents after the
  host operations before it (the time-gap softmax table, masked where the window would reach before position 0, and
  the fixed-kernel table masked the same way). `iblk` is a window's block at a grid point read off those contents,
  and `pay` is the whole value the body stores: the two causal windowed averages of the x block (eight cyclic
  shifts along the last axis, weighted by the two tables), their 2×2 Gram matrix over the last axis, its two row
  softmaxes, and the re-mix of the two averages by the column means of those softmaxes.
-/
import proofs.«121142_j83648783057347_2_alg».proof.Proof.Gen.Kernel.Launch
import proofs.«121142_j83648783057347_2_alg».proof.Proof.Gen.Kernel.Skeleton
import proofs.«121142_j83648783057347_2_alg».proof.Proof.Gen.Kernel.Points
import Idealize.ShloMosaic.Lib.Pipeline.FrameBody
import Idealize.ShloMosaic.Lib.Ring
import Idealize.ShloMosaic.Lib.Tactic

noncomputable section

namespace Cert.Kernel.Fr

open Idealize.ShloMosaic Idealize.ShloMosaic.TcCoe
open Idealize.SL Idealize.SL.Sem
open Cert.Kernel Cert.Kernel.Gen

variable {F : FTy → Type} [FloatOps F]
variable (m : (ℓ : Loc nD τ sig) → Buf (Elt F) ℓ)

/-- The stretches of host operations before the region, in program order. -/
abbrev hostAll : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35]

/-- Core `c`'s TensorCore buffers when the region is entered. -/
abbrev V (c : Dev nD) (b : Ref sig .tc) : Buf (Elt F) ((c : Thread nD τ).loc b) :=
  StableHlo.after (List.flatten (hostAll (F := F))) (fun b => m (c, b)) b

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The value the body stores into the output block, from the x block `x0`, the time-gap table `x1` and the
    fixed-kernel table `x2`. -/
def pay (x0 : Vec F S8x16x4096 .f32) (x1 : Vec F S8x8x4096 .f32) (x2 : Vec F S8x4096 .f32) : FVec F S8x16x4096 .f32 :=
  k0_pay1 (k0_pay14 x0 (k0_pay3 x2) (k0_pay7 x0 x2) (k0_pay8 x0) (k0_pay10 x2)) (k0_pay15 x0)
    (k0_pay16 x0 (k0_pay2 x1) (k0_pay6 x0 x1) (k0_pay8 x0) (k0_pay9 x1)) (k0_pay17 (k0_pay3 x2))

end Cert.Kernel.Fr

end
-- ==== Proof.KFrame.lean ====
/-
  The frame of `Kernel`: @main runs to completion on every core and leaves its three argument arrays as
  launched.

  @main is a line of host operations — they build the time-gap softmax table and the fixed-kernel table, both zeroed
  where the window would reach before position 0 — followed by one region: a grid of 16 channel tiles, each point
  reading the x block of its 16 channels and the two whole tables, and writing the result block of the same 16
  channels. `V` (the base module) is what every buffer holds when the region is entered; no host operation writes
  an argument array, so `V` at an argument is the launch contents. At a point the body finds in each input window's
  staging buffer that window's block of `V` — the two tables are brought in at the first point only, and their block
  never moves —, and leaves in the result window's buffer `pay` of the three blocks: it reads the three input
  buffers whole, reads the result buffer and drops what it read, and stores one value over the whole result buffer.
  The region's run then gives each window's array from these per-point contents and every other buffer as `V` has
  it, which at the three arguments is the launch contents.
-/
import proofs.«121142_j83648783057347_2_alg».proof.Proof.KBase
import Idealize.ShloMosaic.Lib.Pipeline.Value

-- membership in a rectangle of these extents recurses once per coordinate of the long axis
set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Every host operation before the region touches TensorCore references only. -/
theorem hostAll_sub : (hostAll (F := F)).Forall fun ops => ops.Forall fun op => op.bufs ⊆ StableHlo.tcRefs τ sig := by
  simp only [List.Forall]
  exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub, hostOps0_22_sub, hostOps0_23_sub, hostOps0_24_sub, hostOps0_25_sub, hostOps0_26_sub, hostOps0_27_sub, hostOps0_28_sub, hostOps0_29_sub, hostOps0_30_sub, hostOps0_31_sub, hostOps0_32_sub, hostOps0_33_sub, hostOps0_34_sub, hostOps0_35_sub⟩

/-- None of them leaves a buffer at contents of the machine's choosing: each result is a function of operands. -/
theorem hostAll_fresh : (hostAll (F := F)).Forall fun ops => ops.Forall fun op => op.fresh = ∅ := by
  simp only [List.Forall]; repeat' constructor

/-- @main is the host operations, in order, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main hostAll hostAll_sub hostAll_fresh main_chain

/-- No host operation before the region writes `main_arg0` (x; every operation writes its own result buffer, and none of those is this one): the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostAll, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the region writes `main_arg1` (the time gaps; read by the softmax table's operations, written by none): the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostAll, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the region writes `main_arg2` (the fixed kernel; read once, reshaped into another buffer, written by none): the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostAll, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-! ## The windows' blocks at a point -/

/-- Input window 0 (the x block, brought in at every point): its current staging buffer holds its block at every point, brought in there or
    not, for any proof data whose array is `V`'s and whose body leaves the block in place: where the pipeline
    did not bring it in, its block index has not moved since the point before. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1 (the time-gap table, brought in at the first point only): its current staging buffer holds its block at every point, brought in there or
    not, for any proof data whose array is `V`'s and whose body leaves the block in place: where the pipeline
    did not bring it in, its block index has not moved since the point before. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2 (the fixed-kernel table, brought in at the first point only): its current staging buffer holds its block at every point, brought in there or
    not, for any proof data whose array is `V`'s and whose body leaves the block in place: where the pipeline
    did not bring it in, its block index has not moved since the point before. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's triple -/

theorem zeros3 : (![0, 0, 0] : Fin 3 → Nat) = fun _ => 0 := funext fun a => by fin_cases a <;> rfl
theorem zeros2 : (![0, 0] : Fin 2 → Nat) = fun _ => 0 := funext fun a => by fin_cases a <;> rfl

/-- The whole-block rectangle of the x block and of the result block: offsets zero, the block's own sizes. -/
abbrev rBlk : Rect S8x16x4096 := Rect.unit (s := S8x16x4096) ![0, 0, 0] S8x16x4096.size inb_S8x16x4096_S8x16x4096_0_0_0

/-- The body's one store covers the result block. -/
theorem cover_blk (p0 : Vec F S8x16x4096 .f32) (y : S8x16x4096.Idx) :
    ∃ pc ∈ ([⟨rBlk, p0⟩] : List (View.Piece (Elt F) S8x16x4096 .f32)), y ∈ pc.1.set :=
  ⟨⟨rBlk, p0⟩, List.mem_singleton_self _, View.mem_set_unit_zero (S := S8x16x4096) zeros3 inb_S8x16x4096_S8x16x4096_0_0_0 y⟩

set_option maxHeartbeats 1000000 in
/-- The kernel body on whole staging buffers, the three inputs' reading `x0`, `x1`, `x2` and the result's holding
    anything, runs to the continuation with the inputs' as they were and the result's reading `pay x0 x1 x2`: the
    three loads read the buffers whole (a rectangle at zero offsets of the buffer's own sizes reads the contents),
    the load of the result buffer changes nothing, and the one store, covering the buffer, leaves its value. -/
theorem sound_kernel (c : Dev nD) (E : Set ℕ) (i : grid0.Coords) (arg1 : Memref sig .tc .vmem S8x16x4096 .f32) (harg1 : arg1.IsWhole) (arg2 : Memref sig .tc .vmem S8x8x4096 .f32) (harg2 : arg2.IsWhole) (arg3 : Memref sig .tc .vmem S8x4096 .f32) (harg3 : arg3.IsWhole) (arg4 : Memref sig .tc .vmem S8x16x4096 .f32) (harg4 : arg4.IsWhole)
    (x0 : Vec F S8x16x4096 .f32) (x1 : Vec F S8x8x4096 .f32) (x2 : Vec F S8x4096 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (pay x0 x1 x2)) -∗ K ⟨⟩))
      ⊢ wp frame (wpE (defs₀ (F := F)) Variants.none c none) E (cc0__ffn_kernel i arg1 harg1 arg2 harg2 arg3 harg3 arg4 harg4) K := by
  simp only [cc0__ffn_kernel_eq_skeleton]; unfold cc0__ffn_kernel_skel
  simp only [k0_part1_eq_skeleton]; unfold k0_part1_skel
  simp only [k0_part2_eq_skeleton]; unfold k0_part2_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  refine (View.read_writes_eq_canon _ _ _ (cover_blk _)).trans ?_
  refine (View.canon_unit_zero (S := S8x16x4096) zeros3 inb_S8x16x4096_S8x16x4096_0_0_0 _).trans ?_
  have e0 : View.readAt (Elt F) arg1.view (Rect.unit (s := S8x16x4096) ![0, 0, 0] S8x16x4096.size inb_S8x16x4096_S8x16x4096_0_0_0).toLoadRect f0
      = View.read (Elt F) arg1.view f0 :=
    View.ld_unit_zero (S := S8x16x4096) zeros3 inb_S8x16x4096_S8x16x4096_0_0_0 _
  have e1 : View.readAt (Elt F) arg2.view (Rect.unit (s := S8x8x4096) ![0, 0, 0] S8x8x4096.size inb_S8x8x4096_S8x8x4096_0_0_0).toLoadRect f1
      = View.read (Elt F) arg2.view f1 :=
    View.ld_unit_zero (S := S8x8x4096) zeros3 inb_S8x8x4096_S8x8x4096_0_0_0 _
  have e2 : View.readAt (Elt F) arg3.view (Rect.unit (s := S8x4096) ![0, 0] S8x4096.size inb_S8x4096_S8x4096_0_0).toLoadRect f2
      = View.read (Elt F) arg3.view f2 :=
    View.ld_unit_zero (S := S8x4096) zeros2 inb_S8x4096_S8x4096_0_0 _
  unfold pay
  rw [e0, e1, e2]

/-! ## The pipeline's proof data -/

/-- The proof data of the pipeline on core `c`: the arrays as the region finds them (`V`); after the body at point
    `t` each input's buffer at its block and the result's at `pay` of the three input blocks; the invariant the
    untouched rest of the core's state; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => pay (iblk m c 0 t) (iblk m c 1 t) (iblk m c 2 t)
  Φ _ := Pipeline.ΦA spec0 c
  q _ := fullShare
  owed _ := 0

/-- The proof data's arrays are the region-entry contents (the definition projected; `V` is never unfolded). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = pay (iblk m c 0 t) (iblk m c 1 t) (iblk m c 2 t) := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks, so the body's triple applies; the invariant and
    what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the run theorem's implicit arguments are found by unifying its conclusion with this one, which takes unfolding
-- plain definitions in a metavariable's type
set_option backward.isDefEq.respectTransparency.types false in
/-- For any values, from any memory with zero counters: every weakly fair execution of @main on the TensorCores
    terminates, and every final state has every array of the pipeline at what the proof data give it and every
    other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- info: 'Cert.Kernel.Fr.run_main' depends on axioms: [propext, Classical.choice, Quot.sound] -/
#guard_msgs in #print axioms run_main

/-- THE FRAME: x is an input window's array, which the run leaves at its region-entry contents; the time gaps and
    the fixed kernel are arrays no window stages, which the run leaves as the region found them; and the region
    found all three as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩) (run_main m ρ)

end Cert.Kernel.Fr

end
-- ==== Proof.KIBase.lean ====
/-
  The region-entry contents and the kernel body's stored value, for `KernelIdeal`.
  `V` is what each TensorCore buffer holds when the one region of @main is entered: the launch contents after the
  host operations before it (the time-gap softmax table, masked where the window would reach before position 0, and
  the fixed-kernel table masked the same way). `iblk` is a window's block at a grid point read off those contents,
  and `pay` is the whole value the body stores: the two causal windowed averages of the x block (eight cyclic
  shifts along the last axis, weighted by the two tables), their 2×2 Gram matrix over the last axis, its two row
  softmaxes, and the re-mix of the two averages by the column means of those softmaxes.
-/
import proofs.«121142_j83648783057347_2_alg».proof.Proof.Gen.KernelIdeal.Launch
import proofs.«121142_j83648783057347_2_alg».proof.Proof.Gen.KernelIdeal.Skeleton
import proofs.«121142_j83648783057347_2_alg».proof.Proof.Gen.KernelIdeal.Points
import Idealize.ShloMosaic.Lib.Pipeline.FrameBody
import Idealize.ShloMosaic.Lib.Ring
import Idealize.ShloMosaic.Lib.Tactic

noncomputable section

namespace Cert.KernelIdeal.Fr

open Idealize.ShloMosaic Idealize.ShloMosaic.TcCoe
open Idealize.SL Idealize.SL.Sem
open Cert.KernelIdeal Cert.KernelIdeal.Gen

variable {F : FTy → Type} [FloatOps F]
variable (m : (ℓ : Loc nD τ sig) → Buf (Elt F) ℓ)

/-- The stretches of host operations before the region, in program order. -/
abbrev hostAll : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35]

/-- Core `c`'s TensorCore buffers when the region is entered. -/
abbrev V (c : Dev nD) (b : Ref sig .tc) : Buf (Elt F) ((c : Thread nD τ).loc b) :=
  StableHlo.after (List.flatten (hostAll (F := F))) (fun b => m (c, b)) b

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The value the body stores into the output block, from the x block `x0`, the time-gap table `x1` and the
    fixed-kernel table `x2`. -/
def pay (x0 : Vec F S8x16x4096 .f32) (x1 : Vec F S8x8x4096 .f32) (x2 : Vec F S8x4096 .f32) : FVec F S8x16x4096 .f32 :=
  k0_pay1 (k0_pay14 x0 (k0_pay3 x2) (k0_pay7 x0 x2) (k0_pay8 x0) (k0_pay10 x2)) (k0_pay15 x0)
    (k0_pay16 x0 (k0_pay2 x1) (k0_pay6 x0 x1) (k0_pay8 x0) (k0_pay9 x1)) (k0_pay17 (k0_pay3 x2))

end Cert.KernelIdeal.Fr

end
-- ==== Proof.KIFrame.lean ====
/-
  The frame of `KernelIdeal`: @main runs to completion on every core and leaves its three argument arrays as
  launched.

  @main is a line of host operations — they build the time-gap softmax table and the fixed-kernel table, both zeroed
  where the window would reach before position 0 — followed by one region: a grid of 16 channel tiles, each point
  reading the x block of its 16 channels and the two whole tables, and writing the result block of the same 16
  channels. `V` (the base module) is what every buffer holds when the region is entered; no host operation writes
  an argument array, so `V` at an argument is the launch contents. At a point the body finds in each input window's
  staging buffer that window's block of `V` — the two tables are brought in at the first point only, and their block
  never moves —, and leaves in the result window's buffer `pay` of the three blocks: it reads the three input
  buffers whole, reads the result buffer and drops what it read, and stores one value over the whole result buffer.
  The region's run then gives each window's array from these per-point contents and every other buffer as `V` has
  it, which at the three arguments is the launch contents.
-/
import proofs.«121142_j83648783057347_2_alg».proof.Proof.KIBase
import Idealize.ShloMosaic.Lib.Pipeline.Value

-- membership in a rectangle of these extents recurses once per coordinate of the long axis
set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Every host operation before the region touches TensorCore references only. -/
theorem hostAll_sub : (hostAll (F := F)).Forall fun ops => ops.Forall fun op => op.bufs ⊆ StableHlo.tcRefs τ sig := by
  simp only [List.Forall]
  exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub, hostOps0_22_sub, hostOps0_23_sub, hostOps0_24_sub, hostOps0_25_sub, hostOps0_26_sub, hostOps0_27_sub, hostOps0_28_sub, hostOps0_29_sub, hostOps0_30_sub, hostOps0_31_sub, hostOps0_32_sub, hostOps0_33_sub, hostOps0_34_sub, hostOps0_35_sub⟩

/-- None of them leaves a buffer at contents of the machine's choosing: each result is a function of operands. -/
theorem hostAll_fresh : (hostAll (F := F)).Forall fun ops => ops.Forall fun op => op.fresh = ∅ := by
  simp only [List.Forall]; repeat' constructor

/-- @main is the host operations, in order, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main hostAll hostAll_sub hostAll_fresh main_chain

/-- No host operation before the region writes `main_arg0` (x; every operation writes its own result buffer, and none of those is this one): the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostAll, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the region writes `main_arg1` (the time gaps; read by the softmax table's operations, written by none): the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostAll, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the region writes `main_arg2` (the fixed kernel; read once, reshaped into another buffer, written by none): the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostAll, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-! ## The windows' blocks at a point -/

/-- Input window 0 (the x block, brought in at every point): its current staging buffer holds its block at every point, brought in there or
    not, for any proof data whose array is `V`'s and whose body leaves the block in place: where the pipeline
    did not bring it in, its block index has not moved since the point before. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1 (the time-gap table, brought in at the first point only): its current staging buffer holds its block at every point, brought in there or
    not, for any proof data whose array is `V`'s and whose body leaves the block in place: where the pipeline
    did not bring it in, its block index has not moved since the point before. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2 (the fixed-kernel table, brought in at the first point only): its current staging buffer holds its block at every point, brought in there or
    not, for any proof data whose array is `V`'s and whose body leaves the block in place: where the pipeline
    did not bring it in, its block index has not moved since the point before. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's triple -/

theorem zeros3 : (![0, 0, 0] : Fin 3 → Nat) = fun _ => 0 := funext fun a => by fin_cases a <;> rfl
theorem zeros2 : (![0, 0] : Fin 2 → Nat) = fun _ => 0 := funext fun a => by fin_cases a <;> rfl

/-- The whole-block rectangle of the x block and of the result block: offsets zero, the block's own sizes. -/
abbrev rBlk : Rect S8x16x4096 := Rect.unit (s := S8x16x4096) ![0, 0, 0] S8x16x4096.size inb_S8x16x4096_S8x16x4096_0_0_0

/-- The body's one store covers the result block. -/
theorem cover_blk (p0 : Vec F S8x16x4096 .f32) (y : S8x16x4096.Idx) :
    ∃ pc ∈ ([⟨rBlk, p0⟩] : List (View.Piece (Elt F) S8x16x4096 .f32)), y ∈ pc.1.set :=
  ⟨⟨rBlk, p0⟩, List.mem_singleton_self _, View.mem_set_unit_zero (S := S8x16x4096) zeros3 inb_S8x16x4096_S8x16x4096_0_0_0 y⟩

set_option maxHeartbeats 1000000 in
/-- The kernel body on whole staging buffers, the three inputs' reading `x0`, `x1`, `x2` and the result's holding
    anything, runs to the continuation with the inputs' as they were and the result's reading `pay x0 x1 x2`: the
    three loads read the buffers whole (a rectangle at zero offsets of the buffer's own sizes reads the contents),
    the load of the result buffer changes nothing, and the one store, covering the buffer, leaves its value. -/
theorem sound_kernel (c : Dev nD) (E : Set ℕ) (i : grid0.Coords) (arg1 : Memref sig .tc .vmem S8x16x4096 .f32) (harg1 : arg1.IsWhole) (arg2 : Memref sig .tc .vmem S8x8x4096 .f32) (harg2 : arg2.IsWhole) (arg3 : Memref sig .tc .vmem S8x4096 .f32) (harg3 : arg3.IsWhole) (arg4 : Memref sig .tc .vmem S8x16x4096 .f32) (harg4 : arg4.IsWhole)
    (x0 : Vec F S8x16x4096 .f32) (x1 : Vec F S8x8x4096 .f32) (x2 : Vec F S8x4096 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (pay x0 x1 x2)) -∗ K ⟨⟩))
      ⊢ wp frame (wpE (defs₀ (F := F)) Variants.none c none) E (cc0__ffn_kernel i arg1 harg1 arg2 harg2 arg3 harg3 arg4 harg4) K := by
  simp only [cc0__ffn_kernel_eq_skeleton]; unfold cc0__ffn_kernel_skel
  simp only [k0_part1_eq_skeleton]; unfold k0_part1_skel
  simp only [k0_part2_eq_skeleton]; unfold k0_part2_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  refine (View.read_writes_eq_canon _ _ _ (cover_blk _)).trans ?_
  refine (View.canon_unit_zero (S := S8x16x4096) zeros3 inb_S8x16x4096_S8x16x4096_0_0_0 _).trans ?_
  have e0 : View.readAt (Elt F) arg1.view (Rect.unit (s := S8x16x4096) ![0, 0, 0] S8x16x4096.size inb_S8x16x4096_S8x16x4096_0_0_0).toLoadRect f0
      = View.read (Elt F) arg1.view f0 :=
    View.ld_unit_zero (S := S8x16x4096) zeros3 inb_S8x16x4096_S8x16x4096_0_0_0 _
  have e1 : View.readAt (Elt F) arg2.view (Rect.unit (s := S8x8x4096) ![0, 0, 0] S8x8x4096.size inb_S8x8x4096_S8x8x4096_0_0_0).toLoadRect f1
      = View.read (Elt F) arg2.view f1 :=
    View.ld_unit_zero (S := S8x8x4096) zeros3 inb_S8x8x4096_S8x8x4096_0_0_0 _
  have e2 : View.readAt (Elt F) arg3.view (Rect.unit (s := S8x4096) ![0, 0] S8x4096.size inb_S8x4096_S8x4096_0_0).toLoadRect f2
      = View.read (Elt F) arg3.view f2 :=
    View.ld_unit_zero (S := S8x4096) zeros2 inb_S8x4096_S8x4096_0_0 _
  unfold pay
  rw [e0, e1, e2]

/-! ## The pipeline's proof data -/

/-- The proof data of the pipeline on core `c`: the arrays as the region finds them (`V`); after the body at point
    `t` each input's buffer at its block and the result's at `pay` of the three input blocks; the invariant the
    untouched rest of the core's state; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => pay (iblk m c 0 t) (iblk m c 1 t) (iblk m c 2 t)
  Φ _ := Pipeline.ΦA spec0 c
  q _ := fullShare
  owed _ := 0

/-- The proof data's arrays are the region-entry contents (the definition projected; `V` is never unfolded). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = pay (iblk m c 0 t) (iblk m c 1 t) (iblk m c 2 t) := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks, so the body's triple applies; the invariant and
    what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the run theorem's implicit arguments are found by unifying its conclusion with this one, which takes unfolding
-- plain definitions in a metavariable's type
set_option backward.isDefEq.respectTransparency.types false in
/-- For any values, from any memory with zero counters: every weakly fair execution of @main on the TensorCores
    terminates, and every final state has every array of the pipeline at what the proof data give it and every
    other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- info: 'Cert.KernelIdeal.Fr.run_main' depends on axioms: [propext, Classical.choice, Quot.sound] -/
#guard_msgs in #print axioms run_main

/-- THE FRAME: x is an input window's array, which the run leaves at its region-entry contents; the time gaps and
    the fixed kernel are arrays no window stages, which the run leaves as the region found them; and the region
    found all three as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩) (run_main m ρ)

end Cert.KernelIdeal.Fr

end
-- ==== Proof.Spec.lean ====
/-
  The mathematics both programs compute, over the extended reals, stated once.

  For a row `r : Fin 4096 → EReal` (one batch entry and one channel of x, along the sequence axis) and a table of
  weights, the causal windowed average at position `l` is the sum over the eight lags `k` of the row at `l - k`
  times the weight of lag `k` at `l`, the lags that would reach before position 0 contributing nothing. The
  kernel drops those lags by a zero WEIGHT (`win`: the row is shifted cyclically, so the wrapped sample meets a
  zero), the reference by a zero SAMPLE (`winR`).
  From two such averages `p`, `q` the result at `l` re-mixes them by the softmax over the pairs
  (⟨p,p⟩, ⟨p,q⟩) and (⟨q,p⟩, ⟨q,q⟩) of their inner products along the row: the kernel as
  `(½·(s₀₀ + s₁₀))·p l + (½·(s₀₁ + s₁₁))·q l` (`mixK`), the reference as
  `((s₀₀·p l + s₀₁·q l) + (s₁₀·p l + s₁₁·q l)) / 2` (`mixR`).
-/
import Idealize.ShloMosaic.PureOps.Ideal
import Idealize.ShloMosaic.Lib.ValueIdx

noncomputable section

namespace Cert.Causal

open Idealize.ShloMosaic

/-- Position `l - k` on the cycle of length 4096. -/
def back (l : Fin 4096) (k : Fin 8) : Fin 4096 := ⟨(l.val + 4096 - k.val) % 4096, Nat.mod_lt _ (by norm_num)⟩

/-- The windowed sum with the early lags dropped by the weights: the row shifted cyclically, times a table
    `w k l` (lag, position). -/
def win (r : Fin 4096 → EReal) (w : Fin 8 → Fin 4096 → EReal) (l : Fin 4096) : EReal :=
  ∑ k : Fin 8, r (back l k) * w k l

/-- The windowed sum with the early lags dropped by the samples: lag `k` at a position `l < k` reads zero, times a
    table `u l k` (position, lag). -/
def winR (r : Fin 4096 → EReal) (u : Fin 4096 → Fin 8 → EReal) (l : Fin 4096) : EReal :=
  ∑ k : Fin 8, (if k.val ≤ l.val then r (back l k) else 0) * u l k

/-- The inner product of two rows. -/
def gram (p q : Fin 4096 → EReal) : EReal := ∑ l : Fin 4096, p l * q l

/-- The two exponentials of a pair's softmax, each entry less the pair's maximum. -/
def eL (u v : EReal) : EReal := Ideal.exp (u - max u v)
def eR (u v : EReal) : EReal := Ideal.exp (v - max u v)

/-- The softmax of the pair `(u, v)`: its first and its second weight. -/
def softL (u v : EReal) : EReal := Ideal.div (eL u v) (eL u v + eR u v)
def softR (u v : EReal) : EReal := Ideal.div (eR u v) (eL u v + eR u v)

/-- The literal one half, and the literal two. -/
def half : EReal := Ideal.ofBits .f32 0x3F000000#32
def two : EReal := Ideal.ofBits .f32 0x40000000#32

/-- The kernel's re-mix of the two averages. -/
def mixK (p q : Fin 4096 → EReal) (l : Fin 4096) : EReal :=
  (half * (softL (gram p p) (gram p q) + softL (gram p q) (gram q q))) * p l
    + (half * (softR (gram p p) (gram p q) + softR (gram p q) (gram q q))) * q l

/-- The reference's re-mix of the two averages. -/
def mixR (p q : Fin 4096 → EReal) (l : Fin 4096) : EReal :=
  Ideal.div ((softL (gram p p) (gram p q) * p l + softR (gram p p) (gram p q) * q l)
      + (softL (gram q p) (gram q q) * p l + softR (gram q p) (gram q q) * q l)) two

end Cert.Causal

end
-- ==== Proof.KIValue.lean ====
/-
  From blocks to the array. The kernel's grid has 16 points; point `t` works on channels 16·t … 16·t + 15: its x block
  and its output block are rows (b, 16·t + q, l) of their arrays, while the two weight tables are read whole at every
  point. So what point `t` writes back is block `t` of ONE function of the region-entry arrays — at (b, c, l) the
  re-mix of the two windowed averages of row (b, c) of x —, the 16 blocks tile the result array, and the array ends
  holding that function.
-/
import proofs.«121142_j83648783057347_2_alg».proof.Proof.KIBase
import proofs.«121142_j83648783057347_2_alg».proof.Proof.Spec
import Idealize.ShloMosaic.Lib.Pipeline.Value
import Idealize.ShloMosaic.Lib.ValueIdx

set_option maxRecDepth 16384

noncomputable section

namespace Cert.KernelIdeal.Fr

open Idealize.ShloMosaic Idealize.ShloMosaic.TcCoe Idealize.ShloMosaic.ValueIdx
open Idealize.SL Idealize.SL.Sem
open Cert.KernelIdeal Cert.KernelIdeal.Gen
open Idealize.ShloMosaic.Pipeline (Dat)

variable (m : (ℓ : Loc nD τ sig) → Buf (Elt Ideal) ℓ)

/-- The result at (b, c, l) from x, the time-gap table and the fixed-kernel table. -/
def outAt (x : S8x256x4096.Idx → EReal) (wt : S8x8x4096.Idx → EReal) (kt : S8x4096.Idx → EReal)
    (b : Fin 8) (c : Fin 256) (l : Fin 4096) : EReal :=
  Cert.Causal.mixK (fun j => Cert.Causal.win (fun i => x (ix3 b c i)) (fun k i => wt (ix3 b k i)) j)
    (fun j => Cert.Causal.win (fun i => x (ix3 b c i)) (fun k i => kt (ix2 k i)) j) l

/-- The result array as one function of the arrays the region finds. -/
def G (c : Dev nD) : S8x256x4096.Idx → EReal := fun i =>
  outAt (V m c main_arg0 : S8x256x4096.Idx → EReal) (V m c main_v68 : S8x8x4096.Idx → EReal) (V m c main_v78 : S8x4096.Idx → EReal)
    ⟨(i 0).val, (i 0).isLt⟩ ⟨(i 1).val, (i 1).isLt⟩ ⟨(i 2).val, (i 2).isLt⟩

/-- The index maps over the grid: x and the result move along the channel axis with the point, the tables stay. -/
theorem idx_facts : ∀ t : Fin cfg0.N,
    win0_3.index t (0 : Fin 3) = 0 ∧ win0_3.index t (1 : Fin 3) = t.val ∧ win0_3.index t (2 : Fin 3) = 0
    ∧ win0_0.index t (0 : Fin 3) = 0 ∧ win0_0.index t (1 : Fin 3) = t.val ∧ win0_0.index t (2 : Fin 3) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0 :=
  (by decide +kernel : ∀ t : Fin grid0.N, _)

theorem tN (t : Fin cfg0.N) : t.val < 16 := by have h : t.val < grid0.N := t.isLt; rw [N_0] at h; exact h

/-- Row q of point t's block is channel 16·t + q. -/
def chan (t : Fin cfg0.N) (q : Fin 16) : Fin 256 := ⟨t.val * 16 + q.val, by have := tN t; have := q.isLt; omega⟩

theorem emb3 (t : Fin cfg0.N) (b : Fin 8) (q : Fin 16) (l : Fin 4096) :
    ((cfg0.win 3).blk t).view.emb (ix3 b q l) = (ix3 b (chan t q) l : S8x256x4096.Idx) := by
  obtain ⟨e0, e1, e2, -⟩ := idx_facts t
  funext a; apply Fin.ext
  match a with
  | ⟨0, _⟩ => show win0_3.index t (0 : Fin 3) * 8 + 1 * b.val = b.val; omega
  | ⟨1, _⟩ => show win0_3.index t (1 : Fin 3) * 16 + 1 * q.val = t.val * 16 + q.val; omega
  | ⟨2, _⟩ => show win0_3.index t (2 : Fin 3) * 4096 + 1 * l.val = l.val; omega

theorem emb0 (t : Fin cfg0.N) (b : Fin 8) (q : Fin 16) (l : Fin 4096) :
    ((cfg0.win 0).blk t).view.emb (ix3 b q l) = (ix3 b (chan t q) l : S8x256x4096.Idx) := by
  obtain ⟨-, -, -, e0, e1, e2, -⟩ := idx_facts t
  funext a; apply Fin.ext
  match a with
  | ⟨0, _⟩ => show win0_0.index t (0 : Fin 3) * 8 + 1 * b.val = b.val; omega
  | ⟨1, _⟩ => show win0_0.index t (1 : Fin 3) * 16 + 1 * q.val = t.val * 16 + q.val; omega
  | ⟨2, _⟩ => show win0_0.index t (2 : Fin 3) * 4096 + 1 * l.val = l.val; omega

theorem emb1 (t : Fin cfg0.N) (b : Fin 8) (k : Fin 8) (l : Fin 4096) :
    ((cfg0.win 1).blk t).view.emb (ix3 b k l) = (ix3 b k l : S8x8x4096.Idx) := by
  obtain ⟨-, -, -, -, -, -, e0, e1, e2, -⟩ := idx_facts t
  funext a; apply Fin.ext
  match a with
  | ⟨0, _⟩ => show win0_1.index t (0 : Fin 3) * 8 + 1 * b.val = b.val; omega
  | ⟨1, _⟩ => show win0_1.index t (1 : Fin 3) * 8 + 1 * k.val = k.val; omega
  | ⟨2, _⟩ => show win0_1.index t (2 : Fin 3) * 4096 + 1 * l.val = l.val; omega

theorem emb2 (t : Fin cfg0.N) (k : Fin 8) (l : Fin 4096) :
    ((cfg0.win 2).blk t).view.emb (ix2 k l) = (ix2 k l : S8x4096.Idx) := by
  obtain ⟨-, -, -, -, -, -, -, -, -, e0, e1⟩ := idx_facts t
  funext a; apply Fin.ext
  match a with
  | ⟨0, _⟩ => show win0_2.index t (0 : Fin 2) * 8 + 1 * k.val = k.val; omega
  | ⟨1, _⟩ => show win0_2.index t (1 : Fin 2) * 4096 + 1 * l.val = l.val; omega

/-- What point `t` writes back is block `t` of `G`. -/
theorem flushed3_eq (c : Dev nD) (dat : Dat τ (Elt Ideal) Unit ℕ (UR sig nD τ) ℕ cfg0 c)
    (hafter : ∀ t, dat.after 3 t = pay (F := Ideal) (iblk m c 0 t) (iblk m c 1 t) (iblk m c 2 t))
    (hpay : ∀ (x0 : Vec Ideal S8x16x4096 .f32) (x1 : Vec Ideal S8x8x4096 .f32) (x2 : Vec Ideal S8x4096 .f32) (b : Fin 8) (q : Fin 16) (l : Fin 4096),
      pay (F := Ideal) x0 x1 x2 (ix3 b q l)
        = Cert.Causal.mixK (fun j => Cert.Causal.win (fun i => x0 (ix3 b q i)) (fun k i => x1 (ix3 b k i)) j)
            (fun j => Cert.Causal.win (fun i => x0 (ix3 b q i)) (fun k i => x2 (ix2 k i)) j) l)
    (t : Fin cfg0.N) :
    dat.flushed 3 t = ((cfg0.win 3).blk t).view.read (Elt Ideal) (G m c) := by
  show (cfg0.win 3).cut (grid0.coords t) (dat.after 3 t) = _
  rw [hafter]
  funext j
  obtain ⟨b, q, l, rfl⟩ : ∃ (b : Fin 8) (q : Fin 16) (l : Fin 4096), j = ix3 b q l := ⟨j 0, j 1, j 2, eq_ix3 j⟩
  show pay (F := Ideal) (iblk m c 0 t) (iblk m c 1 t) (iblk m c 2 t) (ix3 b q l) = G m c (((cfg0.win 3).blk t).view.emb (ix3 b q l))
  rw [hpay, emb3]
  have h0 : ∀ i : Fin 4096, iblk m c 0 t (ix3 b q i) = (V m c main_arg0 : S8x256x4096.Idx → EReal) (ix3 b (chan t q) i) := fun i => by
    show (V m c main_arg0 : S8x256x4096.Idx → EReal) (((cfg0.win 0).blk t).view.emb (ix3 b q i)) = _
    rw [emb0]
  have h1 : ∀ (k : Fin 8) (i : Fin 4096), iblk m c 1 t (ix3 b k i) = (V m c main_v68 : S8x8x4096.Idx → EReal) (ix3 b k i) := fun k i => by
    show (V m c main_v68 : S8x8x4096.Idx → EReal) (((cfg0.win 1).blk t).view.emb (ix3 b k i)) = _
    rw [emb1]
  have h2 : ∀ (k : Fin 8) (i : Fin 4096), iblk m c 2 t (ix2 k i) = (V m c main_v78 : S8x4096.Idx → EReal) (ix2 k i) := fun k i => by
    show (V m c main_v78 : S8x4096.Idx → EReal) (((cfg0.win 2).blk t).view.emb (ix2 k i)) = _
    rw [emb2]
  simp only [h0, h1, h2]
  rfl

/-- An index of the result array is in point `t`'s block iff each coordinate is in the block's range on its axis. -/
theorem mem_blk3 (t : Fin cfg0.N) (i : S8x256x4096.Idx) :
    i ∈ ((cfg0.win 3).blk t).view.set ↔ ∀ a : Fin 3, win0_3.index t a * S8x16x4096.size a ≤ (i a).val ∧ (i a).val < win0_3.index t a * S8x16x4096.size a + S8x16x4096.size a := by
  show i ∈ ((View.whole main_v79).slice (win0_3.rect t)).set ↔ _
  rw [View.set_slice_whole, Rect.mem_set_unit]
  exact Iff.rfl

/-- The 16 blocks tile the array: channel c lies in block c / 16. -/
theorem cover3 (i : S8x256x4096.Idx) :
    ∃ t : Fin cfg0.N, (cfg0.win 3).flush t = true ∧ i ∈ ((cfg0.win 3).blk t).view.set := by
  have hi0 : (i 0).val < 8 := (i 0).isLt
  have hi1 : (i 1).val < 256 := (i 1).isLt
  have hi2 : (i 2).val < 4096 := (i 2).isLt
  have hN : (i 1).val / 16 < grid0.N := by rw [N_0]; omega
  refine ⟨⟨(i 1).val / 16, hN⟩, flush0_3 _, ?_⟩
  rw [mem_blk3]
  obtain ⟨e0, e1, e2, -⟩ := idx_facts ⟨(i 1).val / 16, hN⟩
  have e1' : win0_3.index ⟨(i 1).val / 16, hN⟩ (1 : Fin 3) = (i 1).val / 16 := e1
  intro a
  match a with
  | ⟨0, _⟩ => show win0_3.index ⟨(i 1).val / 16, hN⟩ (0 : Fin 3) * 8 ≤ (i 0).val ∧ (i 0).val < win0_3.index ⟨(i 1).val / 16, hN⟩ (0 : Fin 3) * 8 + 8; omega
  | ⟨1, _⟩ => show win0_3.index ⟨(i 1).val / 16, hN⟩ (1 : Fin 3) * 16 ≤ (i 1).val ∧ (i 1).val < win0_3.index ⟨(i 1).val / 16, hN⟩ (1 : Fin 3) * 16 + 16; omega
  | ⟨2, _⟩ => show win0_3.index ⟨(i 1).val / 16, hN⟩ (2 : Fin 3) * 4096 ≤ (i 2).val ∧ (i 2).val < win0_3.index ⟨(i 1).val / 16, hN⟩ (2 : Fin 3) * 4096 + 4096; omega

/-- The result array after the run is `G` of the region-entry arrays. -/
theorem final3 (c : Dev nD) (dat : Dat τ (Elt Ideal) Unit ℕ (UR sig nD τ) ℕ cfg0 c)
    (hafter : ∀ t, dat.after 3 t = pay (F := Ideal) (iblk m c 0 t) (iblk m c 1 t) (iblk m c 2 t))
    (hpay : ∀ (x0 : Vec Ideal S8x16x4096 .f32) (x1 : Vec Ideal S8x8x4096 .f32) (x2 : Vec Ideal S8x4096 .f32) (b : Fin 8) (q : Fin 16) (l : Fin 4096),
      pay (F := Ideal) x0 x1 x2 (ix3 b q l)
        = Cert.Causal.mixK (fun j => Cert.Causal.win (fun i => x0 (ix3 b q i)) (fun k i => x1 (ix3 b k i)) j)
            (fun j => Cert.Causal.win (fun i => x0 (ix3 b q i)) (fun k i => x2 (ix2 k i)) j) l) :
    dat.arrAt 3 cfg0.N = G m c :=
  dat.arrAt_eq_of_cover 3 (G m c) (fun t _ => flushed3_eq m c dat hafter hpay t) cover3

end Cert.KernelIdeal.Fr

end
-- ==== Proof.KIPay.lean ====
/-
  The value the kernel body stores, read at one index, in the specification's form.

  The body forms two causal windowed averages of the x block along the sequence axis: at position `l` the sum over
  the eight lags `k` of the block shifted cyclically by `k`, times row `k` of a table at `l` (the time-gap table,
  one row set per batch entry, and the fixed-kernel table, shared by every batch entry). Read at `(b, q, l)` each is
  `Cert.Causal.win` of the row `x0 (b, q, ·)` against the table. The three sums over the sequence axis of their
  pointwise products are the inner products `Cert.Causal.gram`; the pair softmaxes, the two column means and the
  re-mix are pointwise in `(b, q)`, and together they are `Cert.Causal.mixK`.
-/
import proofs.«121142_j83648783057347_2_alg».proof.Proof.KIBase
import proofs.«121142_j83648783057347_2_alg».proof.Proof.Spec
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal
import Idealize.ShloMosaic.PureOps.Ideal.Laws

noncomputable section

namespace Cert.KernelIdeal.Fr

open Idealize.ShloMosaic Idealize.ShloMosaic.ValueIdx
open Cert.KernelIdeal Cert.KernelIdeal.Gen
open Cert.Causal

/-! ## The layout operations of the body, read at an index -/

/-- Row `k` of a table with one row set per batch entry, cut out, flattened, given back its unit axis and laid over
    the sixteen channels, reads at `(b, q, l)` the table at `(b, k, l)`. -/
theorem rowB_apply (o : Nat) (X : FVec Ideal S8x8x4096 .f32) (h : S8x8x4096.Slices ![0, o, 0] S8x1x4096)
    (k : Fin 8) (hk : k.val = o) (b : Fin 8) (q : Fin 16) (l : Fin 4096) :
    broadcastTo S8x16x4096
        (shapeCast S8x1x4096 (shapeCast S8x4096 (extractStridedSlice S8x1x4096 ![0, o, 0] X h)
          shapeCasts_S8x1x4096_S8x4096) shapeCasts_S8x4096_S8x1x4096)
        broadcasts_S8x1x4096_S8x16x4096 (ix3 b q l)
      = X (ix3 b k l) := by
  refine (broadcastTo_apply _ broadcasts_S8x1x4096_S8x16x4096 (ix3 b q l) (ix3 b (0 : Fin 1) l) (fun a => ?_)).trans ?_
  · match a with
    | ⟨0, _⟩ => rfl
    | ⟨1, _⟩ => rfl
    | ⟨2, _⟩ => rfl
  · rw [shapeCast_shapeCast]
    exact slice3_axis1_apply o X h b (0 : Fin 1) l k (by rw [hk]; rfl)

/-- Row `k` of a table shared by every batch entry, cut out, flattened, given two unit axes and laid over the batch
    entries and the channels, reads at `(b, q, l)` the table at `(k, l)`. -/
theorem rowK_apply (o : Nat) (X : FVec Ideal S8x4096 .f32) (h : S8x4096.Slices ![o, 0] S1x4096)
    (k : Fin 8) (hk : k.val = o) (b : Fin 8) (q : Fin 16) (l : Fin 4096) :
    broadcastTo S8x16x4096
        (shapeCast S1x1x4096 (shapeCast S4096 (extractStridedSlice S1x4096 ![o, 0] X h)
          shapeCasts_S1x4096_S4096) shapeCasts_S4096_S1x1x4096)
        broadcasts_S1x1x4096_S8x16x4096 (ix3 b q l)
      = X (ix2 k l) := by
  refine (broadcastTo_apply _ broadcasts_S1x1x4096_S8x16x4096 (ix3 b q l) (ix3 (0 : Fin 1) (0 : Fin 1) l)
    (fun a => ?_)).trans ?_
  · match a with
    | ⟨0, _⟩ => rfl
    | ⟨1, _⟩ => rfl
    | ⟨2, _⟩ => rfl
  · refine (shapeCast_apply _ shapeCasts_S4096_S1x1x4096 (ix3 (0 : Fin 1) (0 : Fin 1) l) (ix1 l) ?_).trans ?_
    · rw [Shape.rowMajor_val_three, Shape.rowMajor_val_one]
      show l.val = (0 * 1 + 0) * 4096 + l.val
      omega
    · refine (shapeCast_1a_a_apply _ shapeCasts_S1x4096_S4096 l).trans ?_
      exact slice2_axis0_apply o X h (0 : Fin 1) l k (by rw [hk]; rfl)

/-- The x block rotated along the sequence axis by `k` reads at `(b, q, l)` the block at `(b, q, l - k)` on the
    cycle. -/
theorem rot_apply (sb : BitVec 32) (x : FVec Ideal S8x16x4096 .f32) (k : Fin 8) (hk : sb.toNat = k.val)
    (b : Fin 8) (q : Fin 16) (l : Fin 4096) :
    dynamicRotate 2 sb none x rotates_S8x16x4096_d2 (ix3 b q l) = x (ix3 b q (back l k)) := by
  refine dynamicRotate_apply (2 : Fin S8x16x4096.rank) sb x rotates_S8x16x4096_d2 (ix3 b q l) (ix3 b q (back l k))
    (fun a => ?_)
  match a with
  | ⟨0, _⟩ => rfl
  | ⟨1, _⟩ => rfl
  | ⟨2, _⟩ =>
    show (l.val + 4096 - k.val) % 4096 = (l.val + 4096 - sb.toNat % 4096) % 4096
    have hk8 := k.isLt
    rw [hk, Nat.mod_eq_of_lt (show k.val < 4096 by omega)]

/-- Lag zero is the position itself. -/
theorem back_zero (l : Fin 4096) : back l 0 = l := by
  refine Fin.ext ?_
  show (l.val + 4096 - 0) % 4096 = l.val
  have := l.isLt
  omega

/-- The sum over the sequence axis of an [8, 16, 4096] vector, read at `(b, q)`, is the sum over the positions of
    the vector at `(b, q, ·)`. -/
theorem laneSum_apply (src : FVec Ideal S8x16x4096 .f32) (hφ : FKind.Formats .f32)
    (hacc : (0x00000000#32 : BitVec 32) = FKind.add.neutral .f32 hφ) (b : Fin 8) (q : Fin 16) :
    multiReduction .add [2] S8x16 src 0x00000000#32 reduces_S8x16x4096_S8x16 hφ hacc (ix2 b q)
      = ∑ l : Fin 4096, src (ix3 b q l) := by
  refine (Ideal.multiReduction_add_single src 0x00000000#32 reduces_S8x16x4096_S8x16 hφ hacc (ix2 b q)).trans ?_
  refine Finset.sum_congr rfl (fun l _ => congrArg src ?_)
  funext c
  match c with
  | ⟨0, _⟩ => exact Fin.ext rfl
  | ⟨1, _⟩ => exact Fin.ext rfl
  | ⟨2, _⟩ => exact Fin.ext rfl

/-- A value per `(b, q)`, given a unit last axis and laid along the sequence axis, reads at `(b, q, l)` the value
    at `(b, q)`. -/
theorem col_apply (v : FVec Ideal S8x16 .f32) (b : Fin 8) (q : Fin 16) (l : Fin 4096) :
    broadcastTo S8x16x4096 (shapeCast S8x16x1 v shapeCasts_S8x16_S8x16x1) broadcasts_S8x16x1_S8x16x4096 (ix3 b q l)
      = v (ix2 b q) := by
  refine (broadcastTo_apply _ broadcasts_S8x16x1_S8x16x4096 (ix3 b q l) (ix3 b q (0 : Fin 1)) (fun a => ?_)).trans ?_
  · match a with
    | ⟨0, _⟩ => rfl
    | ⟨1, _⟩ => rfl
    | ⟨2, _⟩ => rfl
  · refine shapeCast_apply v shapeCasts_S8x16_S8x16x1 (ix3 b q (0 : Fin 1)) (ix2 b q) ?_
    rw [Shape.rowMajor_val_three, Shape.rowMajor_val_two]
    show b.val * 16 + q.val = (b.val * 16 + q.val) * 1 + 0
    omega

/-- The same sum, the accumulator's evidence being that the zero word is the zero word. -/
theorem laneSum_printed (src : FVec Ideal S8x16x4096 .f32) (hφ : FKind.Formats .f32)
    (hacc : (0x00000000#32 : BitVec 32) = 0x00000000#32) (b : Fin 8) (q : Fin 16) :
    multiReduction .add [2] S8x16 src 0x00000000#32 reduces_S8x16x4096_S8x16 hφ hacc (ix2 b q)
      = ∑ l : Fin 4096, src (ix3 b q l) :=
  laneSum_apply src hφ hacc b q

/-- The exponential of a vector, read at an index. -/
theorem exp_apply {s : Shape} (a : FVec Ideal s .f32) (i : s.Idx) : exp a i = Ideal.exp (a i) := rfl

/-! ## One lag's term of a windowed average -/

/-- Lag `k ≥ 1` against a per-batch table: the shifted block times row `k`. -/
theorem termB (x : FVec Ideal S8x16x4096 .f32) (sb : BitVec 32) (o : Nat) (X : FVec Ideal S8x8x4096 .f32)
    (h : S8x8x4096.Slices ![0, o, 0] S8x1x4096) (k : Fin 8) (hs : sb.toNat = k.val) (ho : k.val = o)
    (b : Fin 8) (q : Fin 16) (l : Fin 4096) :
    mulf (dynamicRotate 2 sb none x rotates_S8x16x4096_d2)
        (broadcastTo S8x16x4096
          (shapeCast S8x1x4096 (shapeCast S8x4096 (extractStridedSlice S8x1x4096 ![0, o, 0] X h)
            shapeCasts_S8x1x4096_S8x4096) shapeCasts_S8x4096_S8x1x4096)
          broadcasts_S8x1x4096_S8x16x4096) (ix3 b q l)
      = x (ix3 b q (back l k)) * X (ix3 b k l) := by
  rw [mulf_apply, rot_apply sb x k hs, rowB_apply o X h k ho]

/-- Lag zero against a per-batch table: the block itself times row 0. -/
theorem termB0 (x : FVec Ideal S8x16x4096 .f32) (X : FVec Ideal S8x8x4096 .f32)
    (h : S8x8x4096.Slices ![0, 0, 0] S8x1x4096) (b : Fin 8) (q : Fin 16) (l : Fin 4096) :
    mulf x
        (broadcastTo S8x16x4096
          (shapeCast S8x1x4096 (shapeCast S8x4096 (extractStridedSlice S8x1x4096 ![0, 0, 0] X h)
            shapeCasts_S8x1x4096_S8x4096) shapeCasts_S8x4096_S8x1x4096)
          broadcasts_S8x1x4096_S8x16x4096) (ix3 b q l)
      = x (ix3 b q (back l 0)) * X (ix3 b 0 l) := by
  rw [mulf_apply, rowB_apply 0 X h 0 rfl, back_zero]

/-- Lag `k ≥ 1` against the shared table. -/
theorem termK (x : FVec Ideal S8x16x4096 .f32) (sb : BitVec 32) (o : Nat) (X : FVec Ideal S8x4096 .f32)
    (h : S8x4096.Slices ![o, 0] S1x4096) (k : Fin 8) (hs : sb.toNat = k.val) (ho : k.val = o)
    (b : Fin 8) (q : Fin 16) (l : Fin 4096) :
    mulf (dynamicRotate 2 sb none x rotates_S8x16x4096_d2)
        (broadcastTo S8x16x4096
          (shapeCast S1x1x4096 (shapeCast S4096 (extractStridedSlice S1x4096 ![o, 0] X h)
            shapeCasts_S1x4096_S4096) shapeCasts_S4096_S1x1x4096)
          broadcasts_S1x1x4096_S8x16x4096) (ix3 b q l)
      = x (ix3 b q (back l k)) * X (ix2 k l) := by
  rw [mulf_apply, rot_apply sb x k hs, rowK_apply o X h k ho]

/-- Lag zero against the shared table. -/
theorem termK0 (x : FVec Ideal S8x16x4096 .f32) (X : FVec Ideal S8x4096 .f32)
    (h : S8x4096.Slices ![0, 0] S1x4096) (b : Fin 8) (q : Fin 16) (l : Fin 4096) :
    mulf x
        (broadcastTo S8x16x4096
          (shapeCast S1x1x4096 (shapeCast S4096 (extractStridedSlice S1x4096 ![0, 0] X h)
            shapeCasts_S1x4096_S4096) shapeCasts_S4096_S1x1x4096)
          broadcasts_S1x1x4096_S8x16x4096) (ix3 b q l)
      = x (ix3 b q (back l 0)) * X (ix2 0 l) := by
  rw [mulf_apply, rowK_apply 0 X h 0 rfl, back_zero]

/-- Eight equal terms give equal left-nested sums. -/
theorem sum8 {a0 a1 a2 a3 a4 a5 a6 a7 c0 c1 c2 c3 c4 c5 c6 c7 : EReal}
    (h0 : a0 = c0) (h1 : a1 = c1) (h2 : a2 = c2) (h3 : a3 = c3) (h4 : a4 = c4) (h5 : a5 = c5) (h6 : a6 = c6)
    (h7 : a7 = c7) : a0 + a1 + a2 + a3 + a4 + a5 + a6 + a7 = c0 + c1 + c2 + c3 + c4 + c5 + c6 + c7 := by
  rw [h0, h1, h2, h3, h4, h5, h6, h7]

/-! ## The two windowed averages -/

/-- The average against the time-gap table, read at `(b, q, l)`. -/
theorem avgB_apply (x0 : Vec Ideal S8x16x4096 .f32) (x1 : Vec Ideal S8x8x4096 .f32)
    (b : Fin 8) (q : Fin 16) (l : Fin 4096) :
    k0_pay16 (F := Ideal) x0 (k0_pay2 x1) (k0_pay6 x0 x1) (k0_pay8 x0) (k0_pay9 x1) (ix3 b q l)
      = win (fun i => x0 (ix3 b q i)) (fun k i => x1 (ix3 b k i)) l := by
  have hX : ∀ j, k0_pay2 (F := Ideal) x1 j = x1 j := congrFun (shapeCast_self x1 _)
  unfold win
  rw [Fin.sum_univ_eight]
  unfold k0_pay16 k0_pay6 k0_pay8 k0_pay9 k0_pay4 k0_pay5 k0_pay11 k0_pay12 k0_pay13 k0_pay15
  simp only [addf_apply]
  refine (sum8 (termB0 x0 (k0_pay2 x1) _ b q l)
    (termB x0 1#32 1 (k0_pay2 x1) _ 1 rfl rfl b q l)
    (termB x0 2#32 2 (k0_pay2 x1) _ 2 rfl rfl b q l)
    (termB x0 3#32 3 (k0_pay2 x1) _ 3 rfl rfl b q l)
    (termB x0 4#32 4 (k0_pay2 x1) _ 4 rfl rfl b q l)
    (termB x0 5#32 5 (k0_pay2 x1) _ 5 rfl rfl b q l)
    (termB x0 6#32 6 (k0_pay2 x1) _ 6 rfl rfl b q l)
    (termB x0 7#32 7 (k0_pay2 x1) _ 7 rfl rfl b q l)).trans ?_
  simp only [hX]

/-- The average against the fixed-kernel table, read at `(b, q, l)`: its first seven lags, plus the last. -/
theorem avgK_apply (x0 : Vec Ideal S8x16x4096 .f32) (x2 : Vec Ideal S8x4096 .f32)
    (b : Fin 8) (q : Fin 16) (l : Fin 4096) :
    addf (k0_pay14 (F := Ideal) x0 (k0_pay3 x2) (k0_pay7 x0 x2) (k0_pay8 x0) (k0_pay10 x2))
        (mulf (k0_pay15 x0) (k0_pay17 (k0_pay3 x2))) (ix3 b q l)
      = win (fun i => x0 (ix3 b q i)) (fun k i => x2 (ix2 k i)) l := by
  have hX : ∀ j, k0_pay3 (F := Ideal) x2 j = x2 j := congrFun (shapeCast_self x2 _)
  unfold win
  rw [Fin.sum_univ_eight]
  unfold k0_pay14 k0_pay7 k0_pay8 k0_pay10 k0_pay17 k0_pay4 k0_pay5 k0_pay11 k0_pay12 k0_pay13 k0_pay15
  simp only [addf_apply]
  refine (sum8 (termK0 x0 (k0_pay3 x2) _ b q l)
    (termK x0 1#32 1 (k0_pay3 x2) _ 1 rfl rfl b q l)
    (termK x0 2#32 2 (k0_pay3 x2) _ 2 rfl rfl b q l)
    (termK x0 3#32 3 (k0_pay3 x2) _ 3 rfl rfl b q l)
    (termK x0 4#32 4 (k0_pay3 x2) _ 4 rfl rfl b q l)
    (termK x0 5#32 5 (k0_pay3 x2) _ 5 rfl rfl b q l)
    (termK x0 6#32 6 (k0_pay3 x2) _ 6 rfl rfl b q l)
    (termK x0 7#32 7 (k0_pay3 x2) _ 7 rfl rfl b q l)).trans ?_
  simp only [hX]

/-! ## The Gram matrix, the pair softmaxes and the re-mix -/

/-- From the first seven lags `v92` of the second average, its last lag's two factors `v93`, `v103` and the
    first average `v102`, the stored value at `(b, q, l)` is the specification's re-mix of the two averages' rows
    at `(b, q)`. -/
theorem tail_apply (v92 v93 v102 v103 : FVec Ideal S8x16x4096 .f32) (b : Fin 8) (q : Fin 16) (l : Fin 4096) :
    k0_pay1 (F := Ideal) v92 v93 v102 v103 (ix3 b q l)
      = mixK (fun j => v102 (ix3 b q j)) (fun j => addf v92 (mulf v93 v103) (ix3 b q j)) l := by
  unfold k0_pay1 mixK softL softR eL eR gram half
  simp only [addf_apply, mulf_apply, divf_apply, subf_apply, maximumf_apply, exp_apply, broadcast_apply, col_apply,
    Ideal.ofBits_def]
  rw [laneSum_printed (mulf v102 v102) _ _ b q, laneSum_printed (mulf v102 (addf v92 (mulf v93 v103))) _ _ b q,
    laneSum_printed (mulf (addf v92 (mulf v93 v103)) (addf v92 (mulf v93 v103))) _ _ b q]
  simp only [addf_apply, mulf_apply]

/-! ## The stored value -/

/-- The value the body stores, at `(b, q, l)`: the re-mix of the two causal windowed averages of the row
    `x0 (b, q, ·)`, against the time-gap table of batch entry `b` and against the fixed-kernel table. -/
theorem pay_apply (x0 : Vec Ideal S8x16x4096 .f32) (x1 : Vec Ideal S8x8x4096 .f32) (x2 : Vec Ideal S8x4096 .f32)
    (b : Fin 8) (q : Fin 16) (l : Fin 4096) :
    pay (F := Ideal) x0 x1 x2 (ix3 b q l)
      = Cert.Causal.mixK (fun j => Cert.Causal.win (fun i => x0 (ix3 b q i)) (fun k i => x1 (ix3 b k i)) j)
          (fun j => Cert.Causal.win (fun i => x0 (ix3 b q i)) (fun k i => x2 (ix2 k i)) j) l := by
  unfold pay
  refine (tail_apply _ _ _ _ b q l).trans ?_
  exact congrArg₂ (fun p r => mixK p r l) (funext fun j => avgB_apply x0 x1 b q j)
    (funext fun j => avgK_apply x0 x2 b q j)

end Cert.KernelIdeal.Fr

end
-- ==== Proof.KIRun.lean ====
/-
  The idealized kernel program's run with its result named: every weakly fair execution ends with the result array
  holding, at (b, c, l), the re-mix of the two windowed averages of row (b, c) of x against the two masked tables the
  host code built, and with the three arguments as launched.
-/
import proofs.«121142_j83648783057347_2_alg».proof.Proof.KIFrame
import proofs.«121142_j83648783057347_2_alg».proof.Proof.KIValue
import proofs.«121142_j83648783057347_2_alg».proof.Proof.KIPay

noncomputable section

namespace Cert.KernelIdeal.Fr

open Idealize.ShloMosaic Idealize.ShloMosaic.TcCoe Idealize.ShloMosaic.ValueIdx
open Idealize.SL Idealize.SL.Sem
open Cert.KernelIdeal Cert.KernelIdeal.Gen
open Idealize.ShloMosaic.Pipeline (Dat)

variable (m : (ℓ : Loc nD τ sig) → Buf (Elt Ideal) ℓ) (ρ : Dev nD → PrngReg)

theorem run_value : θ_run defs (onTc (τ := τ) (main (F := Ideal))) ⟨m, fun _ => 0, ρ⟩ (fun r => ∀ c : Dev nD,
      r.2.mem ((c.tc : Thread nD τ).loc main_v79) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 3).trans (final3 m c (dats m 0 c) (after0_3 m c) pay_apply),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩) (run_main m ρ)

end Cert.KernelIdeal.Fr

end
-- ==== Proof.KIHost.lean ====
/-
  The two tables the host operations leave for the region, read at an index.
  The softmax table W[b, l, k] (batch entry, position, lag) is masked where lag k would reach before position 0
  from position l, and transposed to (b, k, l); the fixed-kernel argument's eight weights are laid along the
  positions and masked the same way. Both masks compare the position with the lag as signed words; both are small
  and non-negative, so the comparison is the comparison of the numbers.
-/
import proofs.«121142_j83648783057347_2_alg».proof.Proof.KIBase
import Idealize.ShloMosaic.Lib.Pipeline.Value
import Idealize.ShloMosaic.Lib.ValueIdx
import Idealize.ShloMosaic.Lib.ValueLayout
import Idealize.ShloMosaic.Lib.StableHlo.Predicate
import Idealize.ShloMosaic.Lib.StableHlo.Run
import Idealize.ShloMosaic.PureOps.Ideal
import Idealize.ShloMosaic.PureOps.Ideal.Laws

noncomputable section

namespace Cert.KernelIdeal.Fr

open Idealize.ShloMosaic Idealize.ShloMosaic.TcCoe
open Idealize.SL Idealize.SL.Sem
open Cert.KernelIdeal Cert.KernelIdeal.Gen
open Idealize.ShloMosaic.ValueIdx

variable (m : (ℓ : Loc nD τ sig) → Buf (Elt Ideal) ℓ)

/-- A list of lists flattened, cut inside its fourth list from the end. -/
theorem flatten_split {α : Type} (L : List (List α)) (a b c d : List α) (n : Nat) :
    List.flatten (L ++ [a, b, c, d]) = (List.flatten L ++ List.take n a) ++ (List.drop n a ++ (b ++ (c ++ d))) := by
  simp only [List.flatten_append, List.flatten_cons, List.flatten_nil, List.append_nil, List.append_assoc]
  rw [← List.append_assoc (List.take n a), List.take_append_drop]

/-- The host operations up to and including the one that writes the softmax table. -/
abbrev preOps : List (HloOp τ sig (Elt Ideal)) :=
  List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31] ++ List.take 24 hostOps0_32

/-- The host operations after it: the two masks, the two selects, the transpose. -/
abbrev tailOps : List (HloOp τ sig (Elt Ideal)) :=
  List.drop 24 hostOps0_32 ++ (hostOps0_33 ++ (hostOps0_34 ++ hostOps0_35))

theorem hostAll_split : List.flatten (hostAll (F := Ideal)) = preOps ++ tailOps :=
  flatten_split [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31] hostOps0_32 hostOps0_33 hostOps0_34 hostOps0_35 24

/-- What the region finds is the later operations run on what the earlier ones left. -/
theorem V_split (c : Dev nD) (b : Ref sig .tc) :
    V m c b = StableHlo.after tailOps (StableHlo.after preOps (fun b => m (c, b))) b := by
  show StableHlo.after (List.flatten (hostAll (F := Ideal))) (fun b => m (c, b)) b = _
  rw [hostAll_split, StableHlo.after_append]

/-- No host operation writes an argument: the fixed-kernel argument is still the launch's. -/
theorem pre_arg2 (c : Dev nD) :
    StableHlo.after preOps (fun b => m (c, b)) (Proc.devRef .tc main_arg2) = m ((c : Thread nD τ).loc main_arg2) := by
  simp only [preOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, List.flatten_cons, List.flatten_nil, List.append_nil, List.cons_append, List.nil_append, List.take_succ_cons, List.take_zero]
  after_results_simp

/-- The positions 0 … 4095 along the sequence axis, written by the first host operation and by no other. -/
theorem pre_v0 (c : Dev nD) :
    StableHlo.after preOps (fun b => m (c, b)) (Proc.devRef .tc main_v0) = (iotaInDim S4096 32 0 : IVec S4096 32) := by
  simp only [preOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, List.flatten_cons, List.flatten_nil, List.append_nil, List.cons_append, List.nil_append, List.take_succ_cons, List.take_zero]
  after_results_simp

/-- The later operations do not write the softmax table: the region finds it as the earlier ones left it. -/
theorem pre_v60 (c : Dev nD) :
    StableHlo.after preOps (fun b => m (c, b)) (Proc.devRef .tc main_v60) = V m c main_v60 := by
  rw [V_split]
  generalize StableHlo.after preOps (fun b => m (c, b)) = W0
  symm
  show StableHlo.after tailOps W0 (Proc.devRef .tc main_v60) = _
  simp only [tailOps, hostOps0_32, hostOps0_33, hostOps0_34, hostOps0_35, List.drop_succ_cons, List.drop_zero, List.cons_append, List.nil_append]
  after_results

/-! ## The layout operations of the two masks, read at an index -/

section Pointwise
variable {α : Type}

/-- A vector laid along the second axis of the 8 × 4096 rectangle reads, at (k, l), its entry l. -/
theorem bcast_l_apply (h₁ : S4096.BroadcastsInDim S1x4096 ![1]) (h₂ : S1x4096.BroadcastsInDim S8x4096 ![0, 1])
    (v : S4096.Idx → α) (k : Fin 8) (l : Fin 4096) :
    broadcastInDim S8x4096 ![0, 1] h₂ (broadcastInDim S1x4096 ![1] h₁ v) (ix2 k l) = v (ix1 l) :=
  (broadcastInDim_apply _ h₂ _ (ix2 k l) (ix2 0 l) fun a => match a with | ⟨0, _⟩ => rfl | ⟨1, _⟩ => rfl).trans
    (broadcastInDim_apply _ h₁ v (ix2 0 l) (ix1 l) fun a => match a with | ⟨0, _⟩ => rfl)

/-- A vector laid along the first axis of the 8 × 4096 rectangle reads, at (k, l), its entry k. -/
theorem bcast_k_apply (h₁ : S8.BroadcastsInDim S8x1 ![0]) (h₂ : S8x1.BroadcastsInDim S8x4096 ![0, 1])
    (v : S8.Idx → α) (k : Fin 8) (l : Fin 4096) :
    broadcastInDim S8x4096 ![0, 1] h₂ (broadcastInDim S8x1 ![0] h₁ v) (ix2 k l) = v (ix1 k) :=
  (broadcastInDim_apply _ h₂ _ (ix2 k l) (ix2 k 0) fun a => match a with | ⟨0, _⟩ => rfl | ⟨1, _⟩ => rfl).trans
    (broadcastInDim_apply _ h₁ v (ix2 k 0) (ix1 k) fun a => match a with | ⟨0, _⟩ => rfl)

/-- A scalar laid over the 8 × 4096 rectangle reads the scalar everywhere. -/
theorem bcast_s2_apply (h : S_.BroadcastsInDim S8x4096 ![]) (v : S_.Idx → α) (j : S8x4096.Idx) :
    broadcastInDim S8x4096 ![] h v j = v ix0 :=
  broadcastInDim_apply _ h v j ix0 fun a => a.elim0

end Pointwise

/-- Two small non-negative words compare, signed, as the numbers they are. -/
theorem sge_ofNat (l k : ℕ) (hl : l < 2 ^ 31) (hk : k < 2 ^ 31) :
    IntOp.cmpi .sge (BitVec.ofNat 32 l) (BitVec.ofNat 32 k) = 1#1 ↔ k ≤ l := by
  have el : (BitVec.ofNat 32 l).toNat = l := by rw [BitVec.toNat_ofNat]; exact Nat.mod_eq_of_lt (by omega)
  have ek : (BitVec.ofNat 32 k).toNat = k := by rw [BitVec.toNat_ofNat]; exact Nat.mod_eq_of_lt (by omega)
  rw [StableHlo.Predicate.sge_iff_toNat (by rw [el]; exact hl) (by rw [ek]; exact hk), el, ek]

/-- The mask of the second table: set at (k, l) exactly when lag k does not reach before position 0 from l. -/
theorem keep2_apply (h₁ : S4096.BroadcastsInDim S1x4096 ![1]) (h₂ : S1x4096.BroadcastsInDim S8x4096 ![0, 1])
    (h₃ : S8.BroadcastsInDim S8x1 ![0]) (h₄ : S8x1.BroadcastsInDim S8x4096 ![0, 1]) (k : Fin 8) (l : Fin 4096) :
    cmpi .sge (broadcastInDim S8x4096 ![0, 1] h₂ (broadcastInDim S1x4096 ![1] h₁ (iotaInDim S4096 32 0)))
      (broadcastInDim S8x4096 ![0, 1] h₄ (broadcastInDim S8x1 ![0] h₃ (iotaInDim S8 32 0))) (ix2 k l)
      = if k.val ≤ l.val then 1#1 else 0#1 := by
  show IntOp.cmpi .sge (broadcastInDim S8x4096 ![0, 1] h₂ (broadcastInDim S1x4096 ![1] h₁ (iotaInDim S4096 32 0)) (ix2 k l))
      (broadcastInDim S8x4096 ![0, 1] h₄ (broadcastInDim S8x1 ![0] h₃ (iotaInDim S8 32 0)) (ix2 k l)) = _
  rw [bcast_l_apply, bcast_k_apply]
  show IntOp.cmpi .sge (BitVec.ofNat 32 l.val) (BitVec.ofNat 32 k.val) = _
  have hl := l.isLt
  have hk := k.isLt
  split
  · next h => exact (sge_ofNat l.val k.val (by omega) (by omega)).mpr h
  · next h => exact eq_zero_of_ne_one (mt (sge_ofNat l.val k.val (by omega) (by omega)).mp h)

/-- The second table as the host operations build it from the fixed-kernel argument. -/
theorem V_v78_eq (c : Dev nD) :
    (V m c main_v78 : S8x4096.Idx → EReal) =
      select (cmpi .sge (broadcastInDim S8x4096 ![0, 1] bcast_S1x4096_S8x4096_0_1 (broadcastInDim S1x4096 ![1] bcast_S4096_S1x4096_1 (iotaInDim S4096 32 0)))
          (broadcastInDim S8x4096 ![0, 1] bcast_S8x1_S8x4096_0_1 (broadcastInDim S8x1 ![0] bcast_S8_S8x1_0 (iotaInDim S8 32 0))))
        (broadcastInDim S8x4096 ![0, 1] bcast_S8x1_S8x4096_0_1 (broadcastInDim S8x1 ![0] bcast_S8_S8x1_0
          (shapeCast S8 (m ((c : Thread nD τ).loc main_arg2) : S1x1x8.Idx → EReal) shapeCasts_S1x1x8_S8)))
        (broadcastInDim S8x4096 ![] bcast_S_S8x4096 (constant (F := Ideal) S_ .f32 0x00000000#32)) := by
  rw [V_split, ← pre_arg2 m c]
  generalize StableHlo.after preOps (fun b => m (c, b)) = W0
  show StableHlo.after tailOps W0 (Proc.devRef .tc main_v78) = _
  simp only [tailOps, hostOps0_32, hostOps0_33, hostOps0_34, hostOps0_35, List.drop_succ_cons, List.drop_zero, List.cons_append, List.nil_append]
  after_results
  rfl

theorem V_v78_apply (c : Dev nD) (k : Fin 8) (l : Fin 4096) :
    (V m c main_v78 : S8x4096.Idx → EReal) (ix2 k l)
      = (if k.val ≤ l.val then (m ((c : Thread nD τ).loc main_arg2) : S1x1x8.Idx → EReal) (ix3 0 0 k) else 0 : EReal) := by
  rw [V_v78_eq, select_apply, keep2_apply]
  split
  · rw [select_one, bcast_k_apply]
    exact shapeCast_apply _ shapeCasts_S1x1x8_S8 (ix1 k) (ix3 0 0 k) (by
      rw [Shape.rowMajor_val_three, Shape.rowMajor_val_one]; show (0 * 1 + 0) * 8 + k.val = k.val; omega)
  · rw [select_zero, bcast_s2_apply, constant_apply]
    exact Ideal.ofBits_zero_f32

section Pointwise3
variable {α : Type}

/-- A 1 × 4096 × 8 array laid over the eight batch entries reads, at (b, l, k), its entry (0, l, k). -/
theorem bcast3_b_apply (h : S1x4096x8.BroadcastsInDim S8x4096x8 ![0, 1, 2]) (x : S1x4096x8.Idx → α)
    (b : Fin 8) (l : Fin 4096) (k : Fin 8) :
    broadcastInDim S8x4096x8 ![0, 1, 2] h x (ix3 b l k) = x (ix3 (0 : Fin 1) l k) :=
  broadcastInDim_apply _ h x (ix3 b l k) (ix3 (0 : Fin 1) l k) fun a => match a with | ⟨0, _⟩ => rfl | ⟨1, _⟩ => rfl | ⟨2, _⟩ => rfl

/-- A vector laid along the middle axis of the 1 × 4096 × 8 array reads, at (0, l, k), its entry l. -/
theorem bcast3_l_apply (h₁ : S4096.BroadcastsInDim S1x4096x1 ![1]) (h₂ : S1x4096x1.BroadcastsInDim S1x4096x8 ![0, 1, 2])
    (v : S4096.Idx → α) (l : Fin 4096) (k : Fin 8) :
    broadcastInDim S1x4096x8 ![0, 1, 2] h₂ (broadcastInDim S1x4096x1 ![1] h₁ v) (ix3 (0 : Fin 1) l k) = v (ix1 l) :=
  (broadcastInDim_apply _ h₂ _ (ix3 (0 : Fin 1) l k) (ix3 (0 : Fin 1) l (0 : Fin 1))
      fun a => match a with | ⟨0, _⟩ => rfl | ⟨1, _⟩ => rfl | ⟨2, _⟩ => rfl).trans
    (broadcastInDim_apply _ h₁ v (ix3 (0 : Fin 1) l (0 : Fin 1)) (ix1 l) fun a => match a with | ⟨0, _⟩ => rfl)

/-- A vector laid along the last axis of the 1 × 4096 × 8 array reads, at (0, l, k), its entry k. -/
theorem bcast3_k_apply (h₁ : S8.BroadcastsInDim S1x1x8 ![2]) (h₂ : S1x1x8.BroadcastsInDim S1x4096x8 ![0, 1, 2])
    (v : S8.Idx → α) (l : Fin 4096) (k : Fin 8) :
    broadcastInDim S1x4096x8 ![0, 1, 2] h₂ (broadcastInDim S1x1x8 ![2] h₁ v) (ix3 (0 : Fin 1) l k) = v (ix1 k) :=
  (broadcastInDim_apply _ h₂ _ (ix3 (0 : Fin 1) l k) (ix3 (0 : Fin 1) (0 : Fin 1) k)
      fun a => match a with | ⟨0, _⟩ => rfl | ⟨1, _⟩ => rfl | ⟨2, _⟩ => rfl).trans
    (broadcastInDim_apply _ h₁ v (ix3 (0 : Fin 1) (0 : Fin 1) k) (ix1 k) fun a => match a with | ⟨0, _⟩ => rfl)

/-- A scalar laid over the 8 × 4096 × 8 array reads the scalar everywhere. -/
theorem bcast_s3_apply (h : S_.BroadcastsInDim S8x4096x8 ![]) (v : S_.Idx → α) (j : S8x4096x8.Idx) :
    broadcastInDim S8x4096x8 ![] h v j = v ix0 :=
  broadcastInDim_apply _ h v j ix0 fun a => a.elim0

end Pointwise3

/-- The mask of the first table: set at (0, l, k) exactly when lag k does not reach before position 0 from l. -/
theorem keep1_apply (h₁ : S4096.BroadcastsInDim S1x4096x1 ![1]) (h₂ : S1x4096x1.BroadcastsInDim S1x4096x8 ![0, 1, 2])
    (h₃ : S8.BroadcastsInDim S1x1x8 ![2]) (h₄ : S1x1x8.BroadcastsInDim S1x4096x8 ![0, 1, 2]) (l : Fin 4096) (k : Fin 8) :
    cmpi .sge (broadcastInDim S1x4096x8 ![0, 1, 2] h₂ (broadcastInDim S1x4096x1 ![1] h₁ (iotaInDim S4096 32 0)))
      (broadcastInDim S1x4096x8 ![0, 1, 2] h₄ (broadcastInDim S1x1x8 ![2] h₃ (iotaInDim S8 32 0))) (ix3 (0 : Fin 1) l k)
      = if k.val ≤ l.val then 1#1 else 0#1 := by
  show IntOp.cmpi .sge (broadcastInDim S1x4096x8 ![0, 1, 2] h₂ (broadcastInDim S1x4096x1 ![1] h₁ (iotaInDim S4096 32 0)) (ix3 (0 : Fin 1) l k))
      (broadcastInDim S1x4096x8 ![0, 1, 2] h₄ (broadcastInDim S1x1x8 ![2] h₃ (iotaInDim S8 32 0)) (ix3 (0 : Fin 1) l k)) = _
  rw [bcast3_l_apply, bcast3_k_apply]
  show IntOp.cmpi .sge (BitVec.ofNat 32 l.val) (BitVec.ofNat 32 k.val) = _
  have hl := l.isLt
  have hk := k.isLt
  split
  · next h => exact (sge_ofNat l.val k.val (by omega) (by omega)).mpr h
  · next h => exact eq_zero_of_ne_one (mt (sge_ofNat l.val k.val (by omega) (by omega)).mp h)

/-- The first table as the host operations build it from the softmax table. -/
theorem V_v68_eq (c : Dev nD) :
    (V m c main_v68 : S8x8x4096.Idx → EReal) =
      transpose S8x8x4096 [0, 2, 1]
        (select
          (broadcastInDim S8x4096x8 ![0, 1, 2] bcast_S1x4096x8_S8x4096x8_0_1_2
            (cmpi .sge
              (broadcastInDim S1x4096x8 ![0, 1, 2] bcast_S1x4096x1_S1x4096x8_0_1_2 (broadcastInDim S1x4096x1 ![1] bcast_S4096_S1x4096x1_1 (iotaInDim S4096 32 0)))
              (broadcastInDim S1x4096x8 ![0, 1, 2] bcast_S1x1x8_S1x4096x8_0_1_2 (broadcastInDim S1x1x8 ![2] bcast_S8_S1x1x8_2 (iotaInDim S8 32 0)))))
          (V m c main_v60 : S8x4096x8.Idx → EReal)
          (broadcastInDim S8x4096x8 ![] bcast_S_S8x4096x8 (constant (F := Ideal) S_ .f32 0x00000000#32)))
        transposes_S8x4096x8_S8x8x4096_0_2_1 := by
  rw [V_split m c main_v68, ← pre_v60 m c, ← pre_v0 m c]
  generalize StableHlo.after preOps (fun b => m (c, b)) = W0
  show StableHlo.after tailOps W0 (Proc.devRef .tc main_v68) = _
  simp only [tailOps, hostOps0_32, hostOps0_33, hostOps0_34, hostOps0_35, List.drop_succ_cons, List.drop_zero, List.cons_append, List.nil_append]
  after_results
  rfl

theorem V_v68_apply (c : Dev nD) (b : Fin 8) (k : Fin 8) (l : Fin 4096) :
    (V m c main_v68 : S8x8x4096.Idx → EReal) (ix3 b k l)
      = (if k.val ≤ l.val then (V m c main_v60 : S8x4096x8.Idx → EReal) (ix3 b l k) else 0 : EReal) := by
  rw [V_v68_eq, transpose_ix3_021_apply, select_apply, bcast3_b_apply, keep1_apply]
  split
  · rw [select_one]
  · rw [select_zero, bcast_s3_apply, constant_apply]
    exact Ideal.ofBits_zero_f32

end Cert.KernelIdeal.Fr

end
-- ==== Proof.WShift.lean ====
/-
  The eight shifted differences of the time gaps, as the kernel's program holds them before it stacks them.

  Both programs compute, for each lag k = 0 … 7, the time gaps shifted cyclically by k along the sequence (a slice, a
  slice and a concatenation), replace the entries whose shift would wrap (position l < k) by the constant 1e20, and
  subtract the time gaps. They do so by the same operations in the same order, so the kernel program's buffers hold
  the reference's stage values.
-/
import proofs.«121142_j83648783057347_2_alg».proof.Proof.KIBase
import proofs.«121142_j83648783057347_2_alg».proof.Proof.RefRead

noncomputable section

namespace Cert.KernelIdeal.Fr

open Idealize.ShloMosaic Idealize.ShloMosaic.TcCoe
open Idealize.SL Idealize.SL.Sem
open Cert.KernelIdeal Cert.KernelIdeal.Gen

variable {F : FTy → Type} [FloatOps F]
variable (m : (ℓ : Loc nD τ sig) → Buf (Elt F) ℓ)

/-- The stretches of host operations that shift the time gaps and subtract: all before the one that stacks the eight
    differences. -/
abbrev hostPre : List (List (HloOp τ sig (Elt F))) := [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31]

/-- Core `c`'s buffer contents after the stretches of `hostPre`. -/
def W0 (c : Dev nD) : Valuation τ sig (Elt F) :=
  StableHlo.after (List.flatten (hostPre (F := F))) (fun b => m (c, b))

/-- The time gaps themselves are an argument: no operation writes them. -/
theorem W0_arg1 (c : Dev nD) :
    (W0 m c (Proc.devRef .tc main_arg1) : (⟨S8x4096, .f32⟩ : BufTy).Contents (Elt F)) = m ((c : Thread nD τ).loc main_arg1) := by
  unfold W0
  rfl

/-- The time gaps under no shift along the sequence (a large constant where the shift would wrap), less the time gaps: the kernel's program and the reference compute it by the same operations. -/
theorem W0_v5 (c : Dev nD) :
    (W0 m c (Proc.devRef .tc main_v5) : (⟨S8x4096, .f32⟩ : BufTy).Contents (Elt F)) = Cert.ReferenceIdeal.RefRead.val_main_v46 (F := F) (m ((c : Thread nD τ).loc main_arg1)) := by
  unfold W0
  rfl

/-- The time gaps under a shift by one along the sequence (a large constant where the shift would wrap), less the time gaps: the kernel's program and the reference compute it by the same operations. -/
theorem W0_v10 (c : Dev nD) :
    (W0 m c (Proc.devRef .tc main_v10) : (⟨S8x4096, .f32⟩ : BufTy).Contents (Elt F)) = Cert.ReferenceIdeal.RefRead.val_main_v51 (F := F) (m ((c : Thread nD τ).loc main_arg1)) := by
  unfold W0
  rfl

/-- The time gaps under a shift by two along the sequence (a large constant where the shift would wrap), less the time gaps: the kernel's program and the reference compute it by the same operations. -/
theorem W0_v15 (c : Dev nD) :
    (W0 m c (Proc.devRef .tc main_v15) : (⟨S8x4096, .f32⟩ : BufTy).Contents (Elt F)) = Cert.ReferenceIdeal.RefRead.val_main_v56 (F := F) (m ((c : Thread nD τ).loc main_arg1)) := by
  unfold W0
  rfl

/-- The time gaps under a shift by three along the sequence (a large constant where the shift would wrap), less the time gaps: the kernel's program and the reference compute it by the same operations. -/
theorem W0_v20 (c : Dev nD) :
    (W0 m c (Proc.devRef .tc main_v20) : (⟨S8x4096, .f32⟩ : BufTy).Contents (Elt F)) = Cert.ReferenceIdeal.RefRead.val_main_v61 (F := F) (m ((c : Thread nD τ).loc main_arg1)) := by
  unfold W0
  rfl

/-- The time gaps under a shift by four along the sequence (a large constant where the shift would wrap), less the time gaps: the kernel's program and the reference compute it by the same operations. -/
theorem W0_v25 (c : Dev nD) :
    (W0 m c (Proc.devRef .tc main_v25) : (⟨S8x4096, .f32⟩ : BufTy).Contents (Elt F)) = Cert.ReferenceIdeal.RefRead.val_main_v66 (F := F) (m ((c : Thread nD τ).loc main_arg1)) := by
  unfold W0
  rfl

/-- The time gaps under a shift by five along the sequence (a large constant where the shift would wrap), less the time gaps: the kernel's program and the reference compute it by the same operations. -/
theorem W0_v30 (c : Dev nD) :
    (W0 m c (Proc.devRef .tc main_v30) : (⟨S8x4096, .f32⟩ : BufTy).Contents (Elt F)) = Cert.ReferenceIdeal.RefRead.val_main_v71 (F := F) (m ((c : Thread nD τ).loc main_arg1)) := by
  unfold W0
  rfl

/-- The time gaps under a shift by six along the sequence (a large constant where the shift would wrap), less the time gaps: the kernel's program and the reference compute it by the same operations. -/
theorem W0_v35 (c : Dev nD) :
    (W0 m c (Proc.devRef .tc main_v35) : (⟨S8x4096, .f32⟩ : BufTy).Contents (Elt F)) = Cert.ReferenceIdeal.RefRead.val_main_v76 (F := F) (m ((c : Thread nD τ).loc main_arg1)) := by
  unfold W0
  rfl

/-- The time gaps under a shift by seven along the sequence, a large constant where the shift would wrap: the kernel's program and the reference compute it by the same operations. -/
theorem W0_v39 (c : Dev nD) :
    (W0 m c (Proc.devRef .tc main_v39) : (⟨S8x4096, .f32⟩ : BufTy).Contents (Elt F)) = Cert.ReferenceIdeal.RefRead.val_main_v80 (F := F) (m ((c : Thread nD τ).loc main_arg1)) := by
  unfold W0
  rfl

end Cert.KernelIdeal.Fr
end
-- ==== Proof.WSame.lean ====
/-
  The table of softmax weights over the eight lags, as the kernel's region finds it, is the reference's.

  Both programs stack the eight shifted differences of the time gaps on a new last axis, take the maximum over it
  (from -∞), the exponentials of the differences less that maximum, their sum (from zero) and the quotient: a softmax
  over the lags. The host operations are the same on both sides, so the contents of the kernel program's buffer equal
  the reference's stage value as functions of the time gaps, whatever the float instance.
-/
import proofs.«121142_j83648783057347_2_alg».proof.Proof.WShift

noncomputable section

namespace Cert.KernelIdeal.Fr

open Idealize.ShloMosaic Idealize.ShloMosaic.TcCoe
open Idealize.SL Idealize.SL.Sem
open Cert.KernelIdeal Cert.KernelIdeal.Gen

variable {F : FTy → Type} [FloatOps F]
variable (m : (ℓ : Loc nD τ sig) → Buf (Elt F) ℓ)

/-- The first ten operations of the stacking stretch: the last difference, each difference on a new last axis, and the
    stacking of the eight along it. -/
abbrev hostMid : List (HloOp τ sig (Elt F)) := List.take 10 hostOps0_32
/-- The operations after the stacking. -/
abbrev hostEnd : List (HloOp τ sig (Elt F)) := List.drop 10 hostOps0_32 ++ List.flatten [hostOps0_33, hostOps0_34, hostOps0_35]

theorem hostAll_three :
    List.flatten (hostAll (F := F)) = List.flatten (hostPre (F := F)) ++ (hostMid (F := F) ++ hostEnd (F := F)) := by
  have e1 : List.flatten (hostAll (F := F))
      = List.flatten (hostPre (F := F)) ++ (hostOps0_32 ++ List.flatten [hostOps0_33, hostOps0_34, hostOps0_35]) := by
    show List.flatten (hostPre (F := F) ++ [hostOps0_32, hostOps0_33, hostOps0_34, hostOps0_35]) = _
    rw [List.flatten_append]
    exact congrArg (fun l => List.flatten (hostPre (F := F)) ++ l) List.flatten_cons
  rw [e1]
  show _ = _ ++ (List.take 10 hostOps0_32 ++ (List.drop 10 hostOps0_32 ++ _))
  rw [← List.append_assoc (List.take 10 _), List.take_append_drop]

/-- Eight arrays over (batch, position), each put on a new last axis of length one and stacked along it. -/
def stack8 (a0 a1 a2 a3 a4 a5 a6 a7 : (⟨S8x4096, .f32⟩ : BufTy).Contents (Elt F)) : (⟨S8x4096x8, .f32⟩ : BufTy).Contents (Elt F) :=
  concatenate S8x4096x8 2 [⟨S8x4096x1, (broadcastInDim S8x4096x1 ![0, 1] bcast_S8x4096_S8x4096x1_0_1 a0 : (⟨S8x4096x1, .f32⟩ : BufTy).Contents (Elt F))⟩, ⟨S8x4096x1, (broadcastInDim S8x4096x1 ![0, 1] bcast_S8x4096_S8x4096x1_0_1 a1 : (⟨S8x4096x1, .f32⟩ : BufTy).Contents (Elt F))⟩, ⟨S8x4096x1, (broadcastInDim S8x4096x1 ![0, 1] bcast_S8x4096_S8x4096x1_0_1 a2 : (⟨S8x4096x1, .f32⟩ : BufTy).Contents (Elt F))⟩, ⟨S8x4096x1, (broadcastInDim S8x4096x1 ![0, 1] bcast_S8x4096_S8x4096x1_0_1 a3 : (⟨S8x4096x1, .f32⟩ : BufTy).Contents (Elt F))⟩, ⟨S8x4096x1, (broadcastInDim S8x4096x1 ![0, 1] bcast_S8x4096_S8x4096x1_0_1 a4 : (⟨S8x4096x1, .f32⟩ : BufTy).Contents (Elt F))⟩, ⟨S8x4096x1, (broadcastInDim S8x4096x1 ![0, 1] bcast_S8x4096_S8x4096x1_0_1 a5 : (⟨S8x4096x1, .f32⟩ : BufTy).Contents (Elt F))⟩, ⟨S8x4096x1, (broadcastInDim S8x4096x1 ![0, 1] bcast_S8x4096_S8x4096x1_0_1 a6 : (⟨S8x4096x1, .f32⟩ : BufTy).Contents (Elt F))⟩, ⟨S8x4096x1, (broadcastInDim S8x4096x1 ![0, 1] bcast_S8x4096_S8x4096x1_0_1 a7 : (⟨S8x4096x1, .f32⟩ : BufTy).Contents (Elt F))⟩] concatenates_S8x4096x1_S8x4096x1_S8x4096x1_S8x4096x1_S8x4096x1_S8x4096x1_S8x4096x1_S8x4096x1_S8x4096x8_d2

/-- The maximum over the last axis, from -∞ (and once more against -∞). -/
def lastMax (z : (⟨S8x4096x8, .f32⟩ : BufTy).Contents (Elt F)) : (⟨S8x4096, .f32⟩ : BufTy).Contents (Elt F) :=
  maximumf (broadcastInDim S8x4096 ![] bcast_S_S8x4096 (constant S_ .f32 0xFF800000#32 : (⟨S_, .f32⟩ : BufTy).Contents (Elt F)) : (⟨S8x4096, .f32⟩ : BufTy).Contents (Elt F))
    (Host.reduce FloatOps.maximumf z (constant S_ .f32 0xFF800000#32 : (⟨S_, .f32⟩ : BufTy).Contents (Elt F)) reducesTo_S8x4096x8_S8x4096_d2 h_S_ : (⟨S8x4096, .f32⟩ : BufTy).Contents (Elt F))

/-- The exponentials of the entries less the maximum over the last axis. -/
def lastExp (z : (⟨S8x4096x8, .f32⟩ : BufTy).Contents (Elt F)) : (⟨S8x4096x8, .f32⟩ : BufTy).Contents (Elt F) :=
  Host.exp (subf z (broadcastInDim S8x4096x8 ![0, 1, 2] bcast_S8x4096x1_S8x4096x8_0_1_2 (broadcastInDim S8x4096x1 ![0, 1] bcast_S8x4096_S8x4096x1_0_1 (lastMax z) : (⟨S8x4096x1, .f32⟩ : BufTy).Contents (Elt F)) : (⟨S8x4096x8, .f32⟩ : BufTy).Contents (Elt F)) : (⟨S8x4096x8, .f32⟩ : BufTy).Contents (Elt F))

/-- The softmax over the last axis: those exponentials over their sum (from zero) along it. -/
def lastSoftmax (z : (⟨S8x4096x8, .f32⟩ : BufTy).Contents (Elt F)) : (⟨S8x4096x8, .f32⟩ : BufTy).Contents (Elt F) :=
  Host.divf (lastExp z) (broadcastInDim S8x4096x8 ![0, 1, 2] bcast_S8x4096x1_S8x4096x8_0_1_2
    (broadcastInDim S8x4096x1 ![0, 1] bcast_S8x4096_S8x4096x1_0_1 (Host.reduceAdd (lastExp z) (constant S_ .f32 0x00000000#32 : (⟨S_, .f32⟩ : BufTy).Contents (Elt F)) reducesTo_S8x4096x8_S8x4096_d2 h_S_ : (⟨S8x4096, .f32⟩ : BufTy).Contents (Elt F)) : (⟨S8x4096x1, .f32⟩ : BufTy).Contents (Elt F)) : (⟨S8x4096x8, .f32⟩ : BufTy).Contents (Elt F))

/-- The kernel's program stacks the eight differences. -/
theorem mid_k (w : Valuation τ sig (Elt F)) :
    (StableHlo.after (hostMid (F := F)) w (Proc.devRef .tc main_v49) : (⟨S8x4096x8, .f32⟩ : BufTy).Contents (Elt F))
      = stack8 (w (Proc.devRef .tc main_v5) : (⟨S8x4096, .f32⟩ : BufTy).Contents (Elt F)) (w (Proc.devRef .tc main_v10) : (⟨S8x4096, .f32⟩ : BufTy).Contents (Elt F)) (w (Proc.devRef .tc main_v15) : (⟨S8x4096, .f32⟩ : BufTy).Contents (Elt F)) (w (Proc.devRef .tc main_v20) : (⟨S8x4096, .f32⟩ : BufTy).Contents (Elt F)) (w (Proc.devRef .tc main_v25) : (⟨S8x4096, .f32⟩ : BufTy).Contents (Elt F)) (w (Proc.devRef .tc main_v30) : (⟨S8x4096, .f32⟩ : BufTy).Contents (Elt F)) (w (Proc.devRef .tc main_v35) : (⟨S8x4096, .f32⟩ : BufTy).Contents (Elt F))
          (subf (w (Proc.devRef .tc main_v39) : (⟨S8x4096, .f32⟩ : BufTy).Contents (Elt F)) (w (Proc.devRef .tc main_arg1) : (⟨S8x4096, .f32⟩ : BufTy).Contents (Elt F))) := rfl

set_option maxHeartbeats 4000000 in
/-- From the stack on it takes the softmax over the last axis. -/
theorem tail_k (w : Valuation τ sig (Elt F)) :
    (StableHlo.after (hostEnd (F := F)) w (Proc.devRef .tc main_v60) : (⟨S8x4096x8, .f32⟩ : BufTy).Contents (Elt F))
      = lastSoftmax (w (Proc.devRef .tc main_v49) : (⟨S8x4096x8, .f32⟩ : BufTy).Contents (Elt F)) := by
  dsimp only [hostEnd]
  simp only [hostOps0_32, hostOps0_33, hostOps0_34, hostOps0_35, List.drop_succ_cons, List.drop_zero, List.flatten_cons, List.flatten_nil, List.append_nil, List.cons_append, List.nil_append]
  after_results
  rfl

/-- The reference stacks the same eight differences. -/
theorem stack_r (x1 : (⟨S8x4096, .f32⟩ : BufTy).Contents (Elt F)) :
    Cert.ReferenceIdeal.RefRead.val_main_v90 (F := F) x1
      = stack8 (Cert.ReferenceIdeal.RefRead.val_main_v46 (F := F) x1) (Cert.ReferenceIdeal.RefRead.val_main_v51 (F := F) x1) (Cert.ReferenceIdeal.RefRead.val_main_v56 (F := F) x1) (Cert.ReferenceIdeal.RefRead.val_main_v61 (F := F) x1) (Cert.ReferenceIdeal.RefRead.val_main_v66 (F := F) x1) (Cert.ReferenceIdeal.RefRead.val_main_v71 (F := F) x1) (Cert.ReferenceIdeal.RefRead.val_main_v76 (F := F) x1)
          (subf (Cert.ReferenceIdeal.RefRead.val_main_v80 (F := F) x1) x1) := rfl

/-- And takes the same softmax. -/
theorem tail_r (x1 : (⟨S8x4096, .f32⟩ : BufTy).Contents (Elt F)) :
    Cert.ReferenceIdeal.RefRead.val_main_v101 (F := F) x1 = lastSoftmax (Cert.ReferenceIdeal.RefRead.val_main_v90 (F := F) x1) := rfl

/-- The table of softmax weights over the eight lags, as the region finds it, is the reference's. -/
theorem V_v60_eq (c : Dev nD) :
    (V m c main_v60 : (⟨S8x4096x8, .f32⟩ : BufTy).Contents (Elt F)) = Cert.ReferenceIdeal.RefRead.val_main_v101 (F := F) (m ((c : Thread nD τ).loc main_arg1)) := by
  have e : (V m c main_v60 : (⟨S8x4096x8, .f32⟩ : BufTy).Contents (Elt F))
      = StableHlo.after (hostEnd (F := F)) (StableHlo.after (hostMid (F := F)) (W0 m c)) (Proc.devRef .tc main_v60) := by
    show StableHlo.after (List.flatten (hostAll (F := F))) (fun b => m (c, b)) (Proc.devRef .tc main_v60) = _
    rw [hostAll_three, StableHlo.after_append, StableHlo.after_append]
    rfl
  rw [e, tail_k, mid_k, W0_v5, W0_v10, W0_v15, W0_v20, W0_v25, W0_v30, W0_v35, W0_v39, W0_arg1, tail_r, stack_r]

end Cert.KernelIdeal.Fr
end
-- ==== Proof.WReal.lean ====
/-
  The table of softmax weights over the eight lags holds reals wherever the time gaps do.

  For time gaps `dt` that are reals, each stacked difference
  `d[b,l,k] = (if l < k then 1e20 else dt[b,(l-k) mod 4096]) - dt[b,l]` is a real; the maximum over the eight lags,
  taken from -∞, of reals is a real; the differences less that maximum are reals, so their exponentials are positive
  reals; zero plus the sum of eight positive reals is a positive real; and the quotient of a real by a positive real
  is a real.
-/
import proofs.«121142_j83648783057347_2_alg».proof.Proof.RefRead

noncomputable section

namespace Cert.ReferenceIdeal.RefValue

open Cert.ReferenceIdeal Cert.ReferenceIdeal.Gen Cert.ReferenceIdeal.RefRead
open Idealize.ShloMosaic Idealize.ShloMosaic.TcCoe

/-- An extended real that is a real. -/
def IsR (x : EReal) : Prop := ∃ r : ℝ, x = (r : EReal)

/-- An extended real that is a positive real. -/
def IsPos (x : EReal) : Prop := ∃ r : ℝ, 0 < r ∧ x = (r : EReal)

theorem IsPos.isR {x : EReal} (h : IsPos x) : IsR x := let ⟨r, _, e⟩ := h; ⟨r, e⟩

theorem IsR.sub {x y : EReal} (hx : IsR x) (hy : IsR y) : IsR (x - y) := by
  obtain ⟨a, rfl⟩ := hx; obtain ⟨b, rfl⟩ := hy
  exact ⟨a - b, (EReal.coe_sub a b).symm⟩

/-- The literal 1e20 is a real. -/
theorem big_isR : IsR (Ideal.ofBits .f32 0x60AD78EC#32) := by
  unfold IsR
  simp only [Ideal.ofBits, Ideal.ieee]
  rw [if_neg (by decide), if_neg (by decide)]
  exact ⟨_, rfl⟩

/-- The literal -∞ is the bottom element. -/
theorem bot_lit : Ideal.ofBits .f32 0xFF800000#32 = (⊥ : EReal) := by
  simp [Ideal.ofBits, Ideal.ieee]

/-- The literal zero is the real zero. -/
theorem zero_lit : Ideal.ofBits .f32 0x00000000#32 = ((0 : ℝ) : EReal) := by
  simp [Ideal.ofBits, Ideal.ieee]

/-- A choice between two reals is a real. -/
theorem sel_isR {c : BitVec 1} {a b : EReal} (ha : IsR a) (hb : IsR b) : IsR (Scalar.select c a b) := by
  unfold Scalar.select; split_ifs <;> assumption

/-- Every entry of a concatenation is an entry of one of its pieces. -/
theorem concat_all {α : Type} (P : α → Prop) {t : Shape} (a : Fin t.rank) (xs : List ((s : Shape) × (s.Idx → α)))
    (h : Shape.Concatenates (xs.map (·.1)) t a) (hP : ∀ p ∈ xs, ∀ i, P (p.2 i)) (j : t.Idx) :
    P (concatenate t a xs h j) := by
  unfold concatenate
  exact hP _ (List.getElem_mem _) _

/-- The same for two pieces. -/
theorem concat2_all {α : Type} (P : α → Prop) {t s₁ s₂ : Shape} (a : Fin t.rank) (x₁ : s₁.Idx → α) (x₂ : s₂.Idx → α)
    (h : Shape.Concatenates (([⟨s₁, x₁⟩, ⟨s₂, x₂⟩] : List ((s : Shape) × (s.Idx → α))).map (·.1)) t a) (h₁ : ∀ i, P (x₁ i)) (h₂ : ∀ i, P (x₂ i)) (j : t.Idx) :
    P (concatenate t a [⟨s₁, x₁⟩, ⟨s₂, x₂⟩] h j) := by
  refine concat_all P a _ h (fun p hp i => ?_) j
  rcases List.mem_cons.1 hp with rfl | hp
  · exact h₁ i
  rcases List.mem_cons.1 hp with rfl | hp
  · exact h₂ i
  · exact absurd hp (List.not_mem_nil)

/-- The maximum, taken from -∞, of a nonempty family of reals is a real. -/
theorem fold_max_isR {ι : Type} (f : ι → EReal) (hf : ∀ k, IsR (f k)) (s : Finset ι) (hs : s.Nonempty) :
    IsR (s.fold max (⊥ : EReal) f) := by
  classical
  induction s using Finset.induction_on with
  | empty => exact absurd hs Finset.not_nonempty_empty
  | insert a s ha ih =>
    rw [Finset.fold_insert ha]
    rcases s.eq_empty_or_nonempty with rfl | hs'
    · rw [Finset.fold_empty, max_bot_right]; exact hf a
    · obtain ⟨x, hx⟩ := hf a; obtain ⟨y, hy⟩ := ih hs'
      rw [hx, hy]; exact ⟨max x y, (EReal.coe_strictMono.monotone.map_max).symm⟩

/-- The coercion of a finite sum of reals is the sum of the coercions. -/
theorem coe_sum {ι : Type} (g : ι → ℝ) (s : Finset ι) : ((∑ k ∈ s, g k : ℝ) : EReal) = ∑ k ∈ s, (g k : EReal) := by
  classical
  induction s using Finset.induction_on with
  | empty => simp
  | insert a s ha ih => rw [Finset.sum_insert ha, Finset.sum_insert ha, EReal.coe_add, ih]

/-- A sum of positive reals over a nonempty index type is a positive real. -/
theorem sum_isPos {n : Nat} [NeZero n] (f : Fin n → EReal) (hf : ∀ k, IsPos (f k)) : IsPos (∑ k, f k) := by
  choose g hg0 hg using hf
  refine ⟨∑ k, g k, Finset.sum_pos (fun k _ => hg0 k) Finset.univ_nonempty, ?_⟩
  rw [coe_sum]; exact Finset.sum_congr rfl fun k _ => hg k

variable (dt : (⟨S8x4096, .f32⟩ : BufTy).Contents (Elt Ideal)) (hdt : ∀ i, IsR (dt i))
include hdt

/-- The time gaps shifted by zero along the sequence: each entry is an entry of the time gaps. -/
theorem shift0_isR (i : S8x4096.Idx) : IsR (val_main_v44 (F := Ideal) dt i) := by
  unfold val_main_v44
  exact concat2_all IsR _ _ _ _ (fun j => by rw [val_main_call16_v0_apply]; exact hdt _)
    (fun j => by rw [val_main_call16_v1_apply]; exact hdt _) i

/-- The difference at lag zero: the shifted time gap, or 1e20 where the shift would wrap, less the time gap. -/
theorem diff0_isR (i : S8x4096.Idx) : IsR (val_main_v46 (F := Ideal) dt i) := by
  rw [val_main_v46_apply, val_main_v45_apply, val_main_call17_v2_apply, val_main_call17_v0_apply, val_main_cst_15_apply]
  exact (sel_isR big_isR (shift0_isR dt hdt i)).sub (hdt i)

/-- The time gaps shifted by one along the sequence: each entry is an entry of the time gaps. -/
theorem shift1_isR (i : S8x4096.Idx) : IsR (val_main_v49 (F := Ideal) dt i) := by
  unfold val_main_v49
  exact concat2_all IsR _ _ _ _ (fun j => by rw [val_main_call18_v0_apply]; exact hdt _)
    (fun j => by rw [val_main_call18_v1_apply]; exact hdt _) i

/-- The difference at lag one: the shifted time gap, or 1e20 where the shift would wrap, less the time gap. -/
theorem diff1_isR (i : S8x4096.Idx) : IsR (val_main_v51 (F := Ideal) dt i) := by
  rw [val_main_v51_apply, val_main_v50_apply, val_main_call19_v2_apply, val_main_call19_v0_apply, val_main_cst_17_apply]
  exact (sel_isR big_isR (shift1_isR dt hdt i)).sub (hdt i)

/-- The time gaps shifted by two along the sequence: each entry is an entry of the time gaps. -/
theorem shift2_isR (i : S8x4096.Idx) : IsR (val_main_v54 (F := Ideal) dt i) := by
  unfold val_main_v54
  exact concat2_all IsR _ _ _ _ (fun j => by rw [val_main_call20_v0_apply]; exact hdt _)
    (fun j => by rw [val_main_call20_v1_apply]; exact hdt _) i

/-- The difference at lag two: the shifted time gap, or 1e20 where the shift would wrap, less the time gap. -/
theorem diff2_isR (i : S8x4096.Idx) : IsR (val_main_v56 (F := Ideal) dt i) := by
  rw [val_main_v56_apply, val_main_v55_apply, val_main_call21_v2_apply, val_main_call21_v0_apply, val_main_cst_19_apply]
  exact (sel_isR big_isR (shift2_isR dt hdt i)).sub (hdt i)

/-- The time gaps shifted by three along the sequence: each entry is an entry of the time gaps. -/
theorem shift3_isR (i : S8x4096.Idx) : IsR (val_main_v59 (F := Ideal) dt i) := by
  unfold val_main_v59
  exact concat2_all IsR _ _ _ _ (fun j => by rw [val_main_call22_v0_apply]; exact hdt _)
    (fun j => by rw [val_main_call22_v1_apply]; exact hdt _) i

/-- The difference at lag three: the shifted time gap, or 1e20 where the shift would wrap, less the time gap. -/
theorem diff3_isR (i : S8x4096.Idx) : IsR (val_main_v61 (F := Ideal) dt i) := by
  rw [val_main_v61_apply, val_main_v60_apply, val_main_call23_v2_apply, val_main_call23_v0_apply, val_main_cst_21_apply]
  exact (sel_isR big_isR (shift3_isR dt hdt i)).sub (hdt i)

/-- The time gaps shifted by four along the sequence: each entry is an entry of the time gaps. -/
theorem shift4_isR (i : S8x4096.Idx) : IsR (val_main_v64 (F := Ideal) dt i) := by
  unfold val_main_v64
  exact concat2_all IsR _ _ _ _ (fun j => by rw [val_main_call24_v0_apply]; exact hdt _)
    (fun j => by rw [val_main_call24_v1_apply]; exact hdt _) i

/-- The difference at lag four: the shifted time gap, or 1e20 where the shift would wrap, less the time gap. -/
theorem diff4_isR (i : S8x4096.Idx) : IsR (val_main_v66 (F := Ideal) dt i) := by
  rw [val_main_v66_apply, val_main_v65_apply, val_main_call25_v2_apply, val_main_call25_v0_apply, val_main_cst_23_apply]
  exact (sel_isR big_isR (shift4_isR dt hdt i)).sub (hdt i)

/-- The time gaps shifted by five along the sequence: each entry is an entry of the time gaps. -/
theorem shift5_isR (i : S8x4096.Idx) : IsR (val_main_v69 (F := Ideal) dt i) := by
  unfold val_main_v69
  exact concat2_all IsR _ _ _ _ (fun j => by rw [val_main_call26_v0_apply]; exact hdt _)
    (fun j => by rw [val_main_call26_v1_apply]; exact hdt _) i

/-- The difference at lag five: the shifted time gap, or 1e20 where the shift would wrap, less the time gap. -/
theorem diff5_isR (i : S8x4096.Idx) : IsR (val_main_v71 (F := Ideal) dt i) := by
  rw [val_main_v71_apply, val_main_v70_apply, val_main_call27_v2_apply, val_main_call27_v0_apply, val_main_cst_25_apply]
  exact (sel_isR big_isR (shift5_isR dt hdt i)).sub (hdt i)

/-- The time gaps shifted by six along the sequence: each entry is an entry of the time gaps. -/
theorem shift6_isR (i : S8x4096.Idx) : IsR (val_main_v74 (F := Ideal) dt i) := by
  unfold val_main_v74
  exact concat2_all IsR _ _ _ _ (fun j => by rw [val_main_call28_v0_apply]; exact hdt _)
    (fun j => by rw [val_main_call28_v1_apply]; exact hdt _) i

/-- The difference at lag six: the shifted time gap, or 1e20 where the shift would wrap, less the time gap. -/
theorem diff6_isR (i : S8x4096.Idx) : IsR (val_main_v76 (F := Ideal) dt i) := by
  rw [val_main_v76_apply, val_main_v75_apply, val_main_call29_v2_apply, val_main_call29_v0_apply, val_main_cst_27_apply]
  exact (sel_isR big_isR (shift6_isR dt hdt i)).sub (hdt i)

/-- The time gaps shifted by seven along the sequence: each entry is an entry of the time gaps. -/
theorem shift7_isR (i : S8x4096.Idx) : IsR (val_main_v79 (F := Ideal) dt i) := by
  unfold val_main_v79
  exact concat2_all IsR _ _ _ _ (fun j => by rw [val_main_call30_v0_apply]; exact hdt _)
    (fun j => by rw [val_main_call30_v1_apply]; exact hdt _) i

/-- The difference at lag seven: the shifted time gap, or 1e20 where the shift would wrap, less the time gap. -/
theorem diff7_isR (i : S8x4096.Idx) : IsR (val_main_v81 (F := Ideal) dt i) := by
  rw [val_main_v81_apply, val_main_v80_apply, val_main_call31_v2_apply, val_main_call31_v0_apply, val_main_cst_29_apply]
  exact (sel_isR big_isR (shift7_isR dt hdt i)).sub (hdt i)

/-- The eight differences stacked on a new last axis. -/
theorem stack_isR (i : S8x4096x8.Idx) : IsR (val_main_v90 (F := Ideal) dt i) := by
  unfold val_main_v90
  refine concat_all IsR _ _ _ (fun p hp j => ?_) i
  simp only [List.mem_cons, List.not_mem_nil, or_false] at hp
  rcases hp with rfl | rfl | rfl | rfl | rfl | rfl | rfl | rfl
  · show IsR (val_main_v82 (F := Ideal) dt j); rw [val_main_v82_apply]; exact diff0_isR dt hdt _
  · show IsR (val_main_v83 (F := Ideal) dt j); rw [val_main_v83_apply]; exact diff1_isR dt hdt _
  · show IsR (val_main_v84 (F := Ideal) dt j); rw [val_main_v84_apply]; exact diff2_isR dt hdt _
  · show IsR (val_main_v85 (F := Ideal) dt j); rw [val_main_v85_apply]; exact diff3_isR dt hdt _
  · show IsR (val_main_v86 (F := Ideal) dt j); rw [val_main_v86_apply]; exact diff4_isR dt hdt _
  · show IsR (val_main_v87 (F := Ideal) dt j); rw [val_main_v87_apply]; exact diff5_isR dt hdt _
  · show IsR (val_main_v88 (F := Ideal) dt j); rw [val_main_v88_apply]; exact diff6_isR dt hdt _
  · show IsR (val_main_v89 (F := Ideal) dt j); rw [val_main_v89_apply]; exact diff7_isR dt hdt _

/-- Their maximum over the lags, from -∞. -/
theorem max_isR (i : S8x4096.Idx) : IsR (val_main_v91 (F := Ideal) dt i) := by
  unfold val_main_v91
  rw [Host.reduce_eq_fold_single FloatOps.maximumf _ _ reducesTo_S8x4096x8_S8x4096_d2 (by decide) h_S_ i]
  have hb : (val_main_cst_30 (F := Ideal)) (Shape.Idx.first h_S_) = (⊥ : EReal) := bot_lit
  rw [hb]
  haveI : Nonempty (Fin (S8x4096x8.size 2)) := ⟨⟨0, by decide⟩⟩
  exact fold_max_isR _ (fun k => stack_isR dt hdt _) Finset.univ Finset.univ_nonempty

/-- The maximum with -∞ leaves it. -/
theorem max2_isR (i : S8x4096.Idx) : IsR (val_main_v93 (F := Ideal) dt i) := by
  rw [val_main_v93_apply, val_main_v92_apply, val_main_cst_31_apply]
  show IsR (max (Ideal.ofBits .f32 0xFF800000#32) (val_main_v91 (F := Ideal) dt i))
  rw [bot_lit, max_bot_left]
  exact max_isR dt hdt i

/-- The differences less the maximum. -/
theorem centred_isR (i : S8x4096x8.Idx) : IsR (val_main_v96 (F := Ideal) dt i) := by
  rw [val_main_v96_apply, val_main_v95_apply, val_main_v94_apply]
  exact (stack_isR dt hdt i).sub (max2_isR dt hdt _)

/-- Their exponentials are positive reals. -/
theorem exp_isPos (i : S8x4096x8.Idx) : IsPos (val_main_v97 (F := Ideal) dt i) := by
  rw [val_main_v97_apply]
  obtain ⟨r, hr⟩ := centred_isR dt hdt i
  show IsPos (Ideal.exp (val_main_v96 (F := Ideal) dt i))
  rw [hr]
  exact ⟨Real.exp r, Real.exp_pos r, rfl⟩

/-- Zero plus their sum over the lags is a positive real. -/
theorem sum_isPos' (i : S8x4096.Idx) : IsPos (val_main_v98 (F := Ideal) dt i) := by
  rw [val_main_v98_apply, val_main_cst_32_apply]
  obtain ⟨s, hs, e⟩ := sum_isPos (fun k : Fin 8 => val_main_v97 (F := Ideal) dt (idx_main_v98 i k)) (fun k => exp_isPos dt hdt _)
  show IsPos (Ideal.ofBits .f32 0x00000000#32 + ∑ k : Fin 8, val_main_v97 (F := Ideal) dt (idx_main_v98 i k))
  rw [e, zero_lit, ← EReal.coe_add]
  exact ⟨0 + s, by linarith, rfl⟩

/-- Each weight, an exponential over the sum, is a real. -/
theorem weight_isR (i : S8x4096x8.Idx) : IsR (val_main_v101 (F := Ideal) dt i) := by
  rw [val_main_v101_apply, val_main_v100_apply, val_main_v99_apply]
  obtain ⟨a, _, ha⟩ := exp_isPos dt hdt i
  obtain ⟨s, hs, e⟩ := sum_isPos' dt hdt (idx_main_v99 (idx_main_v100 i))
  show IsR (Ideal.div (val_main_v97 (F := Ideal) dt i) (val_main_v98 (F := Ideal) dt (idx_main_v99 (idx_main_v100 i))))
  rw [ha, e, Ideal.div_coe (ne_of_gt hs), ← EReal.coe_mul]
  exact ⟨_, rfl⟩

omit hdt in
/-- The table of softmax weights over the eight lags holds reals wherever the time gaps do. -/
theorem W_real (dt : (⟨S8x4096, .f32⟩ : BufTy).Contents (Elt Ideal)) (hdt : ∀ i, ∃ r : ℝ, dt i = (r : EReal)) (i : S8x4096x8.Idx) :
    ∃ r : ℝ, Cert.ReferenceIdeal.RefRead.val_main_v101 (F := Ideal) dt i = (r : EReal) :=
  weight_isR dt hdt i

end Cert.ReferenceIdeal.RefValue

end
-- ==== Proof.RefValue.lean ====
/-
  The reference program's result read at an index, in the specification's form.

  For a batch entry b, a channel c and a position l the reference forms, for each of the eight lags k, the sample of
  x's row k places back, zero where that would reach before position 0 (a select on "l < k" of zero against the row
  shifted cyclically: a two-piece join whose second piece, from position k on, is the row at l - k), stacks the eight
  along a new last axis, and sums the stack against the softmax table (row T) and against the fixed kernel's weights
  (row P): the specification's winR. The two rows are stacked, their 2×2 matrix of inner products is formed, each row of
  that matrix goes through a softmax over its two entries (maximum from minus infinity, entry less maximum, exponential,
  sum from zero, quotient), the softmax matrix is applied to the two rows, the two results are summed and the sum is
  divided by the literal two: the specification's mixR of the two rows.

  The lemmas go bottom-up over explicit coordinates: the position-against-lag mask as a comparison of numbers
  (mask_eq), the join read past its first piece (join_right), a lag's masked shift (sel_shift, rolled0 … rolled7), the
  stack of the eight (rolled), the two averages (avgT, avgP), their stack (stack), the inner products (gramG), the row
  maximum (max114, max116), the exponentials, their sum and the quotients (exp120, sum121, soft124), the softmax matrix
  applied to the rows (mix125), and the result (ref_apply).
-/
import proofs.«121142_j83648783057347_2_alg».proof.Proof.RefRead
import proofs.«121142_j83648783057347_2_alg».proof.Proof.Spec
import Idealize.ShloMosaic.Lib.Pipeline.Value
import Idealize.ShloMosaic.Lib.ValueIdx
import Idealize.ShloMosaic.Lib.StableHlo.Predicate
import Idealize.ShloMosaic.PureOps.Ideal.Laws
import Idealize.ShloMosaic.PureOps.Reduce

noncomputable section

namespace Cert.ReferenceIdeal.RefValue

open Cert.ReferenceIdeal Cert.ReferenceIdeal.Gen Idealize.ShloMosaic Idealize.ShloMosaic.ValueIdx Idealize.ShloMosaic.StableHlo
open Cert.ReferenceIdeal.RefRead Cert.Causal

/-- The signed compare of a position's word with a small lag's word is the compare of the numbers. -/
theorem mask_eq (l : Fin 4096) (n : Nat) (hn : n ≤ 4096) :
    IntOp.cmpi .slt (BitVec.ofNat 32 l.val) (BitVec.ofNat 32 n) = if l.val < n then 1#1 else 0#1 := by
  have hl := l.isLt
  have e := Predicate.slt_iff_toNat (a := BitVec.ofNat 32 l.val) (b := BitVec.ofNat 32 n)
    (by rw [BitVec.toNat_ofNat]; omega) (by rw [BitVec.toNat_ofNat]; omega)
  rw [BitVec.toNat_ofNat, BitVec.toNat_ofNat, Nat.mod_eq_of_lt (by omega), Nat.mod_eq_of_lt (by omega)] at e
  by_cases h : l.val < n
  · rw [if_pos h]; exact e.2 h
  · rw [if_neg h]; exact eq_zero_of_ne_one fun h1 => h (e.1 h1)

/-- Past the first piece, a two-piece join along the last axis reads its second piece, the first extent less. -/
theorem join_right {α : Type} {n₁ n₂ : Nat} (x₁ : (⟨3, ![8, 256, n₁]⟩ : Shape).Idx → α) (x₂ : (⟨3, ![8, 256, n₂]⟩ : Shape).Idx → α)
    (h : Shape.Concatenates [(⟨3, ![8, 256, n₁]⟩ : Shape), (⟨3, ![8, 256, n₂]⟩ : Shape)] (⟨3, ![8, 256, 4096]⟩ : Shape) 2)
    (b : Fin 8) (c : Fin 256) (l : Fin 4096) (m : Fin n₂) (hm : m.val + n₁ = l.val) :
    concatenate (⟨3, ![8, 256, 4096]⟩ : Shape) 2 [⟨(⟨3, ![8, 256, n₁]⟩ : Shape), x₁⟩, ⟨(⟨3, ![8, 256, n₂]⟩ : Shape), x₂⟩] h (ix3 b c l)
      = x₂ (ix3 b c m) :=
  concatenate_pair_apply_right 2 x₁ x₂ h (ix3 b c l) rfl rfl (ix3 b c m)
    (fun a => match a with
      | ⟨0, _⟩ => fun _ => rfl
      | ⟨1, _⟩ => fun _ => rfl
      | ⟨2, _⟩ => fun h2 => absurd rfl h2)
    hm

/-- A lag's masked shift at a position: the select on "position below the lag" of zero against the two-piece join
    reads, from the lag on, the second piece at the position less the lag, and before it the zero. -/
theorem sel_shift {n₁ n₂ : Nat} (hn : n₁ + n₂ = 4096) (x₁ : (⟨3, ![8, 256, n₁]⟩ : Shape).Idx → EReal)
    (x₂ : (⟨3, ![8, 256, n₂]⟩ : Shape).Idx → EReal)
    (h : Shape.Concatenates [(⟨3, ![8, 256, n₁]⟩ : Shape), (⟨3, ![8, 256, n₂]⟩ : Shape)] (⟨3, ![8, 256, 4096]⟩ : Shape) 2)
    (b : Fin 8) (c : Fin 256) (l : Fin 4096) (z : EReal) :
    Scalar.select (IntOp.cmpi .slt (BitVec.ofNat 32 l.val) (BitVec.ofNat 32 n₁)) z
        (concatenate (⟨3, ![8, 256, 4096]⟩ : Shape) 2 [⟨(⟨3, ![8, 256, n₁]⟩ : Shape), x₁⟩, ⟨(⟨3, ![8, 256, n₂]⟩ : Shape), x₂⟩] h (ix3 b c l))
      = if hl : n₁ ≤ l.val then x₂ (ix3 b c ⟨l.val - n₁, by have := l.isLt; omega⟩) else z := by
  have hl4 := l.isLt
  rw [mask_eq l n₁ (by omega)]
  by_cases hl : n₁ ≤ l.val
  · rw [dif_pos hl, if_neg (by omega), select_zero]
    exact join_right x₁ x₂ h b c l ⟨l.val - n₁, by omega⟩ (by show l.val - n₁ + n₁ = l.val; omega)
  · rw [dif_neg hl, if_pos (by omega), select_one]

/-- Lag 0: the mask is never set and the join's first piece is the whole row. -/
theorem rolled0 (x : (⟨S8x256x4096, .f32⟩ : BufTy).Contents (Elt Ideal)) (b : Fin 8) (c : Fin 256) (l : Fin 4096)
    (k : Fin 8) (hk : k.val = 0) :
    val_main_v4 (F := Ideal) x (ix3 b c l) = if k.val ≤ l.val then x (ix3 b c (back l k)) else 0 := by
  rw [val_main_v4_apply, val_main_call1_v1_apply, val_main_v2_apply, val_main_v0_apply, val_main_v1_apply, val_main_c_apply,
    val_main_call1_v2_apply, val_main_call1_v0_apply, val_main_cst_apply, Ideal.ofBits_def, Ideal.ofBits_zero_f32]
  have hl4 := l.isLt
  refine (congrArg (fun m => Scalar.select m (0 : EReal) (val_main_v3 (F := Ideal) x (ix3 b c l))) (mask_eq l 0 (by omega))).trans ?_
  rw [if_neg (by omega), select_zero, if_pos (by omega)]
  unfold val_main_v3
  refine (concatenate_pair_apply_left 2 _ _ _ (ix3 b c l) rfl (ix3 b c l) (fun a => match a with
    | ⟨0, _⟩ => rfl
    | ⟨1, _⟩ => rfl
    | ⟨2, _⟩ => rfl)).trans ?_
  rw [val_main_call0_v0_apply]
  exact congrArg x (funext fun a => Fin.ext (by
    match a with
    | ⟨0, _⟩ => rfl
    | ⟨1, _⟩ => rfl
    | ⟨2, _⟩ => show l.val = (l.val + 4096 - k.val) % 4096; omega))

/-- Lag 1. -/
theorem rolled1 (x : (⟨S8x256x4096, .f32⟩ : BufTy).Contents (Elt Ideal)) (b : Fin 8) (c : Fin 256) (l : Fin 4096)
    (k : Fin 8) (hk : k.val = 1) :
    val_main_v8 (F := Ideal) x (ix3 b c l) = if k.val ≤ l.val then x (ix3 b c (back l k)) else 0 := by
  rw [val_main_v8_apply, val_main_call3_v1_apply, val_main_v6_apply, val_main_v0_apply, val_main_v5_apply, val_main_c_0_apply,
    val_main_call3_v2_apply, val_main_call3_v0_apply, val_main_cst_1_apply, Ideal.ofBits_def, Ideal.ofBits_zero_f32]
  unfold val_main_v7
  refine (sel_shift (n₁ := 1) (n₂ := 4095) rfl _ _ _ b c l 0).trans ?_
  have hl4 := l.isLt
  by_cases hl : 1 ≤ l.val
  · rw [dif_pos hl, if_pos (by omega), val_main_call2_v1_apply]
    exact congrArg x (funext fun a => Fin.ext (by
      match a with
      | ⟨0, _⟩ => rfl
      | ⟨1, _⟩ => rfl
      | ⟨2, _⟩ => show l.val - 1 = (l.val + 4096 - k.val) % 4096; omega))
  · rw [dif_neg hl, if_neg (by omega)]

/-- Lag 2. -/
theorem rolled2 (x : (⟨S8x256x4096, .f32⟩ : BufTy).Contents (Elt Ideal)) (b : Fin 8) (c : Fin 256) (l : Fin 4096)
    (k : Fin 8) (hk : k.val = 2) :
    val_main_v12 (F := Ideal) x (ix3 b c l) = if k.val ≤ l.val then x (ix3 b c (back l k)) else 0 := by
  rw [val_main_v12_apply, val_main_call5_v1_apply, val_main_v10_apply, val_main_v0_apply, val_main_v9_apply, val_main_c_2_apply,
    val_main_call5_v2_apply, val_main_call5_v0_apply, val_main_cst_3_apply, Ideal.ofBits_def, Ideal.ofBits_zero_f32]
  unfold val_main_v11
  refine (sel_shift (n₁ := 2) (n₂ := 4094) rfl _ _ _ b c l 0).trans ?_
  have hl4 := l.isLt
  by_cases hl : 2 ≤ l.val
  · rw [dif_pos hl, if_pos (by omega), val_main_call4_v1_apply]
    exact congrArg x (funext fun a => Fin.ext (by
      match a with
      | ⟨0, _⟩ => rfl
      | ⟨1, _⟩ => rfl
      | ⟨2, _⟩ => show l.val - 2 = (l.val + 4096 - k.val) % 4096; omega))
  · rw [dif_neg hl, if_neg (by omega)]

/-- Lag 3. -/
theorem rolled3 (x : (⟨S8x256x4096, .f32⟩ : BufTy).Contents (Elt Ideal)) (b : Fin 8) (c : Fin 256) (l : Fin 4096)
    (k : Fin 8) (hk : k.val = 3) :
    val_main_v16 (F := Ideal) x (ix3 b c l) = if k.val ≤ l.val then x (ix3 b c (back l k)) else 0 := by
  rw [val_main_v16_apply, val_main_call7_v1_apply, val_main_v14_apply, val_main_v0_apply, val_main_v13_apply, val_main_c_4_apply,
    val_main_call7_v2_apply, val_main_call7_v0_apply, val_main_cst_5_apply, Ideal.ofBits_def, Ideal.ofBits_zero_f32]
  unfold val_main_v15
  refine (sel_shift (n₁ := 3) (n₂ := 4093) rfl _ _ _ b c l 0).trans ?_
  have hl4 := l.isLt
  by_cases hl : 3 ≤ l.val
  · rw [dif_pos hl, if_pos (by omega), val_main_call6_v1_apply]
    exact congrArg x (funext fun a => Fin.ext (by
      match a with
      | ⟨0, _⟩ => rfl
      | ⟨1, _⟩ => rfl
      | ⟨2, _⟩ => show l.val - 3 = (l.val + 4096 - k.val) % 4096; omega))
  · rw [dif_neg hl, if_neg (by omega)]

/-- Lag 4. -/
theorem rolled4 (x : (⟨S8x256x4096, .f32⟩ : BufTy).Contents (Elt Ideal)) (b : Fin 8) (c : Fin 256) (l : Fin 4096)
    (k : Fin 8) (hk : k.val = 4) :
    val_main_v20 (F := Ideal) x (ix3 b c l) = if k.val ≤ l.val then x (ix3 b c (back l k)) else 0 := by
  rw [val_main_v20_apply, val_main_call9_v1_apply, val_main_v18_apply, val_main_v0_apply, val_main_v17_apply, val_main_c_6_apply,
    val_main_call9_v2_apply, val_main_call9_v0_apply, val_main_cst_7_apply, Ideal.ofBits_def, Ideal.ofBits_zero_f32]
  unfold val_main_v19
  refine (sel_shift (n₁ := 4) (n₂ := 4092) rfl _ _ _ b c l 0).trans ?_
  have hl4 := l.isLt
  by_cases hl : 4 ≤ l.val
  · rw [dif_pos hl, if_pos (by omega), val_main_call8_v1_apply]
    exact congrArg x (funext fun a => Fin.ext (by
      match a with
      | ⟨0, _⟩ => rfl
      | ⟨1, _⟩ => rfl
      | ⟨2, _⟩ => show l.val - 4 = (l.val + 4096 - k.val) % 4096; omega))
  · rw [dif_neg hl, if_neg (by omega)]

/-- Lag 5. -/
theorem rolled5 (x : (⟨S8x256x4096, .f32⟩ : BufTy).Contents (Elt Ideal)) (b : Fin 8) (c : Fin 256) (l : Fin 4096)
    (k : Fin 8) (hk : k.val = 5) :
    val_main_v24 (F := Ideal) x (ix3 b c l) = if k.val ≤ l.val then x (ix3 b c (back l k)) else 0 := by
  rw [val_main_v24_apply, val_main_call11_v1_apply, val_main_v22_apply, val_main_v0_apply, val_main_v21_apply, val_main_c_8_apply,
    val_main_call11_v2_apply, val_main_call11_v0_apply, val_main_cst_9_apply, Ideal.ofBits_def, Ideal.ofBits_zero_f32]
  unfold val_main_v23
  refine (sel_shift (n₁ := 5) (n₂ := 4091) rfl _ _ _ b c l 0).trans ?_
  have hl4 := l.isLt
  by_cases hl : 5 ≤ l.val
  · rw [dif_pos hl, if_pos (by omega), val_main_call10_v1_apply]
    exact congrArg x (funext fun a => Fin.ext (by
      match a with
      | ⟨0, _⟩ => rfl
      | ⟨1, _⟩ => rfl
      | ⟨2, _⟩ => show l.val - 5 = (l.val + 4096 - k.val) % 4096; omega))
  · rw [dif_neg hl, if_neg (by omega)]

/-- Lag 6. -/
theorem rolled6 (x : (⟨S8x256x4096, .f32⟩ : BufTy).Contents (Elt Ideal)) (b : Fin 8) (c : Fin 256) (l : Fin 4096)
    (k : Fin 8) (hk : k.val = 6) :
    val_main_v28 (F := Ideal) x (ix3 b c l) = if k.val ≤ l.val then x (ix3 b c (back l k)) else 0 := by
  rw [val_main_v28_apply, val_main_call13_v1_apply, val_main_v26_apply, val_main_v0_apply, val_main_v25_apply, val_main_c_10_apply,
    val_main_call13_v2_apply, val_main_call13_v0_apply, val_main_cst_11_apply, Ideal.ofBits_def, Ideal.ofBits_zero_f32]
  unfold val_main_v27
  refine (sel_shift (n₁ := 6) (n₂ := 4090) rfl _ _ _ b c l 0).trans ?_
  have hl4 := l.isLt
  by_cases hl : 6 ≤ l.val
  · rw [dif_pos hl, if_pos (by omega), val_main_call12_v1_apply]
    exact congrArg x (funext fun a => Fin.ext (by
      match a with
      | ⟨0, _⟩ => rfl
      | ⟨1, _⟩ => rfl
      | ⟨2, _⟩ => show l.val - 6 = (l.val + 4096 - k.val) % 4096; omega))
  · rw [dif_neg hl, if_neg (by omega)]

/-- Lag 7. -/
theorem rolled7 (x : (⟨S8x256x4096, .f32⟩ : BufTy).Contents (Elt Ideal)) (b : Fin 8) (c : Fin 256) (l : Fin 4096)
    (k : Fin 8) (hk : k.val = 7) :
    val_main_v32 (F := Ideal) x (ix3 b c l) = if k.val ≤ l.val then x (ix3 b c (back l k)) else 0 := by
  rw [val_main_v32_apply, val_main_call15_v1_apply, val_main_v30_apply, val_main_v0_apply, val_main_v29_apply, val_main_c_12_apply,
    val_main_call15_v2_apply, val_main_call15_v0_apply, val_main_cst_13_apply, Ideal.ofBits_def, Ideal.ofBits_zero_f32]
  unfold val_main_v31
  refine (sel_shift (n₁ := 7) (n₂ := 4089) rfl _ _ _ b c l 0).trans ?_
  have hl4 := l.isLt
  by_cases hl : 7 ≤ l.val
  · rw [dif_pos hl, if_pos (by omega), val_main_call14_v1_apply]
    exact congrArg x (funext fun a => Fin.ext (by
      match a with
      | ⟨0, _⟩ => rfl
      | ⟨1, _⟩ => rfl
      | ⟨2, _⟩ => show l.val - 7 = (l.val + 4096 - k.val) % 4096; omega))
  · rw [dif_neg hl, if_neg (by omega)]

/-- The stack of the eight masked shifts at (b, c, l, k): the sample k places back, zero where that would reach before
    position 0. -/
theorem rolled (x : (⟨S8x256x4096, .f32⟩ : BufTy).Contents (Elt Ideal)) (b : Fin 8) (c : Fin 256) (l : Fin 4096) (k : Fin 8) :
    val_main_v41 (F := Ideal) x (ix4 b c l k) = if k.val ≤ l.val then x (ix3 b c (back l k)) else 0 := by
  unfold val_main_v41
  match k with
  | ⟨0, hk⟩ =>
    refine (concatenate_apply_piece 3 _ _ (ix4 b c l ⟨0, hk⟩) 0 (by show (0 : Nat) < 8; decide) S8x256x4096x1 (val_main_v33 (F := Ideal) x) rfl rfl 0 rfl
      (ix4 b c l (0 : Fin 1)) (fun a => match a with
        | ⟨0, _⟩ => fun _ => rfl
        | ⟨1, _⟩ => fun _ => rfl
        | ⟨2, _⟩ => fun _ => rfl
        | ⟨3, _⟩ => fun h3 => absurd rfl h3) rfl).trans ?_
    rw [val_main_v33_apply]
    exact (congrArg (val_main_v4 (F := Ideal) x) (funext fun a => Fin.ext (by
      match a with
      | ⟨0, _⟩ => rfl
      | ⟨1, _⟩ => rfl
      | ⟨2, _⟩ => rfl))).trans (rolled0 x b c l ⟨0, hk⟩ rfl)
  | ⟨1, hk⟩ =>
    refine (concatenate_apply_piece 3 _ _ (ix4 b c l ⟨1, hk⟩) 1 (by show (1 : Nat) < 8; decide) S8x256x4096x1 (val_main_v34 (F := Ideal) x) rfl rfl 1 rfl
      (ix4 b c l (0 : Fin 1)) (fun a => match a with
        | ⟨0, _⟩ => fun _ => rfl
        | ⟨1, _⟩ => fun _ => rfl
        | ⟨2, _⟩ => fun _ => rfl
        | ⟨3, _⟩ => fun h3 => absurd rfl h3) rfl).trans ?_
    rw [val_main_v34_apply]
    exact (congrArg (val_main_v8 (F := Ideal) x) (funext fun a => Fin.ext (by
      match a with
      | ⟨0, _⟩ => rfl
      | ⟨1, _⟩ => rfl
      | ⟨2, _⟩ => rfl))).trans (rolled1 x b c l ⟨1, hk⟩ rfl)
  | ⟨2, hk⟩ =>
    refine (concatenate_apply_piece 3 _ _ (ix4 b c l ⟨2, hk⟩) 2 (by show (2 : Nat) < 8; decide) S8x256x4096x1 (val_main_v35 (F := Ideal) x) rfl rfl 2 rfl
      (ix4 b c l (0 : Fin 1)) (fun a => match a with
        | ⟨0, _⟩ => fun _ => rfl
        | ⟨1, _⟩ => fun _ => rfl
        | ⟨2, _⟩ => fun _ => rfl
        | ⟨3, _⟩ => fun h3 => absurd rfl h3) rfl).trans ?_
    rw [val_main_v35_apply]
    exact (congrArg (val_main_v12 (F := Ideal) x) (funext fun a => Fin.ext (by
      match a with
      | ⟨0, _⟩ => rfl
      | ⟨1, _⟩ => rfl
      | ⟨2, _⟩ => rfl))).trans (rolled2 x b c l ⟨2, hk⟩ rfl)
  | ⟨3, hk⟩ =>
    refine (concatenate_apply_piece 3 _ _ (ix4 b c l ⟨3, hk⟩) 3 (by show (3 : Nat) < 8; decide) S8x256x4096x1 (val_main_v36 (F := Ideal) x) rfl rfl 3 rfl
      (ix4 b c l (0 : Fin 1)) (fun a => match a with
        | ⟨0, _⟩ => fun _ => rfl
        | ⟨1, _⟩ => fun _ => rfl
        | ⟨2, _⟩ => fun _ => rfl
        | ⟨3, _⟩ => fun h3 => absurd rfl h3) rfl).trans ?_
    rw [val_main_v36_apply]
    exact (congrArg (val_main_v16 (F := Ideal) x) (funext fun a => Fin.ext (by
      match a with
      | ⟨0, _⟩ => rfl
      | ⟨1, _⟩ => rfl
      | ⟨2, _⟩ => rfl))).trans (rolled3 x b c l ⟨3, hk⟩ rfl)
  | ⟨4, hk⟩ =>
    refine (concatenate_apply_piece 3 _ _ (ix4 b c l ⟨4, hk⟩) 4 (by show (4 : Nat) < 8; decide) S8x256x4096x1 (val_main_v37 (F := Ideal) x) rfl rfl 4 rfl
      (ix4 b c l (0 : Fin 1)) (fun a => match a with
        | ⟨0, _⟩ => fun _ => rfl
        | ⟨1, _⟩ => fun _ => rfl
        | ⟨2, _⟩ => fun _ => rfl
        | ⟨3, _⟩ => fun h3 => absurd rfl h3) rfl).trans ?_
    rw [val_main_v37_apply]
    exact (congrArg (val_main_v20 (F := Ideal) x) (funext fun a => Fin.ext (by
      match a with
      | ⟨0, _⟩ => rfl
      | ⟨1, _⟩ => rfl
      | ⟨2, _⟩ => rfl))).trans (rolled4 x b c l ⟨4, hk⟩ rfl)
  | ⟨5, hk⟩ =>
    refine (concatenate_apply_piece 3 _ _ (ix4 b c l ⟨5, hk⟩) 5 (by show (5 : Nat) < 8; decide) S8x256x4096x1 (val_main_v38 (F := Ideal) x) rfl rfl 5 rfl
      (ix4 b c l (0 : Fin 1)) (fun a => match a with
        | ⟨0, _⟩ => fun _ => rfl
        | ⟨1, _⟩ => fun _ => rfl
        | ⟨2, _⟩ => fun _ => rfl
        | ⟨3, _⟩ => fun h3 => absurd rfl h3) rfl).trans ?_
    rw [val_main_v38_apply]
    exact (congrArg (val_main_v24 (F := Ideal) x) (funext fun a => Fin.ext (by
      match a with
      | ⟨0, _⟩ => rfl
      | ⟨1, _⟩ => rfl
      | ⟨2, _⟩ => rfl))).trans (rolled5 x b c l ⟨5, hk⟩ rfl)
  | ⟨6, hk⟩ =>
    refine (concatenate_apply_piece 3 _ _ (ix4 b c l ⟨6, hk⟩) 6 (by show (6 : Nat) < 8; decide) S8x256x4096x1 (val_main_v39 (F := Ideal) x) rfl rfl 6 rfl
      (ix4 b c l (0 : Fin 1)) (fun a => match a with
        | ⟨0, _⟩ => fun _ => rfl
        | ⟨1, _⟩ => fun _ => rfl
        | ⟨2, _⟩ => fun _ => rfl
        | ⟨3, _⟩ => fun h3 => absurd rfl h3) rfl).trans ?_
    rw [val_main_v39_apply]
    exact (congrArg (val_main_v28 (F := Ideal) x) (funext fun a => Fin.ext (by
      match a with
      | ⟨0, _⟩ => rfl
      | ⟨1, _⟩ => rfl
      | ⟨2, _⟩ => rfl))).trans (rolled6 x b c l ⟨6, hk⟩ rfl)
  | ⟨7, hk⟩ =>
    refine (concatenate_apply_piece 3 _ _ (ix4 b c l ⟨7, hk⟩) 7 (by show (7 : Nat) < 8; decide) S8x256x4096x1 (val_main_v40 (F := Ideal) x) rfl rfl 7 rfl
      (ix4 b c l (0 : Fin 1)) (fun a => match a with
        | ⟨0, _⟩ => fun _ => rfl
        | ⟨1, _⟩ => fun _ => rfl
        | ⟨2, _⟩ => fun _ => rfl
        | ⟨3, _⟩ => fun h3 => absurd rfl h3) rfl).trans ?_
    rw [val_main_v40_apply]
    exact (congrArg (val_main_v32 (F := Ideal) x) (funext fun a => Fin.ext (by
      match a with
      | ⟨0, _⟩ => rfl
      | ⟨1, _⟩ => rfl
      | ⟨2, _⟩ => rfl))).trans (rolled7 x b c l ⟨7, hk⟩ rfl)

/-- The two averages' rows, in the specification's form. -/
def rowT (x : (⟨S8x256x4096, .f32⟩ : BufTy).Contents (Elt Ideal)) (dt : (⟨S8x4096, .f32⟩ : BufTy).Contents (Elt Ideal)) (b : Fin 8) (c : Fin 256) : Fin 4096 → EReal :=
  winR (fun i => x (ix3 b c i)) (fun i k => val_main_v101 (F := Ideal) dt (ix3 b i k))
def rowP (x : (⟨S8x256x4096, .f32⟩ : BufTy).Contents (Elt Ideal)) (kn : (⟨S1x1x8, .f32⟩ : BufTy).Contents (Elt Ideal)) (b : Fin 8) (c : Fin 256) : Fin 4096 → EReal :=
  winR (fun i => x (ix3 b c i)) (fun _ k => kn (ix3 0 0 k))

/-- The average over the lags with the softmax table's weights. -/
theorem avgT (x : (⟨S8x256x4096, .f32⟩ : BufTy).Contents (Elt Ideal)) (dt : (⟨S8x4096, .f32⟩ : BufTy).Contents (Elt Ideal)) (b : Fin 8) (c : Fin 256) (l : Fin 4096) :
    val_main_v105 (F := Ideal) x dt (ix3 b c l) = rowT x dt b c l := by
  rw [val_main_v105_apply, val_main_cst_33_apply, Ideal.ofBits_def, Ideal.ofBits_zero_f32, zero_add]
  show _ = ∑ k : Fin 8, (if k.val ≤ l.val then x (ix3 b c (back l k)) else 0) * val_main_v101 (F := Ideal) dt (ix3 b l k)
  refine Finset.sum_congr rfl fun k _ => ?_
  have e : idx_main_v105 (ix3 b c l) k = ix4 b c l k := funext fun a => Fin.ext (by match a with | ⟨0, _⟩ => rfl | ⟨1, _⟩ => rfl | ⟨2, _⟩ => rfl | ⟨3, _⟩ => rfl)
  rw [e, val_main_v104_apply, Ideal.mulf_def, rolled x b c l k, val_main_v103_apply, val_main_v102_apply]
  exact congrArg (_ * ·) (congrArg (val_main_v101 (F := Ideal) dt) (funext fun a => Fin.ext (by match a with | ⟨0, _⟩ => rfl | ⟨1, _⟩ => rfl | ⟨2, _⟩ => rfl)))

/-- The average over the lags with the fixed kernel's weights. -/
theorem avgP (x : (⟨S8x256x4096, .f32⟩ : BufTy).Contents (Elt Ideal)) (kn : (⟨S1x1x8, .f32⟩ : BufTy).Contents (Elt Ideal)) (b : Fin 8) (c : Fin 256) (l : Fin 4096) :
    val_main_v109 (F := Ideal) x kn (ix3 b c l) = rowP x kn b c l := by
  rw [val_main_v109_apply, val_main_cst_34_apply, Ideal.ofBits_def, Ideal.ofBits_zero_f32, zero_add]
  show _ = ∑ k : Fin 8, (if k.val ≤ l.val then x (ix3 b c (back l k)) else 0) * kn (ix3 0 0 k)
  refine Finset.sum_congr rfl fun k _ => ?_
  have e : idx_main_v109 (ix3 b c l) k = ix4 b c l k := funext fun a => Fin.ext (by match a with | ⟨0, _⟩ => rfl | ⟨1, _⟩ => rfl | ⟨2, _⟩ => rfl | ⟨3, _⟩ => rfl)
  rw [e, val_main_v108_apply, Ideal.mulf_def, rolled x b c l k, val_main_v107_apply, val_main_v106_apply]
  exact congrArg (_ * ·) (congrArg kn (funext fun a => Fin.ext (by match a with | ⟨0, _⟩ => rfl | ⟨1, _⟩ => rfl | ⟨2, _⟩ => rfl)))

section Rows
variable (x : (⟨S8x256x4096, .f32⟩ : BufTy).Contents (Elt Ideal)) (dt : (⟨S8x4096, .f32⟩ : BufTy).Contents (Elt Ideal)) (kn : (⟨S1x1x8, .f32⟩ : BufTy).Contents (Elt Ideal)) (b : Fin 8) (c : Fin 256)

/-- The stack of the two averages: row 0 the table's, row 1 the fixed kernel's. -/
def rows (i : Fin 2) : Fin 4096 → EReal := if i.val = 0 then rowT x dt b c else rowP x kn b c

theorem stack0 (i : Fin 2) (hi : i.val = 0) (l : Fin 4096) :
    val_main_v112 (F := Ideal) x dt kn (ix4 b c i l) = rowT x dt b c l := by
  unfold val_main_v112
  refine (concatenate_pair_apply_left (t := S8x256x2x4096) (s₁ := S8x256x1x4096) (s₂ := S8x256x1x4096) 2 _ _ _ (ix4 b c i l) rfl (ix4 b c (0 : Fin 1) l) (fun a => match a with
    | ⟨0, _⟩ => rfl
    | ⟨1, _⟩ => rfl
    | ⟨2, _⟩ => hi.symm
    | ⟨3, _⟩ => rfl)).trans ?_
  rw [val_main_v110_apply]
  exact (congrArg (val_main_v105 (F := Ideal) x dt) (funext fun a => Fin.ext (by match a with | ⟨0, _⟩ => rfl | ⟨1, _⟩ => rfl | ⟨2, _⟩ => rfl))).trans (avgT x dt b c l)

theorem stack1 (i : Fin 2) (hi : i.val = 1) (l : Fin 4096) :
    val_main_v112 (F := Ideal) x dt kn (ix4 b c i l) = rowP x kn b c l := by
  unfold val_main_v112
  refine (concatenate_pair_apply_right (t := S8x256x2x4096) (s₁ := S8x256x1x4096) (s₂ := S8x256x1x4096) 2 _ _ _ (ix4 b c i l) rfl rfl (ix4 b c (0 : Fin 1) l) (fun a => match a with
    | ⟨0, _⟩ => fun _ => rfl
    | ⟨1, _⟩ => fun _ => rfl
    | ⟨2, _⟩ => fun h2 => absurd rfl h2
    | ⟨3, _⟩ => fun _ => rfl) (by show 0 + 1 = i.val; omega)).trans ?_
  rw [val_main_v111_apply]
  exact (congrArg (val_main_v109 (F := Ideal) x kn) (funext fun a => Fin.ext (by match a with | ⟨0, _⟩ => rfl | ⟨1, _⟩ => rfl | ⟨2, _⟩ => rfl))).trans (avgP x kn b c l)

theorem stack (i : Fin 2) (l : Fin 4096) :
    val_main_v112 (F := Ideal) x dt kn (ix4 b c i l) = rows x dt kn b c i l := by
  unfold rows
  by_cases hi : i.val = 0
  · rw [if_pos hi]; exact stack0 x dt kn b c i hi l
  · rw [if_neg hi]; exact stack1 x dt kn b c i (by have := i.isLt; omega) l

/-- The 2×2 matrix of inner products of the rows. -/
def gr (i j : Fin 2) : EReal := gram (rows x dt kn b c i) (rows x dt kn b c j)

theorem gramG (i j : Fin 2) :
    val_main_v113 (F := Ideal) x dt kn (ix4 b c i j) = gr x dt kn b c i j := by
  rw [val_main_v113_apply]
  show _ = ∑ l : Fin 4096, rows x dt kn b c i l * rows x dt kn b c j l
  refine Finset.sum_congr rfl fun l _ => ?_
  have el : lidx_main_v113 (ix4 b c i j) l = ix4 b c i l := funext fun a => Fin.ext (by match a with | ⟨0, _⟩ => rfl | ⟨1, _⟩ => rfl | ⟨2, _⟩ => rfl | ⟨3, _⟩ => rfl)
  have er : ridx_main_v113 (ix4 b c i j) l = ix4 b c j l := funext fun a => Fin.ext (by match a with | ⟨0, _⟩ => rfl | ⟨1, _⟩ => rfl | ⟨2, _⟩ => rfl | ⟨3, _⟩ => rfl)
  rw [el, er, stack, stack]

end Rows

/-- The bit pattern of minus infinity. -/
theorem negInf : Ideal.ofBits .f32 0xFF800000#32 = (⊥ : EReal) := by simp [Ideal.ofBits, Ideal.ieee]

/-- A fold over the two-element index set. -/
theorem fold_univ_fin2 {α : Type} (f : α → α → α) [Std.Commutative f] [Std.Associative f] (b : α) (g : Fin 2 → α) :
    (Finset.univ : Finset (Fin 2)).fold f b g = f (g 0) (f (g 1) b) := by
  simp only [Fin.univ_succ, Finset.fold_cons, Finset.fold_map, Finset.univ_unique, Finset.fold_singleton]
  rfl

section Soft
variable (x : (⟨S8x256x4096, .f32⟩ : BufTy).Contents (Elt Ideal)) (dt : (⟨S8x4096, .f32⟩ : BufTy).Contents (Elt Ideal)) (kn : (⟨S1x1x8, .f32⟩ : BufTy).Contents (Elt Ideal)) (b : Fin 8) (c : Fin 256)

/-- The maximum over a row of the 2×2 matrix, from minus infinity. -/
theorem max114 (i : Fin 2) :
    val_main_v114 (F := Ideal) x dt kn (ix3 b c i) = max (gr x dt kn b c i 0) (gr x dt kn b c i 1) := by
  unfold val_main_v114
  rw [Host.reduce_eq_fold_single FloatOps.maximumf _ _ reducesTo_S8x256x2x2_S8x256x2_d3 (by decide) h_S_]
  refine (fold_univ_fin2 (max : EReal → EReal → EReal) _ _).trans ?_
  rw [val_main_cst_35_apply, Ideal.ofBits_def, negInf, max_bot_right]
  show max (val_main_v113 (F := Ideal) x dt kn _) (val_main_v113 (F := Ideal) x dt kn _) = _
  have e0 : (Shape.Reduces.lift (s := S8x256x2x2) (a := 3) (t := S8x256x2) (by decide) (ix3 b c i) (0 : Fin 2)) = ix4 b c i (0 : Fin 2) :=
    funext fun a => Fin.ext (by match a with | ⟨0, _⟩ => rfl | ⟨1, _⟩ => rfl | ⟨2, _⟩ => rfl | ⟨3, _⟩ => rfl)
  have e1 : (Shape.Reduces.lift (s := S8x256x2x2) (a := 3) (t := S8x256x2) (by decide) (ix3 b c i) (1 : Fin 2)) = ix4 b c i (1 : Fin 2) :=
    funext fun a => Fin.ext (by match a with | ⟨0, _⟩ => rfl | ⟨1, _⟩ => rfl | ⟨2, _⟩ => rfl | ⟨3, _⟩ => rfl)
  rw [e0, e1, gramG, gramG]

theorem max116 (i : Fin 2) :
    val_main_v116 (F := Ideal) x dt kn (ix3 b c i) = max (gr x dt kn b c i 0) (gr x dt kn b c i 1) := by
  rw [val_main_v116_apply, Ideal.maximumf_def, val_main_v115_apply, val_main_cst_36_apply, Ideal.ofBits_def, negInf, max_bot_left, max114]

/-- An entry less its row's maximum, exponentiated. -/
theorem exp120 (i j : Fin 2) :
    val_main_v120 (F := Ideal) x dt kn (ix4 b c i j)
      = Ideal.exp (gr x dt kn b c i j - max (gr x dt kn b c i 0) (gr x dt kn b c i 1)) := by
  rw [val_main_v120_apply, Ideal.hostUnary_exp_def, val_main_v119_apply, Ideal.subf_def, gramG, val_main_v118_apply, val_main_v117_apply]
  have e : idx_main_v117 (idx_main_v118 (ix4 b c i j)) = ix3 b c i := funext fun a => Fin.ext (by match a with | ⟨0, _⟩ => rfl | ⟨1, _⟩ => rfl | ⟨2, _⟩ => rfl)
  rw [e, max116]

theorem sum121 (i : Fin 2) :
    val_main_v121 (F := Ideal) x dt kn (ix3 b c i)
      = eL (gr x dt kn b c i 0) (gr x dt kn b c i 1) + eR (gr x dt kn b c i 0) (gr x dt kn b c i 1) := by
  rw [val_main_v121_apply, val_main_cst_37_apply, Ideal.ofBits_def, Ideal.ofBits_zero_f32, zero_add, Fin.sum_univ_two]
  have e0 : idx_main_v121 (ix3 b c i) 0 = ix4 b c i (0 : Fin 2) := funext fun a => Fin.ext (by match a with | ⟨0, _⟩ => rfl | ⟨1, _⟩ => rfl | ⟨2, _⟩ => rfl | ⟨3, _⟩ => rfl)
  have e1 : idx_main_v121 (ix3 b c i) 1 = ix4 b c i (1 : Fin 2) := funext fun a => Fin.ext (by match a with | ⟨0, _⟩ => rfl | ⟨1, _⟩ => rfl | ⟨2, _⟩ => rfl | ⟨3, _⟩ => rfl)
  rw [e0, e1, exp120, exp120]
  rfl

theorem soft124 (i j : Fin 2) :
    val_main_v124 (F := Ideal) x dt kn (ix4 b c i j)
      = Ideal.div (Ideal.exp (gr x dt kn b c i j - max (gr x dt kn b c i 0) (gr x dt kn b c i 1)))
          (eL (gr x dt kn b c i 0) (gr x dt kn b c i 1) + eR (gr x dt kn b c i 0) (gr x dt kn b c i 1)) := by
  rw [val_main_v124_apply, Ideal.hostDivf_def, exp120, val_main_v123_apply, val_main_v122_apply]
  have e : idx_main_v122 (idx_main_v123 (ix4 b c i j)) = ix3 b c i := funext fun a => Fin.ext (by match a with | ⟨0, _⟩ => rfl | ⟨1, _⟩ => rfl | ⟨2, _⟩ => rfl)
  rw [e, sum121]

/-- A row of the softmax applied to the two rows. -/
theorem mix125 (i : Fin 2) (l : Fin 4096) :
    val_main_v125 (F := Ideal) x dt kn (ix4 b c i l)
      = softL (gr x dt kn b c i 0) (gr x dt kn b c i 1) * rows x dt kn b c 0 l
        + softR (gr x dt kn b c i 0) (gr x dt kn b c i 1) * rows x dt kn b c 1 l := by
  rw [val_main_v125_apply, Fin.sum_univ_two]
  have l0 : lidx_main_v125 (ix4 b c i l) 0 = ix4 b c i (0 : Fin 2) := funext fun a => Fin.ext (by match a with | ⟨0, _⟩ => rfl | ⟨1, _⟩ => rfl | ⟨2, _⟩ => rfl | ⟨3, _⟩ => rfl)
  have l1 : lidx_main_v125 (ix4 b c i l) 1 = ix4 b c i (1 : Fin 2) := funext fun a => Fin.ext (by match a with | ⟨0, _⟩ => rfl | ⟨1, _⟩ => rfl | ⟨2, _⟩ => rfl | ⟨3, _⟩ => rfl)
  have r0 : ridx_main_v125 (ix4 b c i l) 0 = ix4 b c (0 : Fin 2) l := funext fun a => Fin.ext (by match a with | ⟨0, _⟩ => rfl | ⟨1, _⟩ => rfl | ⟨2, _⟩ => rfl | ⟨3, _⟩ => rfl)
  have r1 : ridx_main_v125 (ix4 b c i l) 1 = ix4 b c (1 : Fin 2) l := funext fun a => Fin.ext (by match a with | ⟨0, _⟩ => rfl | ⟨1, _⟩ => rfl | ⟨2, _⟩ => rfl | ⟨3, _⟩ => rfl)
  rw [l0, l1, r0, r1, soft124, soft124, stack, stack]
  rfl

end Soft

theorem ref_apply (x : (⟨S8x256x4096, .f32⟩ : BufTy).Contents (Elt Ideal)) (dt : (⟨S8x4096, .f32⟩ : BufTy).Contents (Elt Ideal)) (kn : (⟨S1x1x8, .f32⟩ : BufTy).Contents (Elt Ideal)) (b : Fin 8) (c : Fin 256) (l : Fin 4096) :
    RefRead.val_main_v128 (F := Ideal) x dt kn (ix3 b c l)
      = Cert.Causal.mixR (fun j => Cert.Causal.winR (fun i => x (ix3 b c i)) (fun i k => RefRead.val_main_v101 (F := Ideal) dt (ix3 b i k)) j)
                         (fun j => Cert.Causal.winR (fun i => x (ix3 b c i)) (fun _ k => kn (ix3 0 0 k)) j) l := by
  rw [val_main_v128_apply, Ideal.hostDivf_def, val_main_v127_apply, val_main_cst_39_apply, Ideal.ofBits_def,
    val_main_v126_apply, val_main_cst_38_apply, Ideal.ofBits_def, Ideal.ofBits_zero_f32, zero_add, Fin.sum_univ_two]
  have e0 : idx_main_v126 (ix3 b c l) 0 = ix4 b c (0 : Fin 2) l := funext fun a => Fin.ext (by match a with | ⟨0, _⟩ => rfl | ⟨1, _⟩ => rfl | ⟨2, _⟩ => rfl | ⟨3, _⟩ => rfl)
  have e1 : idx_main_v126 (ix3 b c l) 1 = ix4 b c (1 : Fin 2) l := funext fun a => Fin.ext (by match a with | ⟨0, _⟩ => rfl | ⟨1, _⟩ => rfl | ⟨2, _⟩ => rfl | ⟨3, _⟩ => rfl)
  rw [e0, e1, mix125, mix125]
  rfl

end Cert.ReferenceIdeal.RefValue

end
-- ==== Proof.RefRunA.lean ====
/- The run of the reference program, first stretch: the index vector 0, …, 4095 and the first four
   lag-shifted copies of the samples, each zeroed at the positions before its lag. Every buffer the
   stretch hands on holds the value that the staged reading of the program assigns to it, and the
   three arguments are left as they were. -/
import proofs.«121142_j83648783057347_2_alg».proof.Proof.RefRead

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Running one line and then another is running their concatenation. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- The first 45 operations: the index vector, then for the lags 0, 1, 2, 3 the comparison of the
    index with the lag, the rotation of the samples by the lag along the last axis (two slices and
    their concatenation), and the selection of zero where the index is below the lag. -/
abbrev opsA : List (HloOp τ sig (Elt F)) :=
  [ nullary main_v0 (iotaInDim S4096 32 0),
    nullary main_c (constantI S_ 32 0#32),
    unary main_c main_v1 (broadcastInDim S4096 ![] bcast_S_S4096 : (⟨S_, .i32⟩ : BufTy).Contents (Elt F) → (⟨S4096, .i32⟩ : BufTy).Contents (Elt F)),
    binary main_v0 main_v1 main_v2 (cmpi .slt : (⟨S4096, .i32⟩ : BufTy).Contents (Elt F) → (⟨S4096, .i32⟩ : BufTy).Contents (Elt F) → (⟨S4096, .i1⟩ : BufTy).Contents (Elt F)),
    TRef.unary (TRef.of (T := ⟨S8x256x4096, .f32⟩) main_arg0) (TRef.of (T := ⟨S8x256x4096, .f32⟩) main_call0_v0) (extractStridedSlice S8x256x4096 ![0, 0, 0] · slices_S8x256x4096_S8x256x4096_0_0_0),
    TRef.unary (TRef.of (T := ⟨S8x256x4096, .f32⟩) main_arg0) (TRef.of (T := ⟨S8x256x0, .f32⟩) main_call0_v1) (extractStridedSlice S8x256x0 ![0, 0, 0] · slices_S8x256x4096_S8x256x0_0_0_0),
    TRef.binary (TRef.of (T := ⟨S8x256x4096, .f32⟩) main_call0_v0) (TRef.of (T := ⟨S8x256x0, .f32⟩) main_call0_v1) (TRef.of (T := ⟨S8x256x4096, .f32⟩) main_v3) (fun a b => concatenate S8x256x4096 2 [⟨S8x256x4096, a⟩, ⟨S8x256x0, b⟩] concatenates_S8x256x4096_S8x256x0_S8x256x4096_d2),
    nullary main_cst (constant S_ .f32 0x00000000#32),
    TRef.unary (TRef.of (T := ⟨S_, .f32⟩) main_cst) (TRef.of (T := ⟨S_, .f32⟩) main_call1_v0) id,
    TRef.unary (TRef.of (T := ⟨S4096, .i1⟩) main_v2) (TRef.of (T := ⟨S8x256x4096, .i1⟩) main_call1_v1) (broadcastInDim S8x256x4096 ![2] bcast_S4096_S8x256x4096_2),
    TRef.unary (TRef.of (T := ⟨S_, .f32⟩) main_call1_v0) (TRef.of (T := ⟨S8x256x4096, .f32⟩) main_call1_v2) (broadcastInDim S8x256x4096 ![] bcast_S_S8x256x4096),
    TRef.ternary (TRef.of (T := ⟨S8x256x4096, .i1⟩) main_call1_v1) (TRef.of (T := ⟨S8x256x4096, .f32⟩) main_call1_v2) (TRef.of (T := ⟨S8x256x4096, .f32⟩) main_v3) (TRef.of (T := ⟨S8x256x4096, .f32⟩) main_v4) select,
    nullary main_c_0 (constantI S_ 32 1#32),
    unary main_c_0 main_v5 (broadcastInDim S4096 ![] bcast_S_S4096 : (⟨S_, .i32⟩ : BufTy).Contents (Elt F) → (⟨S4096, .i32⟩ : BufTy).Contents (Elt F)),
    binary main_v0 main_v5 main_v6 (cmpi .slt : (⟨S4096, .i32⟩ : BufTy).Contents (Elt F) → (⟨S4096, .i32⟩ : BufTy).Contents (Elt F) → (⟨S4096, .i1⟩ : BufTy).Contents (Elt F)),
    TRef.unary (TRef.of (T := ⟨S8x256x4096, .f32⟩) main_arg0) (TRef.of (T := ⟨S8x256x1, .f32⟩) main_call2_v0) (extractStridedSlice S8x256x1 ![0, 0, 4095] · slices_S8x256x4096_S8x256x1_0_0_4095),
    TRef.unary (TRef.of (T := ⟨S8x256x4096, .f32⟩) main_arg0) (TRef.of (T := ⟨S8x256x4095, .f32⟩) main_call2_v1) (extractStridedSlice S8x256x4095 ![0, 0, 0] · slices_S8x256x4096_S8x256x4095_0_0_0),
    TRef.binary (TRef.of (T := ⟨S8x256x1, .f32⟩) main_call2_v0) (TRef.of (T := ⟨S8x256x4095, .f32⟩) main_call2_v1) (TRef.of (T := ⟨S8x256x4096, .f32⟩) main_v7) (fun a b => concatenate S8x256x4096 2 [⟨S8x256x1, a⟩, ⟨S8x256x4095, b⟩] concatenates_S8x256x1_S8x256x4095_S8x256x4096_d2),
    nullary main_cst_1 (constant S_ .f32 0x00000000#32),
    TRef.unary (TRef.of (T := ⟨S_, .f32⟩) main_cst_1) (TRef.of (T := ⟨S_, .f32⟩) main_call3_v0) id,
    TRef.unary (TRef.of (T := ⟨S4096, .i1⟩) main_v6) (TRef.of (T := ⟨S8x256x4096, .i1⟩) main_call3_v1) (broadcastInDim S8x256x4096 ![2] bcast_S4096_S8x256x4096_2),
    TRef.unary (TRef.of (T := ⟨S_, .f32⟩) main_call3_v0) (TRef.of (T := ⟨S8x256x4096, .f32⟩) main_call3_v2) (broadcastInDim S8x256x4096 ![] bcast_S_S8x256x4096),
    TRef.ternary (TRef.of (T := ⟨S8x256x4096, .i1⟩) main_call3_v1) (TRef.of (T := ⟨S8x256x4096, .f32⟩) main_call3_v2) (TRef.of (T := ⟨S8x256x4096, .f32⟩) main_v7) (TRef.of (T := ⟨S8x256x4096, .f32⟩) main_v8) select,
    nullary main_c_2 (constantI S_ 32 2#32),
    unary main_c_2 main_v9 (broadcastInDim S4096 ![] bcast_S_S4096 : (⟨S_, .i32⟩ : BufTy).Contents (Elt F) → (⟨S4096, .i32⟩ : BufTy).Contents (Elt F)),
    binary main_v0 main_v9 main_v10 (cmpi .slt : (⟨S4096, .i32⟩ : BufTy).Contents (Elt F) → (⟨S4096, .i32⟩ : BufTy).Contents (Elt F) → (⟨S4096, .i1⟩ : BufTy).Contents (Elt F)),
    TRef.unary (TRef.of (T := ⟨S8x256x4096, .f32⟩) main_arg0) (TRef.of (T := ⟨S8x256x2, .f32⟩) main_call4_v0) (extractStridedSlice S8x256x2 ![0, 0, 4094] · slices_S8x256x4096_S8x256x2_0_0_4094),
    TRef.unary (TRef.of (T := ⟨S8x256x4096, .f32⟩) main_arg0) (TRef.of (T := ⟨S8x256x4094, .f32⟩) main_call4_v1) (extractStridedSlice S8x256x4094 ![0, 0, 0] · slices_S8x256x4096_S8x256x4094_0_0_0),
    TRef.binary (TRef.of (T := ⟨S8x256x2, .f32⟩) main_call4_v0) (TRef.of (T := ⟨S8x256x4094, .f32⟩) main_call4_v1) (TRef.of (T := ⟨S8x256x4096, .f32⟩) main_v11) (fun a b => concatenate S8x256x4096 2 [⟨S8x256x2, a⟩, ⟨S8x256x4094, b⟩] concatenates_S8x256x2_S8x256x4094_S8x256x4096_d2),
    nullary main_cst_3 (constant S_ .f32 0x00000000#32),
    TRef.unary (TRef.of (T := ⟨S_, .f32⟩) main_cst_3) (TRef.of (T := ⟨S_, .f32⟩) main_call5_v0) id,
    TRef.unary (TRef.of (T := ⟨S4096, .i1⟩) main_v10) (TRef.of (T := ⟨S8x256x4096, .i1⟩) main_call5_v1) (broadcastInDim S8x256x4096 ![2] bcast_S4096_S8x256x4096_2),
    TRef.unary (TRef.of (T := ⟨S_, .f32⟩) main_call5_v0) (TRef.of (T := ⟨S8x256x4096, .f32⟩) main_call5_v2) (broadcastInDim S8x256x4096 ![] bcast_S_S8x256x4096),
    TRef.ternary (TRef.of (T := ⟨S8x256x4096, .i1⟩) main_call5_v1) (TRef.of (T := ⟨S8x256x4096, .f32⟩) main_call5_v2) (TRef.of (T := ⟨S8x256x4096, .f32⟩) main_v11) (TRef.of (T := ⟨S8x256x4096, .f32⟩) main_v12) select,
    nullary main_c_4 (constantI S_ 32 3#32),
    unary main_c_4 main_v13 (broadcastInDim S4096 ![] bcast_S_S4096 : (⟨S_, .i32⟩ : BufTy).Contents (Elt F) → (⟨S4096, .i32⟩ : BufTy).Contents (Elt F)),
    binary main_v0 main_v13 main_v14 (cmpi .slt : (⟨S4096, .i32⟩ : BufTy).Contents (Elt F) → (⟨S4096, .i32⟩ : BufTy).Contents (Elt F) → (⟨S4096, .i1⟩ : BufTy).Contents (Elt F)),
    TRef.unary (TRef.of (T := ⟨S8x256x4096, .f32⟩) main_arg0) (TRef.of (T := ⟨S8x256x3, .f32⟩) main_call6_v0) (extractStridedSlice S8x256x3 ![0, 0, 4093] · slices_S8x256x4096_S8x256x3_0_0_4093),
    TRef.unary (TRef.of (T := ⟨S8x256x4096, .f32⟩) main_arg0) (TRef.of (T := ⟨S8x256x4093, .f32⟩) main_call6_v1) (extractStridedSlice S8x256x4093 ![0, 0, 0] · slices_S8x256x4096_S8x256x4093_0_0_0),
    TRef.binary (TRef.of (T := ⟨S8x256x3, .f32⟩) main_call6_v0) (TRef.of (T := ⟨S8x256x4093, .f32⟩) main_call6_v1) (TRef.of (T := ⟨S8x256x4096, .f32⟩) main_v15) (fun a b => concatenate S8x256x4096 2 [⟨S8x256x3, a⟩, ⟨S8x256x4093, b⟩] concatenates_S8x256x3_S8x256x4093_S8x256x4096_d2),
    nullary main_cst_5 (constant S_ .f32 0x00000000#32),
    TRef.unary (TRef.of (T := ⟨S_, .f32⟩) main_cst_5) (TRef.of (T := ⟨S_, .f32⟩) main_call7_v0) id,
    TRef.unary (TRef.of (T := ⟨S4096, .i1⟩) main_v14) (TRef.of (T := ⟨S8x256x4096, .i1⟩) main_call7_v1) (broadcastInDim S8x256x4096 ![2] bcast_S4096_S8x256x4096_2),
    TRef.unary (TRef.of (T := ⟨S_, .f32⟩) main_call7_v0) (TRef.of (T := ⟨S8x256x4096, .f32⟩) main_call7_v2) (broadcastInDim S8x256x4096 ![] bcast_S_S8x256x4096),
    TRef.ternary (TRef.of (T := ⟨S8x256x4096, .i1⟩) main_call7_v1) (TRef.of (T := ⟨S8x256x4096, .f32⟩) main_call7_v2) (TRef.of (T := ⟨S8x256x4096, .f32⟩) main_v15) (TRef.of (T := ⟨S8x256x4096, .f32⟩) main_v16) select ]

theorem opsA_sub : (opsA : List (HloOp τ sig (Elt F))).Forall fun op => op.bufs ⊆ tcRefs τ sig :=
  ⟨nullary_bufs_sub .., nullary_bufs_sub .., unary_bufs_sub .., binary_bufs_sub .., unary_bufs_sub .., unary_bufs_sub .., binary_bufs_sub .., nullary_bufs_sub .., unary_bufs_sub .., unary_bufs_sub .., unary_bufs_sub .., ternary_bufs_sub .., nullary_bufs_sub .., unary_bufs_sub .., binary_bufs_sub .., unary_bufs_sub .., unary_bufs_sub .., binary_bufs_sub .., nullary_bufs_sub .., unary_bufs_sub .., unary_bufs_sub .., unary_bufs_sub .., ternary_bufs_sub .., nullary_bufs_sub .., unary_bufs_sub .., binary_bufs_sub .., unary_bufs_sub .., unary_bufs_sub .., binary_bufs_sub .., nullary_bufs_sub .., unary_bufs_sub .., unary_bufs_sub .., unary_bufs_sub .., ternary_bufs_sub .., nullary_bufs_sub .., unary_bufs_sub .., binary_bufs_sub .., unary_bufs_sub .., unary_bufs_sub .., binary_bufs_sub .., nullary_bufs_sub .., unary_bufs_sub .., unary_bufs_sub .., unary_bufs_sub .., ternary_bufs_sub ..⟩

theorem opsA_fresh : ∀ op ∈ (opsA : List (HloOp τ sig (Elt F))), op.fresh = ∅ := by
  intro _ h; (repeat (cases h with | head => rfl | tail _ h => ?_)); exact nomatch h

/-- After the stretch: the index vector and the masked shifts by 0, 1, 2, 3 are the staged values,
    over whatever the first argument holds. -/
theorem runA (W : Valuation τ sig (Elt F))
    (x0 : (⟨S8x256x4096, .f32⟩ : BufTy).Contents (Elt F)) (x1 : (⟨S8x4096, .f32⟩ : BufTy).Contents (Elt F))
    (x2 : (⟨S1x1x8, .f32⟩ : BufTy).Contents (Elt F))
    (h0 : W (Proc.devRef .tc main_arg0) = x0) (h1 : W (Proc.devRef .tc main_arg1) = x1)
    (h2 : W (Proc.devRef .tc main_arg2) = x2) :
    after (opsA (F := F)) W (Proc.devRef .tc main_arg0) = x0
    ∧ after (opsA (F := F)) W (Proc.devRef .tc main_arg1) = x1
    ∧ after (opsA (F := F)) W (Proc.devRef .tc main_arg2) = x2
    ∧ after (opsA (F := F)) W (Proc.devRef .tc main_v0) = RefRead.val_main_v0 (F := F)
    ∧ after (opsA (F := F)) W (Proc.devRef .tc main_v4) = RefRead.val_main_v4 (F := F) x0
    ∧ after (opsA (F := F)) W (Proc.devRef .tc main_v8) = RefRead.val_main_v8 (F := F) x0
    ∧ after (opsA (F := F)) W (Proc.devRef .tc main_v12) = RefRead.val_main_v12 (F := F) x0
    ∧ after (opsA (F := F)) W (Proc.devRef .tc main_v16) = RefRead.val_main_v16 (F := F) x0 := by
  subst h0 h1 h2
  refine ⟨?_, ?_, ?_, ?_, ?_, ?_, ?_, ?_⟩ <;> after_results_simp <;> rfl

end Cert.ReferenceIdeal.RefRun

end
-- ==== Proof.RefRunB.lean ====
/- The run of the reference program, second stretch: the lag-shifted, masked copies of the samples
   for the lags 4, 5, 6, 7, and each of the eight copies given a trailing axis of length one, ready to
   be stacked along it. -/
import proofs.«121142_j83648783057347_2_alg».proof.Proof.RefRead

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 46 to 97: for the lags 4, …, 7 the comparison, the rotation and the selection as
    before; then the eight masked shifts, each broadcast to a trailing unit axis. -/
abbrev opsB : List (HloOp τ sig (Elt F)) :=
  [ nullary main_c_6 (constantI S_ 32 4#32),
    unary main_c_6 main_v17 (broadcastInDim S4096 ![] bcast_S_S4096 : (⟨S_, .i32⟩ : BufTy).Contents (Elt F) → (⟨S4096, .i32⟩ : BufTy).Contents (Elt F)),
    binary main_v0 main_v17 main_v18 (cmpi .slt : (⟨S4096, .i32⟩ : BufTy).Contents (Elt F) → (⟨S4096, .i32⟩ : BufTy).Contents (Elt F) → (⟨S4096, .i1⟩ : BufTy).Contents (Elt F)),
    TRef.unary (TRef.of (T := ⟨S8x256x4096, .f32⟩) main_arg0) (TRef.of (T := ⟨S8x256x4, .f32⟩) main_call8_v0) (extractStridedSlice S8x256x4 ![0, 0, 4092] · slices_S8x256x4096_S8x256x4_0_0_4092),
    TRef.unary (TRef.of (T := ⟨S8x256x4096, .f32⟩) main_arg0) (TRef.of (T := ⟨S8x256x4092, .f32⟩) main_call8_v1) (extractStridedSlice S8x256x4092 ![0, 0, 0] · slices_S8x256x4096_S8x256x4092_0_0_0),
    TRef.binary (TRef.of (T := ⟨S8x256x4, .f32⟩) main_call8_v0) (TRef.of (T := ⟨S8x256x4092, .f32⟩) main_call8_v1) (TRef.of (T := ⟨S8x256x4096, .f32⟩) main_v19) (fun a b => concatenate S8x256x4096 2 [⟨S8x256x4, a⟩, ⟨S8x256x4092, b⟩] concatenates_S8x256x4_S8x256x4092_S8x256x4096_d2),
    nullary main_cst_7 (constant S_ .f32 0x00000000#32),
    TRef.unary (TRef.of (T := ⟨S_, .f32⟩) main_cst_7) (TRef.of (T := ⟨S_, .f32⟩) main_call9_v0) id,
    TRef.unary (TRef.of (T := ⟨S4096, .i1⟩) main_v18) (TRef.of (T := ⟨S8x256x4096, .i1⟩) main_call9_v1) (broadcastInDim S8x256x4096 ![2] bcast_S4096_S8x256x4096_2),
    TRef.unary (TRef.of (T := ⟨S_, .f32⟩) main_call9_v0) (TRef.of (T := ⟨S8x256x4096, .f32⟩) main_call9_v2) (broadcastInDim S8x256x4096 ![] bcast_S_S8x256x4096),
    TRef.ternary (TRef.of (T := ⟨S8x256x4096, .i1⟩) main_call9_v1) (TRef.of (T := ⟨S8x256x4096, .f32⟩) main_call9_v2) (TRef.of (T := ⟨S8x256x4096, .f32⟩) main_v19) (TRef.of (T := ⟨S8x256x4096, .f32⟩) main_v20) select,
    nullary main_c_8 (constantI S_ 32 5#32),
    unary main_c_8 main_v21 (broadcastInDim S4096 ![] bcast_S_S4096 : (⟨S_, .i32⟩ : BufTy).Contents (Elt F) → (⟨S4096, .i32⟩ : BufTy).Contents (Elt F)),
    binary main_v0 main_v21 main_v22 (cmpi .slt : (⟨S4096, .i32⟩ : BufTy).Contents (Elt F) → (⟨S4096, .i32⟩ : BufTy).Contents (Elt F) → (⟨S4096, .i1⟩ : BufTy).Contents (Elt F)),
    TRef.unary (TRef.of (T := ⟨S8x256x4096, .f32⟩) main_arg0) (TRef.of (T := ⟨S8x256x5, .f32⟩) main_call10_v0) (extractStridedSlice S8x256x5 ![0, 0, 4091] · slices_S8x256x4096_S8x256x5_0_0_4091),
    TRef.unary (TRef.of (T := ⟨S8x256x4096, .f32⟩) main_arg0) (TRef.of (T := ⟨S8x256x4091, .f32⟩) main_call10_v1) (extractStridedSlice S8x256x4091 ![0, 0, 0] · slices_S8x256x4096_S8x256x4091_0_0_0),
    TRef.binary (TRef.of (T := ⟨S8x256x5, .f32⟩) main_call10_v0) (TRef.of (T := ⟨S8x256x4091, .f32⟩) main_call10_v1) (TRef.of (T := ⟨S8x256x4096, .f32⟩) main_v23) (fun a b => concatenate S8x256x4096 2 [⟨S8x256x5, a⟩, ⟨S8x256x4091, b⟩] concatenates_S8x256x5_S8x256x4091_S8x256x4096_d2),
    nullary main_cst_9 (constant S_ .f32 0x00000000#32),
    TRef.unary (TRef.of (T := ⟨S_, .f32⟩) main_cst_9) (TRef.of (T := ⟨S_, .f32⟩) main_call11_v0) id,
    TRef.unary (TRef.of (T := ⟨S4096, .i1⟩) main_v22) (TRef.of (T := ⟨S8x256x4096, .i1⟩) main_call11_v1) (broadcastInDim S8x256x4096 ![2] bcast_S4096_S8x256x4096_2),
    TRef.unary (TRef.of (T := ⟨S_, .f32⟩) main_call11_v0) (TRef.of (T := ⟨S8x256x4096, .f32⟩) main_call11_v2) (broadcastInDim S8x256x4096 ![] bcast_S_S8x256x4096),
    TRef.ternary (TRef.of (T := ⟨S8x256x4096, .i1⟩) main_call11_v1) (TRef.of (T := ⟨S8x256x4096, .f32⟩) main_call11_v2) (TRef.of (T := ⟨S8x256x4096, .f32⟩) main_v23) (TRef.of (T := ⟨S8x256x4096, .f32⟩) main_v24) select,
    nullary main_c_10 (constantI S_ 32 6#32),
    unary main_c_10 main_v25 (broadcastInDim S4096 ![] bcast_S_S4096 : (⟨S_, .i32⟩ : BufTy).Contents (Elt F) → (⟨S4096, .i32⟩ : BufTy).Contents (Elt F)),
    binary main_v0 main_v25 main_v26 (cmpi .slt : (⟨S4096, .i32⟩ : BufTy).Contents (Elt F) → (⟨S4096, .i32⟩ : BufTy).Contents (Elt F) → (⟨S4096, .i1⟩ : BufTy).Contents (Elt F)),
    TRef.unary (TRef.of (T := ⟨S8x256x4096, .f32⟩) main_arg0) (TRef.of (T := ⟨S8x256x6, .f32⟩) main_call12_v0) (extractStridedSlice S8x256x6 ![0, 0, 4090] · slices_S8x256x4096_S8x256x6_0_0_4090),
    TRef.unary (TRef.of (T := ⟨S8x256x4096, .f32⟩) main_arg0) (TRef.of (T := ⟨S8x256x4090, .f32⟩) main_call12_v1) (extractStridedSlice S8x256x4090 ![0, 0, 0] · slices_S8x256x4096_S8x256x4090_0_0_0),
    TRef.binary (TRef.of (T := ⟨S8x256x6, .f32⟩) main_call12_v0) (TRef.of (T := ⟨S8x256x4090, .f32⟩) main_call12_v1) (TRef.of (T := ⟨S8x256x4096, .f32⟩) main_v27) (fun a b => concatenate S8x256x4096 2 [⟨S8x256x6, a⟩, ⟨S8x256x4090, b⟩] concatenates_S8x256x6_S8x256x4090_S8x256x4096_d2),
    nullary main_cst_11 (constant S_ .f32 0x00000000#32),
    TRef.unary (TRef.of (T := ⟨S_, .f32⟩) main_cst_11) (TRef.of (T := ⟨S_, .f32⟩) main_call13_v0) id,
    TRef.unary (TRef.of (T := ⟨S4096, .i1⟩) main_v26) (TRef.of (T := ⟨S8x256x4096, .i1⟩) main_call13_v1) (broadcastInDim S8x256x4096 ![2] bcast_S4096_S8x256x4096_2),
    TRef.unary (TRef.of (T := ⟨S_, .f32⟩) main_call13_v0) (TRef.of (T := ⟨S8x256x4096, .f32⟩) main_call13_v2) (broadcastInDim S8x256x4096 ![] bcast_S_S8x256x4096),
    TRef.ternary (TRef.of (T := ⟨S8x256x4096, .i1⟩) main_call13_v1) (TRef.of (T := ⟨S8x256x4096, .f32⟩) main_call13_v2) (TRef.of (T := ⟨S8x256x4096, .f32⟩) main_v27) (TRef.of (T := ⟨S8x256x4096, .f32⟩) main_v28) select,
    nullary main_c_12 (constantI S_ 32 7#32),
    unary main_c_12 main_v29 (broadcastInDim S4096 ![] bcast_S_S4096 : (⟨S_, .i32⟩ : BufTy).Contents (Elt F) → (⟨S4096, .i32⟩ : BufTy).Contents (Elt F)),
    binary main_v0 main_v29 main_v30 (cmpi .slt : (⟨S4096, .i32⟩ : BufTy).Contents (Elt F) → (⟨S4096, .i32⟩ : BufTy).Contents (Elt F) → (⟨S4096, .i1⟩ : BufTy).Contents (Elt F)),
    TRef.unary (TRef.of (T := ⟨S8x256x4096, .f32⟩) main_arg0) (TRef.of (T := ⟨S8x256x7, .f32⟩) main_call14_v0) (extractStridedSlice S8x256x7 ![0, 0, 4089] · slices_S8x256x4096_S8x256x7_0_0_4089),
    TRef.unary (TRef.of (T := ⟨S8x256x4096, .f32⟩) main_arg0) (TRef.of (T := ⟨S8x256x4089, .f32⟩) main_call14_v1) (extractStridedSlice S8x256x4089 ![0, 0, 0] · slices_S8x256x4096_S8x256x4089_0_0_0),
    TRef.binary (TRef.of (T := ⟨S8x256x7, .f32⟩) main_call14_v0) (TRef.of (T := ⟨S8x256x4089, .f32⟩) main_call14_v1) (TRef.of (T := ⟨S8x256x4096, .f32⟩) main_v31) (fun a b => concatenate S8x256x4096 2 [⟨S8x256x7, a⟩, ⟨S8x256x4089, b⟩] concatenates_S8x256x7_S8x256x4089_S8x256x4096_d2),
    nullary main_cst_13 (constant S_ .f32 0x00000000#32),
    TRef.unary (TRef.of (T := ⟨S_, .f32⟩) main_cst_13) (TRef.of (T := ⟨S_, .f32⟩) main_call15_v0) id,
    TRef.unary (TRef.of (T := ⟨S4096, .i1⟩) main_v30) (TRef.of (T := ⟨S8x256x4096, .i1⟩) main_call15_v1) (broadcastInDim S8x256x4096 ![2] bcast_S4096_S8x256x4096_2),
    TRef.unary (TRef.of (T := ⟨S_, .f32⟩) main_call15_v0) (TRef.of (T := ⟨S8x256x4096, .f32⟩) main_call15_v2) (broadcastInDim S8x256x4096 ![] bcast_S_S8x256x4096),
    TRef.ternary (TRef.of (T := ⟨S8x256x4096, .i1⟩) main_call15_v1) (TRef.of (T := ⟨S8x256x4096, .f32⟩) main_call15_v2) (TRef.of (T := ⟨S8x256x4096, .f32⟩) main_v31) (TRef.of (T := ⟨S8x256x4096, .f32⟩) main_v32) select,
    unary main_v4 main_v33 (broadcastInDim S8x256x4096x1 ![0, 1, 2] bcast_S8x256x4096_S8x256x4096x1_0_1_2 : (⟨S8x256x4096, .f32⟩ : BufTy).Contents (Elt F) → (⟨S8x256x4096x1, .f32⟩ : BufTy).Contents (Elt F)),
    unary main_v8 main_v34 (broadcastInDim S8x256x4096x1 ![0, 1, 2] bcast_S8x256x4096_S8x256x4096x1_0_1_2 : (⟨S8x256x4096, .f32⟩ : BufTy).Contents (Elt F) → (⟨S8x256x4096x1, .f32⟩ : BufTy).Contents (Elt F)),
    unary main_v12 main_v35 (broadcastInDim S8x256x4096x1 ![0, 1, 2] bcast_S8x256x4096_S8x256x4096x1_0_1_2 : (⟨S8x256x4096, .f32⟩ : BufTy).Contents (Elt F) → (⟨S8x256x4096x1, .f32⟩ : BufTy).Contents (Elt F)),
    unary main_v16 main_v36 (broadcastInDim S8x256x4096x1 ![0, 1, 2] bcast_S8x256x4096_S8x256x4096x1_0_1_2 : (⟨S8x256x4096, .f32⟩ : BufTy).Contents (Elt F) → (⟨S8x256x4096x1, .f32⟩ : BufTy).Contents (Elt F)),
    unary main_v20 main_v37 (broadcastInDim S8x256x4096x1 ![0, 1, 2] bcast_S8x256x4096_S8x256x4096x1_0_1_2 : (⟨S8x256x4096, .f32⟩ : BufTy).Contents (Elt F) → (⟨S8x256x4096x1, .f32⟩ : BufTy).Contents (Elt F)),
    unary main_v24 main_v38 (broadcastInDim S8x256x4096x1 ![0, 1, 2] bcast_S8x256x4096_S8x256x4096x1_0_1_2 : (⟨S8x256x4096, .f32⟩ : BufTy).Contents (Elt F) → (⟨S8x256x4096x1, .f32⟩ : BufTy).Contents (Elt F)),
    unary main_v28 main_v39 (broadcastInDim S8x256x4096x1 ![0, 1, 2] bcast_S8x256x4096_S8x256x4096x1_0_1_2 : (⟨S8x256x4096, .f32⟩ : BufTy).Contents (Elt F) → (⟨S8x256x4096x1, .f32⟩ : BufTy).Contents (Elt F)),
    unary main_v32 main_v40 (broadcastInDim S8x256x4096x1 ![0, 1, 2] bcast_S8x256x4096_S8x256x4096x1_0_1_2 : (⟨S8x256x4096, .f32⟩ : BufTy).Contents (Elt F) → (⟨S8x256x4096x1, .f32⟩ : BufTy).Contents (Elt F)) ]

theorem opsB_sub : (opsB : List (HloOp τ sig (Elt F))).Forall fun op => op.bufs ⊆ tcRefs τ sig :=
  ⟨nullary_bufs_sub .., unary_bufs_sub .., binary_bufs_sub .., unary_bufs_sub .., unary_bufs_sub .., binary_bufs_sub .., nullary_bufs_sub .., unary_bufs_sub .., unary_bufs_sub .., unary_bufs_sub .., ternary_bufs_sub .., nullary_bufs_sub .., unary_bufs_sub .., binary_bufs_sub .., unary_bufs_sub .., unary_bufs_sub .., binary_bufs_sub .., nullary_bufs_sub .., unary_bufs_sub .., unary_bufs_sub .., unary_bufs_sub .., ternary_bufs_sub .., nullary_bufs_sub .., unary_bufs_sub .., binary_bufs_sub .., unary_bufs_sub .., unary_bufs_sub .., binary_bufs_sub .., nullary_bufs_sub .., unary_bufs_sub .., unary_bufs_sub .., unary_bufs_sub .., ternary_bufs_sub .., nullary_bufs_sub .., unary_bufs_sub .., binary_bufs_sub .., unary_bufs_sub .., unary_bufs_sub .., binary_bufs_sub .., nullary_bufs_sub .., unary_bufs_sub .., unary_bufs_sub .., unary_bufs_sub .., ternary_bufs_sub .., unary_bufs_sub .., unary_bufs_sub .., unary_bufs_sub .., unary_bufs_sub .., unary_bufs_sub .., unary_bufs_sub .., unary_bufs_sub .., unary_bufs_sub ..⟩

theorem opsB_fresh : ∀ op ∈ (opsB : List (HloOp τ sig (Elt F))), op.fresh = ∅ := by
  intro _ h; (repeat (cases h with | head => rfl | tail _ h => ?_)); exact nomatch h

/-- After the stretch, from contents that hold the index vector and the first four masked shifts:
    the eight broadcast copies are the staged values; the index vector is untouched. -/
theorem runB (W : Valuation τ sig (Elt F))
    (x0 : (⟨S8x256x4096, .f32⟩ : BufTy).Contents (Elt F)) (x1 : (⟨S8x4096, .f32⟩ : BufTy).Contents (Elt F))
    (x2 : (⟨S1x1x8, .f32⟩ : BufTy).Contents (Elt F))
    (h0 : W (Proc.devRef .tc main_arg0) = x0) (h1 : W (Proc.devRef .tc main_arg1) = x1)
    (h2 : W (Proc.devRef .tc main_arg2) = x2)
    (hv0 : W (Proc.devRef .tc main_v0) = RefRead.val_main_v0 (F := F))
    (hv4 : W (Proc.devRef .tc main_v4) = RefRead.val_main_v4 (F := F) x0)
    (hv8 : W (Proc.devRef .tc main_v8) = RefRead.val_main_v8 (F := F) x0)
    (hv12 : W (Proc.devRef .tc main_v12) = RefRead.val_main_v12 (F := F) x0)
    (hv16 : W (Proc.devRef .tc main_v16) = RefRead.val_main_v16 (F := F) x0) :
    after (opsB (F := F)) W (Proc.devRef .tc main_arg0) = x0
    ∧ after (opsB (F := F)) W (Proc.devRef .tc main_arg1) = x1
    ∧ after (opsB (F := F)) W (Proc.devRef .tc main_arg2) = x2
    ∧ after (opsB (F := F)) W (Proc.devRef .tc main_v0) = RefRead.val_main_v0 (F := F)
    ∧ after (opsB (F := F)) W (Proc.devRef .tc main_v33) = RefRead.val_main_v33 (F := F) x0
    ∧ after (opsB (F := F)) W (Proc.devRef .tc main_v34) = RefRead.val_main_v34 (F := F) x0
    ∧ after (opsB (F := F)) W (Proc.devRef .tc main_v35) = RefRead.val_main_v35 (F := F) x0
    ∧ after (opsB (F := F)) W (Proc.devRef .tc main_v36) = RefRead.val_main_v36 (F := F) x0
    ∧ after (opsB (F := F)) W (Proc.devRef .tc main_v37) = RefRead.val_main_v37 (F := F) x0
    ∧ after (opsB (F := F)) W (Proc.devRef .tc main_v38) = RefRead.val_main_v38 (F := F) x0
    ∧ after (opsB (F := F)) W (Proc.devRef .tc main_v39) = RefRead.val_main_v39 (F := F) x0
    ∧ after (opsB (F := F)) W (Proc.devRef .tc main_v40) = RefRead.val_main_v40 (F := F) x0 := by
  subst h0 h1 h2
  refine ⟨?_, ?_, ?_, ?_, ?_, ?_, ?_, ?_, ?_, ?_, ?_, ?_⟩ <;> after_results_simp <;>
    (try simp only [hv0, hv4, hv8, hv12, hv16]) <;> rfl

end Cert.ReferenceIdeal.RefRun

end
-- ==== Proof.RefRunC.lean ====
/- The run of the reference program, third stretch: the eight masked shifts stacked along the
   trailing axis into the windowed samples, and the first two operations of the time-difference table
   (the lag 0 as an index constant, broadcast along the positions). -/
import proofs.«121142_j83648783057347_2_alg».proof.Proof.RefRead

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 98 to 100: the stack of the eight broadcast shifts along the last axis; the integer
    constant 0 and its broadcast to the 4096 positions. -/
abbrev opsC : List (HloOp τ sig (Elt F)) :=
  [ nary ![main_v33, main_v34, main_v35, main_v36, main_v37, main_v38, main_v39, main_v40] main_v41 (fun u => concatenate S8x256x4096x8 3 [⟨S8x256x4096x1, u 0⟩, ⟨S8x256x4096x1, u 1⟩, ⟨S8x256x4096x1, u 2⟩, ⟨S8x256x4096x1, u 3⟩, ⟨S8x256x4096x1, u 4⟩, ⟨S8x256x4096x1, u 5⟩, ⟨S8x256x4096x1, u 6⟩, ⟨S8x256x4096x1, u 7⟩] concatenates_S8x256x4096x1_S8x256x4096x1_S8x256x4096x1_S8x256x4096x1_S8x256x4096x1_S8x256x4096x1_S8x256x4096x1_S8x256x4096x1_S8x256x4096x8_d3),
    nullary main_c_14 (constantI S_ 32 0#32),
    unary main_c_14 main_v42 (broadcastInDim S4096 ![] bcast_S_S4096 : (⟨S_, .i32⟩ : BufTy).Contents (Elt F) → (⟨S4096, .i32⟩ : BufTy).Contents (Elt F)) ]

theorem opsC_sub : (opsC : List (HloOp τ sig (Elt F))).Forall fun op => op.bufs ⊆ tcRefs τ sig :=
  ⟨nary_bufs_sub .., nullary_bufs_sub .., unary_bufs_sub ..⟩

theorem opsC_fresh : ∀ op ∈ (opsC : List (HloOp τ sig (Elt F))), op.fresh = ∅ := by
  intro _ h; (repeat (cases h with | head => rfl | tail _ h => ?_)); exact nomatch h

/-- After the stretch, from contents that hold the eight broadcast shifts: the stack is the staged
    value of the windowed samples; the index vector is untouched. The stack reads its operands through
    a table of references, so the staged value is unfolded once and compared operand by operand. -/
theorem runC (W : Valuation τ sig (Elt F))
    (x0 : (⟨S8x256x4096, .f32⟩ : BufTy).Contents (Elt F)) (x1 : (⟨S8x4096, .f32⟩ : BufTy).Contents (Elt F))
    (x2 : (⟨S1x1x8, .f32⟩ : BufTy).Contents (Elt F))
    (h0 : W (Proc.devRef .tc main_arg0) = x0) (h1 : W (Proc.devRef .tc main_arg1) = x1)
    (h2 : W (Proc.devRef .tc main_arg2) = x2)
    (hv0 : W (Proc.devRef .tc main_v0) = RefRead.val_main_v0 (F := F))
    (hv33 : W (Proc.devRef .tc main_v33) = RefRead.val_main_v33 (F := F) x0)
    (hv34 : W (Proc.devRef .tc main_v34) = RefRead.val_main_v34 (F := F) x0)
    (hv35 : W (Proc.devRef .tc main_v35) = RefRead.val_main_v35 (F := F) x0)
    (hv36 : W (Proc.devRef .tc main_v36) = RefRead.val_main_v36 (F := F) x0)
    (hv37 : W (Proc.devRef .tc main_v37) = RefRead.val_main_v37 (F := F) x0)
    (hv38 : W (Proc.devRef .tc main_v38) = RefRead.val_main_v38 (F := F) x0)
    (hv39 : W (Proc.devRef .tc main_v39) = RefRead.val_main_v39 (F := F) x0)
    (hv40 : W (Proc.devRef .tc main_v40) = RefRead.val_main_v40 (F := F) x0) :
    after (opsC (F := F)) W (Proc.devRef .tc main_arg0) = x0
    ∧ after (opsC (F := F)) W (Proc.devRef .tc main_arg1) = x1
    ∧ after (opsC (F := F)) W (Proc.devRef .tc main_arg2) = x2
    ∧ after (opsC (F := F)) W (Proc.devRef .tc main_v0) = RefRead.val_main_v0 (F := F)
    ∧ after (opsC (F := F)) W (Proc.devRef .tc main_v41) = RefRead.val_main_v41 (F := F) x0
    ∧ after (opsC (F := F)) W (Proc.devRef .tc main_v42) = RefRead.val_main_v42 (F := F) := by
  refine ⟨?_, ?_, ?_, ?_, ?_, ?_⟩
  · after_results_simp; exact h0
  · after_results_simp; exact h1
  · after_results_simp; exact h2
  · after_results_simp; exact hv0
  · after_results_simp
    unfold RefRead.val_main_v41
    rw [← hv33, ← hv34, ← hv35, ← hv36, ← hv37, ← hv38, ← hv39, ← hv40]
    rfl
  · after_results_simp; rfl

end Cert.ReferenceIdeal.RefRun

end
-- ==== Proof.RefRunD.lean ====
/- The run of the reference program, fourth stretch: the time differences for the lags 0, 1, 2, 3.
   For each lag the time stamps are rotated by the lag along the positions, the positions before the
   lag are set to a large constant, and the time stamps themselves are subtracted. -/
import proofs.«121142_j83648783057347_2_alg».proof.Proof.RefRead

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 101 to 146: the comparison for the lag 0; then for each of the lags 0, …, 3 the
    rotation of the time stamps (two slices and their concatenation), the selection of the large
    constant where the index is below the lag, the subtraction of the time stamps, and the index
    constant and comparison of the next lag. -/
abbrev opsD : List (HloOp τ sig (Elt F)) :=
  [ binary main_v0 main_v42 main_v43 (cmpi .slt : (⟨S4096, .i32⟩ : BufTy).Contents (Elt F) → (⟨S4096, .i32⟩ : BufTy).Contents (Elt F) → (⟨S4096, .i1⟩ : BufTy).Contents (Elt F)),
    TRef.unary (TRef.of (T := ⟨S8x4096, .f32⟩) main_arg1) (TRef.of (T := ⟨S8x4096, .f32⟩) main_call16_v0) (extractStridedSlice S8x4096 ![0, 0] · slices_S8x4096_S8x4096_0_0),
    TRef.unary (TRef.of (T := ⟨S8x4096, .f32⟩) main_arg1) (TRef.of (T := ⟨S8x0, .f32⟩) main_call16_v1) (extractStridedSlice S8x0 ![0, 0] · slices_S8x4096_S8x0_0_0),
    TRef.binary (TRef.of (T := ⟨S8x4096, .f32⟩) main_call16_v0) (TRef.of (T := ⟨S8x0, .f32⟩) main_call16_v1) (TRef.of (T := ⟨S8x4096, .f32⟩) main_v44) (fun a b => concatenate S8x4096 1 [⟨S8x4096, a⟩, ⟨S8x0, b⟩] concatenates_S8x4096_S8x0_S8x4096_d1),
    nullary main_cst_15 (constant S_ .f32 0x60AD78EC#32),
    TRef.unary (TRef.of (T := ⟨S_, .f32⟩) main_cst_15) (TRef.of (T := ⟨S_, .f32⟩) main_call17_v0) id,
    TRef.unary (TRef.of (T := ⟨S4096, .i1⟩) main_v43) (TRef.of (T := ⟨S8x4096, .i1⟩) main_call17_v1) (broadcastInDim S8x4096 ![1] bcast_S4096_S8x4096_1),
    TRef.unary (TRef.of (T := ⟨S_, .f32⟩) main_call17_v0) (TRef.of (T := ⟨S8x4096, .f32⟩) main_call17_v2) (broadcastInDim S8x4096 ![] bcast_S_S8x4096),
    TRef.ternary (TRef.of (T := ⟨S8x4096, .i1⟩) main_call17_v1) (TRef.of (T := ⟨S8x4096, .f32⟩) main_call17_v2) (TRef.of (T := ⟨S8x4096, .f32⟩) main_v44) (TRef.of (T := ⟨S8x4096, .f32⟩) main_v45) select,
    binary main_v45 main_arg1 main_v46 (subf : (⟨S8x4096, .f32⟩ : BufTy).Contents (Elt F) → (⟨S8x4096, .f32⟩ : BufTy).Contents (Elt F) → (⟨S8x4096, .f32⟩ : BufTy).Contents (Elt F)),
    nullary main_c_16 (constantI S_ 32 1#32),
    unary main_c_16 main_v47 (broadcastInDim S4096 ![] bcast_S_S4096 : (⟨S_, .i32⟩ : BufTy).Contents (Elt F) → (⟨S4096, .i32⟩ : BufTy).Contents (Elt F)),
    binary main_v0 main_v47 main_v48 (cmpi .slt : (⟨S4096, .i32⟩ : BufTy).Contents (Elt F) → (⟨S4096, .i32⟩ : BufTy).Contents (Elt F) → (⟨S4096, .i1⟩ : BufTy).Contents (Elt F)),
    TRef.unary (TRef.of (T := ⟨S8x4096, .f32⟩) main_arg1) (TRef.of (T := ⟨S8x1, .f32⟩) main_call18_v0) (extractStridedSlice S8x1 ![0, 4095] · slices_S8x4096_S8x1_0_4095),
    TRef.unary (TRef.of (T := ⟨S8x4096, .f32⟩) main_arg1) (TRef.of (T := ⟨S8x4095, .f32⟩) main_call18_v1) (extractStridedSlice S8x4095 ![0, 0] · slices_S8x4096_S8x4095_0_0),
    TRef.binary (TRef.of (T := ⟨S8x1, .f32⟩) main_call18_v0) (TRef.of (T := ⟨S8x4095, .f32⟩) main_call18_v1) (TRef.of (T := ⟨S8x4096, .f32⟩) main_v49) (fun a b => concatenate S8x4096 1 [⟨S8x1, a⟩, ⟨S8x4095, b⟩] concatenates_S8x1_S8x4095_S8x4096_d1),
    nullary main_cst_17 (constant S_ .f32 0x60AD78EC#32),
    TRef.unary (TRef.of (T := ⟨S_, .f32⟩) main_cst_17) (TRef.of (T := ⟨S_, .f32⟩) main_call19_v0) id,
    TRef.unary (TRef.of (T := ⟨S4096, .i1⟩) main_v48) (TRef.of (T := ⟨S8x4096, .i1⟩) main_call19_v1) (broadcastInDim S8x4096 ![1] bcast_S4096_S8x4096_1),
    TRef.unary (TRef.of (T := ⟨S_, .f32⟩) main_call19_v0) (TRef.of (T := ⟨S8x4096, .f32⟩) main_call19_v2) (broadcastInDim S8x4096 ![] bcast_S_S8x4096),
    TRef.ternary (TRef.of (T := ⟨S8x4096, .i1⟩) main_call19_v1) (TRef.of (T := ⟨S8x4096, .f32⟩) main_call19_v2) (TRef.of (T := ⟨S8x4096, .f32⟩) main_v49) (TRef.of (T := ⟨S8x4096, .f32⟩) main_v50) select,
    binary main_v50 main_arg1 main_v51 (subf : (⟨S8x4096, .f32⟩ : BufTy).Contents (Elt F) → (⟨S8x4096, .f32⟩ : BufTy).Contents (Elt F) → (⟨S8x4096, .f32⟩ : BufTy).Contents (Elt F)),
    nullary main_c_18 (constantI S_ 32 2#32),
    unary main_c_18 main_v52 (broadcastInDim S4096 ![] bcast_S_S4096 : (⟨S_, .i32⟩ : BufTy).Contents (Elt F) → (⟨S4096, .i32⟩ : BufTy).Contents (Elt F)),
    binary main_v0 main_v52 main_v53 (cmpi .slt : (⟨S4096, .i32⟩ : BufTy).Contents (Elt F) → (⟨S4096, .i32⟩ : BufTy).Contents (Elt F) → (⟨S4096, .i1⟩ : BufTy).Contents (Elt F)),
    TRef.unary (TRef.of (T := ⟨S8x4096, .f32⟩) main_arg1) (TRef.of (T := ⟨S8x2, .f32⟩) main_call20_v0) (extractStridedSlice S8x2 ![0, 4094] · slices_S8x4096_S8x2_0_4094),
    TRef.unary (TRef.of (T := ⟨S8x4096, .f32⟩) main_arg1) (TRef.of (T := ⟨S8x4094, .f32⟩) main_call20_v1) (extractStridedSlice S8x4094 ![0, 0] · slices_S8x4096_S8x4094_0_0),
    TRef.binary (TRef.of (T := ⟨S8x2, .f32⟩) main_call20_v0) (TRef.of (T := ⟨S8x4094, .f32⟩) main_call20_v1) (TRef.of (T := ⟨S8x4096, .f32⟩) main_v54) (fun a b => concatenate S8x4096 1 [⟨S8x2, a⟩, ⟨S8x4094, b⟩] concatenates_S8x2_S8x4094_S8x4096_d1),
    nullary main_cst_19 (constant S_ .f32 0x60AD78EC#32),
    TRef.unary (TRef.of (T := ⟨S_, .f32⟩) main_cst_19) (TRef.of (T := ⟨S_, .f32⟩) main_call21_v0) id,
    TRef.unary (TRef.of (T := ⟨S4096, .i1⟩) main_v53) (TRef.of (T := ⟨S8x4096, .i1⟩) main_call21_v1) (broadcastInDim S8x4096 ![1] bcast_S4096_S8x4096_1),
    TRef.unary (TRef.of (T := ⟨S_, .f32⟩) main_call21_v0) (TRef.of (T := ⟨S8x4096, .f32⟩) main_call21_v2) (broadcastInDim S8x4096 ![] bcast_S_S8x4096),
    TRef.ternary (TRef.of (T := ⟨S8x4096, .i1⟩) main_call21_v1) (TRef.of (T := ⟨S8x4096, .f32⟩) main_call21_v2) (TRef.of (T := ⟨S8x4096, .f32⟩) main_v54) (TRef.of (T := ⟨S8x4096, .f32⟩) main_v55) select,
    binary main_v55 main_arg1 main_v56 (subf : (⟨S8x4096, .f32⟩ : BufTy).Contents (Elt F) → (⟨S8x4096, .f32⟩ : BufTy).Contents (Elt F) → (⟨S8x4096, .f32⟩ : BufTy).Contents (Elt F)),
    nullary main_c_20 (constantI S_ 32 3#32),
    unary main_c_20 main_v57 (broadcastInDim S4096 ![] bcast_S_S4096 : (⟨S_, .i32⟩ : BufTy).Contents (Elt F) → (⟨S4096, .i32⟩ : BufTy).Contents (Elt F)),
    binary main_v0 main_v57 main_v58 (cmpi .slt : (⟨S4096, .i32⟩ : BufTy).Contents (Elt F) → (⟨S4096, .i32⟩ : BufTy).Contents (Elt F) → (⟨S4096, .i1⟩ : BufTy).Contents (Elt F)),
    TRef.unary (TRef.of (T := ⟨S8x4096, .f32⟩) main_arg1) (TRef.of (T := ⟨S8x3, .f32⟩) main_call22_v0) (extractStridedSlice S8x3 ![0, 4093] · slices_S8x4096_S8x3_0_4093),
    TRef.unary (TRef.of (T := ⟨S8x4096, .f32⟩) main_arg1) (TRef.of (T := ⟨S8x4093, .f32⟩) main_call22_v1) (extractStridedSlice S8x4093 ![0, 0] · slices_S8x4096_S8x4093_0_0),
    TRef.binary (TRef.of (T := ⟨S8x3, .f32⟩) main_call22_v0) (TRef.of (T := ⟨S8x4093, .f32⟩) main_call22_v1) (TRef.of (T := ⟨S8x4096, .f32⟩) main_v59) (fun a b => concatenate S8x4096 1 [⟨S8x3, a⟩, ⟨S8x4093, b⟩] concatenates_S8x3_S8x4093_S8x4096_d1),
    nullary main_cst_21 (constant S_ .f32 0x60AD78EC#32),
    TRef.unary (TRef.of (T := ⟨S_, .f32⟩) main_cst_21) (TRef.of (T := ⟨S_, .f32⟩) main_call23_v0) id,
    TRef.unary (TRef.of (T := ⟨S4096, .i1⟩) main_v58) (TRef.of (T := ⟨S8x4096, .i1⟩) main_call23_v1) (broadcastInDim S8x4096 ![1] bcast_S4096_S8x4096_1),
    TRef.unary (TRef.of (T := ⟨S_, .f32⟩) main_call23_v0) (TRef.of (T := ⟨S8x4096, .f32⟩) main_call23_v2) (broadcastInDim S8x4096 ![] bcast_S_S8x4096),
    TRef.ternary (TRef.of (T := ⟨S8x4096, .i1⟩) main_call23_v1) (TRef.of (T := ⟨S8x4096, .f32⟩) main_call23_v2) (TRef.of (T := ⟨S8x4096, .f32⟩) main_v59) (TRef.of (T := ⟨S8x4096, .f32⟩) main_v60) select,
    binary main_v60 main_arg1 main_v61 (subf : (⟨S8x4096, .f32⟩ : BufTy).Contents (Elt F) → (⟨S8x4096, .f32⟩ : BufTy).Contents (Elt F) → (⟨S8x4096, .f32⟩ : BufTy).Contents (Elt F)) ]

theorem opsD_sub : (opsD : List (HloOp τ sig (Elt F))).Forall fun op => op.bufs ⊆ tcRefs τ sig :=
  ⟨binary_bufs_sub .., unary_bufs_sub .., unary_bufs_sub .., binary_bufs_sub .., nullary_bufs_sub .., unary_bufs_sub .., unary_bufs_sub .., unary_bufs_sub .., ternary_bufs_sub .., binary_bufs_sub .., nullary_bufs_sub .., unary_bufs_sub .., binary_bufs_sub .., unary_bufs_sub .., unary_bufs_sub .., binary_bufs_sub .., nullary_bufs_sub .., unary_bufs_sub .., unary_bufs_sub .., unary_bufs_sub .., ternary_bufs_sub .., binary_bufs_sub .., nullary_bufs_sub .., unary_bufs_sub .., binary_bufs_sub .., unary_bufs_sub .., unary_bufs_sub .., binary_bufs_sub .., nullary_bufs_sub .., unary_bufs_sub .., unary_bufs_sub .., unary_bufs_sub .., ternary_bufs_sub .., binary_bufs_sub .., nullary_bufs_sub .., unary_bufs_sub .., binary_bufs_sub .., unary_bufs_sub .., unary_bufs_sub .., binary_bufs_sub .., nullary_bufs_sub .., unary_bufs_sub .., unary_bufs_sub .., unary_bufs_sub .., ternary_bufs_sub .., binary_bufs_sub ..⟩

theorem opsD_fresh : ∀ op ∈ (opsD : List (HloOp τ sig (Elt F))), op.fresh = ∅ := by
  intro _ h; (repeat (cases h with | head => rfl | tail _ h => ?_)); exact nomatch h

/-- After the stretch, from contents that hold the index vector and the broadcast lag 0: the four
    time differences are the staged values; the index vector and the windowed samples are untouched. -/
theorem runD (W : Valuation τ sig (Elt F))
    (x0 : (⟨S8x256x4096, .f32⟩ : BufTy).Contents (Elt F)) (x1 : (⟨S8x4096, .f32⟩ : BufTy).Contents (Elt F))
    (x2 : (⟨S1x1x8, .f32⟩ : BufTy).Contents (Elt F))
    (h0 : W (Proc.devRef .tc main_arg0) = x0) (h1 : W (Proc.devRef .tc main_arg1) = x1)
    (h2 : W (Proc.devRef .tc main_arg2) = x2)
    (hv0 : W (Proc.devRef .tc main_v0) = RefRead.val_main_v0 (F := F))
    (hv41 : W (Proc.devRef .tc main_v41) = RefRead.val_main_v41 (F := F) x0)
    (hv42 : W (Proc.devRef .tc main_v42) = RefRead.val_main_v42 (F := F)) :
    after (opsD (F := F)) W (Proc.devRef .tc main_arg0) = x0
    ∧ after (opsD (F := F)) W (Proc.devRef .tc main_arg1) = x1
    ∧ after (opsD (F := F)) W (Proc.devRef .tc main_arg2) = x2
    ∧ after (opsD (F := F)) W (Proc.devRef .tc main_v0) = RefRead.val_main_v0 (F := F)
    ∧ after (opsD (F := F)) W (Proc.devRef .tc main_v41) = RefRead.val_main_v41 (F := F) x0
    ∧ after (opsD (F := F)) W (Proc.devRef .tc main_v46) = RefRead.val_main_v46 (F := F) x1
    ∧ after (opsD (F := F)) W (Proc.devRef .tc main_v51) = RefRead.val_main_v51 (F := F) x1
    ∧ after (opsD (F := F)) W (Proc.devRef .tc main_v56) = RefRead.val_main_v56 (F := F) x1
    ∧ after (opsD (F := F)) W (Proc.devRef .tc main_v61) = RefRead.val_main_v61 (F := F) x1 := by
  subst h0 h1 h2
  refine ⟨?_, ?_, ?_, ?_, ?_, ?_, ?_, ?_, ?_⟩ <;> after_results_simp <;>
    (try simp only [hv0, hv41, hv42]) <;> rfl

end Cert.ReferenceIdeal.RefRun

end
-- ==== Proof.RefRunE.lean ====
/- The run of the reference program, fifth stretch: the time differences for the lags 4, 5, 6, 7,
   and the first six of the eight differences given a trailing axis of length one. -/
import proofs.«121142_j83648783057347_2_alg».proof.Proof.RefRead

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 147 to 200: for the lags 4, …, 7 the index constant, the comparison, the rotation of
    the time stamps, the selection of the large constant and the subtraction; then the differences of
    the lags 0, …, 5, each broadcast to a trailing unit axis. -/
abbrev opsE : List (HloOp τ sig (Elt F)) :=
  [ nullary main_c_22 (constantI S_ 32 4#32),
    unary main_c_22 main_v62 (broadcastInDim S4096 ![] bcast_S_S4096 : (⟨S_, .i32⟩ : BufTy).Contents (Elt F) → (⟨S4096, .i32⟩ : BufTy).Contents (Elt F)),
    binary main_v0 main_v62 main_v63 (cmpi .slt : (⟨S4096, .i32⟩ : BufTy).Contents (Elt F) → (⟨S4096, .i32⟩ : BufTy).Contents (Elt F) → (⟨S4096, .i1⟩ : BufTy).Contents (Elt F)),
    TRef.unary (TRef.of (T := ⟨S8x4096, .f32⟩) main_arg1) (TRef.of (T := ⟨S8x4, .f32⟩) main_call24_v0) (extractStridedSlice S8x4 ![0, 4092] · slices_S8x4096_S8x4_0_4092),
    TRef.unary (TRef.of (T := ⟨S8x4096, .f32⟩) main_arg1) (TRef.of (T := ⟨S8x4092, .f32⟩) main_call24_v1) (extractStridedSlice S8x4092 ![0, 0] · slices_S8x4096_S8x4092_0_0),
    TRef.binary (TRef.of (T := ⟨S8x4, .f32⟩) main_call24_v0) (TRef.of (T := ⟨S8x4092, .f32⟩) main_call24_v1) (TRef.of (T := ⟨S8x4096, .f32⟩) main_v64) (fun a b => concatenate S8x4096 1 [⟨S8x4, a⟩, ⟨S8x4092, b⟩] concatenates_S8x4_S8x4092_S8x4096_d1),
    nullary main_cst_23 (constant S_ .f32 0x60AD78EC#32),
    TRef.unary (TRef.of (T := ⟨S_, .f32⟩) main_cst_23) (TRef.of (T := ⟨S_, .f32⟩) main_call25_v0) id,
    TRef.unary (TRef.of (T := ⟨S4096, .i1⟩) main_v63) (TRef.of (T := ⟨S8x4096, .i1⟩) main_call25_v1) (broadcastInDim S8x4096 ![1] bcast_S4096_S8x4096_1),
    TRef.unary (TRef.of (T := ⟨S_, .f32⟩) main_call25_v0) (TRef.of (T := ⟨S8x4096, .f32⟩) main_call25_v2) (broadcastInDim S8x4096 ![] bcast_S_S8x4096),
    TRef.ternary (TRef.of (T := ⟨S8x4096, .i1⟩) main_call25_v1) (TRef.of (T := ⟨S8x4096, .f32⟩) main_call25_v2) (TRef.of (T := ⟨S8x4096, .f32⟩) main_v64) (TRef.of (T := ⟨S8x4096, .f32⟩) main_v65) select,
    binary main_v65 main_arg1 main_v66 (subf : (⟨S8x4096, .f32⟩ : BufTy).Contents (Elt F) → (⟨S8x4096, .f32⟩ : BufTy).Contents (Elt F) → (⟨S8x4096, .f32⟩ : BufTy).Contents (Elt F)),
    nullary main_c_24 (constantI S_ 32 5#32),
    unary main_c_24 main_v67 (broadcastInDim S4096 ![] bcast_S_S4096 : (⟨S_, .i32⟩ : BufTy).Contents (Elt F) → (⟨S4096, .i32⟩ : BufTy).Contents (Elt F)),
    binary main_v0 main_v67 main_v68 (cmpi .slt : (⟨S4096, .i32⟩ : BufTy).Contents (Elt F) → (⟨S4096, .i32⟩ : BufTy).Contents (Elt F) → (⟨S4096, .i1⟩ : BufTy).Contents (Elt F)),
    TRef.unary (TRef.of (T := ⟨S8x4096, .f32⟩) main_arg1) (TRef.of (T := ⟨S8x5, .f32⟩) main_call26_v0) (extractStridedSlice S8x5 ![0, 4091] · slices_S8x4096_S8x5_0_4091),
    TRef.unary (TRef.of (T := ⟨S8x4096, .f32⟩) main_arg1) (TRef.of (T := ⟨S8x4091, .f32⟩) main_call26_v1) (extractStridedSlice S8x4091 ![0, 0] · slices_S8x4096_S8x4091_0_0),
    TRef.binary (TRef.of (T := ⟨S8x5, .f32⟩) main_call26_v0) (TRef.of (T := ⟨S8x4091, .f32⟩) main_call26_v1) (TRef.of (T := ⟨S8x4096, .f32⟩) main_v69) (fun a b => concatenate S8x4096 1 [⟨S8x5, a⟩, ⟨S8x4091, b⟩] concatenates_S8x5_S8x4091_S8x4096_d1),
    nullary main_cst_25 (constant S_ .f32 0x60AD78EC#32),
    TRef.unary (TRef.of (T := ⟨S_, .f32⟩) main_cst_25) (TRef.of (T := ⟨S_, .f32⟩) main_call27_v0) id,
    TRef.unary (TRef.of (T := ⟨S4096, .i1⟩) main_v68) (TRef.of (T := ⟨S8x4096, .i1⟩) main_call27_v1) (broadcastInDim S8x4096 ![1] bcast_S4096_S8x4096_1),
    TRef.unary (TRef.of (T := ⟨S_, .f32⟩) main_call27_v0) (TRef.of (T := ⟨S8x4096, .f32⟩) main_call27_v2) (broadcastInDim S8x4096 ![] bcast_S_S8x4096),
    TRef.ternary (TRef.of (T := ⟨S8x4096, .i1⟩) main_call27_v1) (TRef.of (T := ⟨S8x4096, .f32⟩) main_call27_v2) (TRef.of (T := ⟨S8x4096, .f32⟩) main_v69) (TRef.of (T := ⟨S8x4096, .f32⟩) main_v70) select,
    binary main_v70 main_arg1 main_v71 (subf : (⟨S8x4096, .f32⟩ : BufTy).Contents (Elt F) → (⟨S8x4096, .f32⟩ : BufTy).Contents (Elt F) → (⟨S8x4096, .f32⟩ : BufTy).Contents (Elt F)),
    nullary main_c_26 (constantI S_ 32 6#32),
    unary main_c_26 main_v72 (broadcastInDim S4096 ![] bcast_S_S4096 : (⟨S_, .i32⟩ : BufTy).Contents (Elt F) → (⟨S4096, .i32⟩ : BufTy).Contents (Elt F)),
    binary main_v0 main_v72 main_v73 (cmpi .slt : (⟨S4096, .i32⟩ : BufTy).Contents (Elt F) → (⟨S4096, .i32⟩ : BufTy).Contents (Elt F) → (⟨S4096, .i1⟩ : BufTy).Contents (Elt F)),
    TRef.unary (TRef.of (T := ⟨S8x4096, .f32⟩) main_arg1) (TRef.of (T := ⟨S8x6, .f32⟩) main_call28_v0) (extractStridedSlice S8x6 ![0, 4090] · slices_S8x4096_S8x6_0_4090),
    TRef.unary (TRef.of (T := ⟨S8x4096, .f32⟩) main_arg1) (TRef.of (T := ⟨S8x4090, .f32⟩) main_call28_v1) (extractStridedSlice S8x4090 ![0, 0] · slices_S8x4096_S8x4090_0_0),
    TRef.binary (TRef.of (T := ⟨S8x6, .f32⟩) main_call28_v0) (TRef.of (T := ⟨S8x4090, .f32⟩) main_call28_v1) (TRef.of (T := ⟨S8x4096, .f32⟩) main_v74) (fun a b => concatenate S8x4096 1 [⟨S8x6, a⟩, ⟨S8x4090, b⟩] concatenates_S8x6_S8x4090_S8x4096_d1),
    nullary main_cst_27 (constant S_ .f32 0x60AD78EC#32),
    TRef.unary (TRef.of (T := ⟨S_, .f32⟩) main_cst_27) (TRef.of (T := ⟨S_, .f32⟩) main_call29_v0) id,
    TRef.unary (TRef.of (T := ⟨S4096, .i1⟩) main_v73) (TRef.of (T := ⟨S8x4096, .i1⟩) main_call29_v1) (broadcastInDim S8x4096 ![1] bcast_S4096_S8x4096_1),
    TRef.unary (TRef.of (T := ⟨S_, .f32⟩) main_call29_v0) (TRef.of (T := ⟨S8x4096, .f32⟩) main_call29_v2) (broadcastInDim S8x4096 ![] bcast_S_S8x4096),
    TRef.ternary (TRef.of (T := ⟨S8x4096, .i1⟩) main_call29_v1) (TRef.of (T := ⟨S8x4096, .f32⟩) main_call29_v2) (TRef.of (T := ⟨S8x4096, .f32⟩) main_v74) (TRef.of (T := ⟨S8x4096, .f32⟩) main_v75) select,
    binary main_v75 main_arg1 main_v76 (subf : (⟨S8x4096, .f32⟩ : BufTy).Contents (Elt F) → (⟨S8x4096, .f32⟩ : BufTy).Contents (Elt F) → (⟨S8x4096, .f32⟩ : BufTy).Contents (Elt F)),
    nullary main_c_28 (constantI S_ 32 7#32),
    unary main_c_28 main_v77 (broadcastInDim S4096 ![] bcast_S_S4096 : (⟨S_, .i32⟩ : BufTy).Contents (Elt F) → (⟨S4096, .i32⟩ : BufTy).Contents (Elt F)),
    binary main_v0 main_v77 main_v78 (cmpi .slt : (⟨S4096, .i32⟩ : BufTy).Contents (Elt F) → (⟨S4096, .i32⟩ : BufTy).Contents (Elt F) → (⟨S4096, .i1⟩ : BufTy).Contents (Elt F)),
    TRef.unary (TRef.of (T := ⟨S8x4096, .f32⟩) main_arg1) (TRef.of (T := ⟨S8x7, .f32⟩) main_call30_v0) (extractStridedSlice S8x7 ![0, 4089] · slices_S8x4096_S8x7_0_4089),
    TRef.unary (TRef.of (T := ⟨S8x4096, .f32⟩) main_arg1) (TRef.of (T := ⟨S8x4089, .f32⟩) main_call30_v1) (extractStridedSlice S8x4089 ![0, 0] · slices_S8x4096_S8x4089_0_0),
    TRef.binary (TRef.of (T := ⟨S8x7, .f32⟩) main_call30_v0) (TRef.of (T := ⟨S8x4089, .f32⟩) main_call30_v1) (TRef.of (T := ⟨S8x4096, .f32⟩) main_v79) (fun a b => concatenate S8x4096 1 [⟨S8x7, a⟩, ⟨S8x4089, b⟩] concatenates_S8x7_S8x4089_S8x4096_d1),
    nullary main_cst_29 (constant S_ .f32 0x60AD78EC#32),
    TRef.unary (TRef.of (T := ⟨S_, .f32⟩) main_cst_29) (TRef.of (T := ⟨S_, .f32⟩) main_call31_v0) id,
    TRef.unary (TRef.of (T := ⟨S4096, .i1⟩) main_v78) (TRef.of (T := ⟨S8x4096, .i1⟩) main_call31_v1) (broadcastInDim S8x4096 ![1] bcast_S4096_S8x4096_1),
    TRef.unary (TRef.of (T := ⟨S_, .f32⟩) main_call31_v0) (TRef.of (T := ⟨S8x4096, .f32⟩) main_call31_v2) (broadcastInDim S8x4096 ![] bcast_S_S8x4096),
    TRef.ternary (TRef.of (T := ⟨S8x4096, .i1⟩) main_call31_v1) (TRef.of (T := ⟨S8x4096, .f32⟩) main_call31_v2) (TRef.of (T := ⟨S8x4096, .f32⟩) main_v79) (TRef.of (T := ⟨S8x4096, .f32⟩) main_v80) select,
    binary main_v80 main_arg1 main_v81 (subf : (⟨S8x4096, .f32⟩ : BufTy).Contents (Elt F) → (⟨S8x4096, .f32⟩ : BufTy).Contents (Elt F) → (⟨S8x4096, .f32⟩ : BufTy).Contents (Elt F)),
    unary main_v46 main_v82 (broadcastInDim S8x4096x1 ![0, 1] bcast_S8x4096_S8x4096x1_0_1 : (⟨S8x4096, .f32⟩ : BufTy).Contents (Elt F) → (⟨S8x4096x1, .f32⟩ : BufTy).Contents (Elt F)),
    unary main_v51 main_v83 (broadcastInDim S8x4096x1 ![0, 1] bcast_S8x4096_S8x4096x1_0_1 : (⟨S8x4096, .f32⟩ : BufTy).Contents (Elt F) → (⟨S8x4096x1, .f32⟩ : BufTy).Contents (Elt F)),
    unary main_v56 main_v84 (broadcastInDim S8x4096x1 ![0, 1] bcast_S8x4096_S8x4096x1_0_1 : (⟨S8x4096, .f32⟩ : BufTy).Contents (Elt F) → (⟨S8x4096x1, .f32⟩ : BufTy).Contents (Elt F)),
    unary main_v61 main_v85 (broadcastInDim S8x4096x1 ![0, 1] bcast_S8x4096_S8x4096x1_0_1 : (⟨S8x4096, .f32⟩ : BufTy).Contents (Elt F) → (⟨S8x4096x1, .f32⟩ : BufTy).Contents (Elt F)),
    unary main_v66 main_v86 (broadcastInDim S8x4096x1 ![0, 1] bcast_S8x4096_S8x4096x1_0_1 : (⟨S8x4096, .f32⟩ : BufTy).Contents (Elt F) → (⟨S8x4096x1, .f32⟩ : BufTy).Contents (Elt F)),
    unary main_v71 main_v87 (broadcastInDim S8x4096x1 ![0, 1] bcast_S8x4096_S8x4096x1_0_1 : (⟨S8x4096, .f32⟩ : BufTy).Contents (Elt F) → (⟨S8x4096x1, .f32⟩ : BufTy).Contents (Elt F)) ]

theorem opsE_sub : (opsE : List (HloOp τ sig (Elt F))).Forall fun op => op.bufs ⊆ tcRefs τ sig :=
  ⟨nullary_bufs_sub .., unary_bufs_sub .., binary_bufs_sub .., unary_bufs_sub .., unary_bufs_sub .., binary_bufs_sub .., nullary_bufs_sub .., unary_bufs_sub .., unary_bufs_sub .., unary_bufs_sub .., ternary_bufs_sub .., binary_bufs_sub .., nullary_bufs_sub .., unary_bufs_sub .., binary_bufs_sub .., unary_bufs_sub .., unary_bufs_sub .., binary_bufs_sub .., nullary_bufs_sub .., unary_bufs_sub .., unary_bufs_sub .., unary_bufs_sub .., ternary_bufs_sub .., binary_bufs_sub .., nullary_bufs_sub .., unary_bufs_sub .., binary_bufs_sub .., unary_bufs_sub .., unary_bufs_sub .., binary_bufs_sub .., nullary_bufs_sub .., unary_bufs_sub .., unary_bufs_sub .., unary_bufs_sub .., ternary_bufs_sub .., binary_bufs_sub .., nullary_bufs_sub .., unary_bufs_sub .., binary_bufs_sub .., unary_bufs_sub .., unary_bufs_sub .., binary_bufs_sub .., nullary_bufs_sub .., unary_bufs_sub .., unary_bufs_sub .., unary_bufs_sub .., ternary_bufs_sub .., binary_bufs_sub .., unary_bufs_sub .., unary_bufs_sub .., unary_bufs_sub .., unary_bufs_sub .., unary_bufs_sub .., unary_bufs_sub ..⟩

theorem opsE_fresh : ∀ op ∈ (opsE : List (HloOp τ sig (Elt F))), op.fresh = ∅ := by
  intro _ h; (repeat (cases h with | head => rfl | tail _ h => ?_)); exact nomatch h

/-- After the stretch, from contents that hold the index vector and the first four differences: the
    differences of the lags 6 and 7 and the six broadcast differences are the staged values; the
    windowed samples are untouched. -/
theorem runE (W : Valuation τ sig (Elt F))
    (x0 : (⟨S8x256x4096, .f32⟩ : BufTy).Contents (Elt F)) (x1 : (⟨S8x4096, .f32⟩ : BufTy).Contents (Elt F))
    (x2 : (⟨S1x1x8, .f32⟩ : BufTy).Contents (Elt F))
    (h0 : W (Proc.devRef .tc main_arg0) = x0) (h1 : W (Proc.devRef .tc main_arg1) = x1)
    (h2 : W (Proc.devRef .tc main_arg2) = x2)
    (hv0 : W (Proc.devRef .tc main_v0) = RefRead.val_main_v0 (F := F))
    (hv41 : W (Proc.devRef .tc main_v41) = RefRead.val_main_v41 (F := F) x0)
    (hv46 : W (Proc.devRef .tc main_v46) = RefRead.val_main_v46 (F := F) x1)
    (hv51 : W (Proc.devRef .tc main_v51) = RefRead.val_main_v51 (F := F) x1)
    (hv56 : W (Proc.devRef .tc main_v56) = RefRead.val_main_v56 (F := F) x1)
    (hv61 : W (Proc.devRef .tc main_v61) = RefRead.val_main_v61 (F := F) x1) :
    after (opsE (F := F)) W (Proc.devRef .tc main_arg0) = x0
    ∧ after (opsE (F := F)) W (Proc.devRef .tc main_arg1) = x1
    ∧ after (opsE (F := F)) W (Proc.devRef .tc main_arg2) = x2
    ∧ after (opsE (F := F)) W (Proc.devRef .tc main_v41) = RefRead.val_main_v41 (F := F) x0
    ∧ after (opsE (F := F)) W (Proc.devRef .tc main_v76) = RefRead.val_main_v76 (F := F) x1
    ∧ after (opsE (F := F)) W (Proc.devRef .tc main_v81) = RefRead.val_main_v81 (F := F) x1
    ∧ after (opsE (F := F)) W (Proc.devRef .tc main_v82) = RefRead.val_main_v82 (F := F) x1
    ∧ after (opsE (F := F)) W (Proc.devRef .tc main_v83) = RefRead.val_main_v83 (F := F) x1
    ∧ after (opsE (F := F)) W (Proc.devRef .tc main_v84) = RefRead.val_main_v84 (F := F) x1
    ∧ after (opsE (F := F)) W (Proc.devRef .tc main_v85) = RefRead.val_main_v85 (F := F) x1
    ∧ after (opsE (F := F)) W (Proc.devRef .tc main_v86) = RefRead.val_main_v86 (F := F) x1
    ∧ after (opsE (F := F)) W (Proc.devRef .tc main_v87) = RefRead.val_main_v87 (F := F) x1 := by
  subst h0 h1 h2
  refine ⟨?_, ?_, ?_, ?_, ?_, ?_, ?_, ?_, ?_, ?_, ?_, ?_⟩ <;> after_results_simp <;>
    (try simp only [hv0, hv41, hv46, hv51, hv56, hv61]) <;> rfl

end Cert.ReferenceIdeal.RefRun

end
-- ==== Proof.RefRunG.lean ====
/- The run of the reference program, seventh stretch: the time differences of the lags 6 and 7 given
   a trailing axis of length one. -/
import proofs.«121142_j83648783057347_2_alg».proof.Proof.RefRead

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 201 and 202: the two remaining differences, each broadcast to a trailing unit axis. -/
abbrev opsG : List (HloOp τ sig (Elt F)) :=
  [ unary main_v76 main_v88 (broadcastInDim S8x4096x1 ![0, 1] bcast_S8x4096_S8x4096x1_0_1 : (⟨S8x4096, .f32⟩ : BufTy).Contents (Elt F) → (⟨S8x4096x1, .f32⟩ : BufTy).Contents (Elt F)),
    unary main_v81 main_v89 (broadcastInDim S8x4096x1 ![0, 1] bcast_S8x4096_S8x4096x1_0_1 : (⟨S8x4096, .f32⟩ : BufTy).Contents (Elt F) → (⟨S8x4096x1, .f32⟩ : BufTy).Contents (Elt F)) ]

theorem opsG_sub : (opsG : List (HloOp τ sig (Elt F))).Forall fun op => op.bufs ⊆ tcRefs τ sig :=
  ⟨unary_bufs_sub .., unary_bufs_sub ..⟩

theorem opsG_fresh : ∀ op ∈ (opsG : List (HloOp τ sig (Elt F))), op.fresh = ∅ := by
  intro _ h; (repeat (cases h with | head => rfl | tail _ h => ?_)); exact nomatch h

/-- After the stretch: the two broadcast differences are the staged values; the six earlier ones and
    the windowed samples are untouched. -/
theorem runG (W : Valuation τ sig (Elt F))
    (x0 : (⟨S8x256x4096, .f32⟩ : BufTy).Contents (Elt F)) (x1 : (⟨S8x4096, .f32⟩ : BufTy).Contents (Elt F))
    (x2 : (⟨S1x1x8, .f32⟩ : BufTy).Contents (Elt F))
    (h0 : W (Proc.devRef .tc main_arg0) = x0) (h1 : W (Proc.devRef .tc main_arg1) = x1)
    (h2 : W (Proc.devRef .tc main_arg2) = x2)
    (hv41 : W (Proc.devRef .tc main_v41) = RefRead.val_main_v41 (F := F) x0)
    (hv76 : W (Proc.devRef .tc main_v76) = RefRead.val_main_v76 (F := F) x1)
    (hv81 : W (Proc.devRef .tc main_v81) = RefRead.val_main_v81 (F := F) x1)
    (hv82 : W (Proc.devRef .tc main_v82) = RefRead.val_main_v82 (F := F) x1)
    (hv83 : W (Proc.devRef .tc main_v83) = RefRead.val_main_v83 (F := F) x1)
    (hv84 : W (Proc.devRef .tc main_v84) = RefRead.val_main_v84 (F := F) x1)
    (hv85 : W (Proc.devRef .tc main_v85) = RefRead.val_main_v85 (F := F) x1)
    (hv86 : W (Proc.devRef .tc main_v86) = RefRead.val_main_v86 (F := F) x1)
    (hv87 : W (Proc.devRef .tc main_v87) = RefRead.val_main_v87 (F := F) x1) :
    after (opsG (F := F)) W (Proc.devRef .tc main_arg0) = x0
    ∧ after (opsG (F := F)) W (Proc.devRef .tc main_arg1) = x1
    ∧ after (opsG (F := F)) W (Proc.devRef .tc main_arg2) = x2
    ∧ after (opsG (F := F)) W (Proc.devRef .tc main_v41) = RefRead.val_main_v41 (F := F) x0
    ∧ after (opsG (F := F)) W (Proc.devRef .tc main_v82) = RefRead.val_main_v82 (F := F) x1
    ∧ after (opsG (F := F)) W (Proc.devRef .tc main_v83) = RefRead.val_main_v83 (F := F) x1
    ∧ after (opsG (F := F)) W (Proc.devRef .tc main_v84) = RefRead.val_main_v84 (F := F) x1
    ∧ after (opsG (F := F)) W (Proc.devRef .tc main_v85) = RefRead.val_main_v85 (F := F) x1
    ∧ after (opsG (F := F)) W (Proc.devRef .tc main_v86) = RefRead.val_main_v86 (F := F) x1
    ∧ after (opsG (F := F)) W (Proc.devRef .tc main_v87) = RefRead.val_main_v87 (F := F) x1
    ∧ after (opsG (F := F)) W (Proc.devRef .tc main_v88) = RefRead.val_main_v88 (F := F) x1
    ∧ after (opsG (F := F)) W (Proc.devRef .tc main_v89) = RefRead.val_main_v89 (F := F) x1 := by
  subst h0 h1 h2
  refine ⟨?_, ?_, ?_, ?_, ?_, ?_, ?_, ?_, ?_, ?_, ?_, ?_⟩ <;> after_results_simp <;>
    (try simp only [hv41, hv76, hv81, hv82, hv83, hv84, hv85, hv86, hv87]) <;> rfl

end Cert.ReferenceIdeal.RefRun

end
-- ==== Proof.RefRunH.lean ====
/- The run of the reference program, eighth stretch: the eight broadcast time differences stacked
   along the trailing axis into the table of differences, one row of eight lags per position. -/
import proofs.«121142_j83648783057347_2_alg».proof.Proof.RefRead

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operation 203: the stack of the eight broadcast differences along the last axis. -/
abbrev opsH : List (HloOp τ sig (Elt F)) :=
  [ nary ![main_v82, main_v83, main_v84, main_v85, main_v86, main_v87, main_v88, main_v89] main_v90 (fun u => concatenate S8x4096x8 2 [⟨S8x4096x1, u 0⟩, ⟨S8x4096x1, u 1⟩, ⟨S8x4096x1, u 2⟩, ⟨S8x4096x1, u 3⟩, ⟨S8x4096x1, u 4⟩, ⟨S8x4096x1, u 5⟩, ⟨S8x4096x1, u 6⟩, ⟨S8x4096x1, u 7⟩] concatenates_S8x4096x1_S8x4096x1_S8x4096x1_S8x4096x1_S8x4096x1_S8x4096x1_S8x4096x1_S8x4096x1_S8x4096x8_d2) ]

theorem opsH_sub : (opsH : List (HloOp τ sig (Elt F))).Forall fun op => op.bufs ⊆ tcRefs τ sig :=
  nary_bufs_sub ..

theorem opsH_fresh : ∀ op ∈ (opsH : List (HloOp τ sig (Elt F))), op.fresh = ∅ := by
  intro _ h; (repeat (cases h with | head => rfl | tail _ h => ?_)); exact nomatch h

/-- After the stack, from contents that hold the eight broadcast differences: the table is the staged
    value; the windowed samples are untouched. The stack reads its operands through a table of
    references, so the staged value is unfolded once and compared operand by operand. -/
theorem runH (W : Valuation τ sig (Elt F))
    (x0 : (⟨S8x256x4096, .f32⟩ : BufTy).Contents (Elt F)) (x1 : (⟨S8x4096, .f32⟩ : BufTy).Contents (Elt F))
    (x2 : (⟨S1x1x8, .f32⟩ : BufTy).Contents (Elt F))
    (h0 : W (Proc.devRef .tc main_arg0) = x0) (h1 : W (Proc.devRef .tc main_arg1) = x1)
    (h2 : W (Proc.devRef .tc main_arg2) = x2)
    (hv41 : W (Proc.devRef .tc main_v41) = RefRead.val_main_v41 (F := F) x0)
    (hv82 : W (Proc.devRef .tc main_v82) = RefRead.val_main_v82 (F := F) x1)
    (hv83 : W (Proc.devRef .tc main_v83) = RefRead.val_main_v83 (F := F) x1)
    (hv84 : W (Proc.devRef .tc main_v84) = RefRead.val_main_v84 (F := F) x1)
    (hv85 : W (Proc.devRef .tc main_v85) = RefRead.val_main_v85 (F := F) x1)
    (hv86 : W (Proc.devRef .tc main_v86) = RefRead.val_main_v86 (F := F) x1)
    (hv87 : W (Proc.devRef .tc main_v87) = RefRead.val_main_v87 (F := F) x1)
    (hv88 : W (Proc.devRef .tc main_v88) = RefRead.val_main_v88 (F := F) x1)
    (hv89 : W (Proc.devRef .tc main_v89) = RefRead.val_main_v89 (F := F) x1) :
    after (opsH (F := F)) W (Proc.devRef .tc main_arg0) = x0
    ∧ after (opsH (F := F)) W (Proc.devRef .tc main_arg1) = x1
    ∧ after (opsH (F := F)) W (Proc.devRef .tc main_arg2) = x2
    ∧ after (opsH (F := F)) W (Proc.devRef .tc main_v41) = RefRead.val_main_v41 (F := F) x0
    ∧ after (opsH (F := F)) W (Proc.devRef .tc main_v90) = RefRead.val_main_v90 (F := F) x1 := by
  refine ⟨?_, ?_, ?_, ?_, ?_⟩
  · after_results_simp; exact h0
  · after_results_simp; exact h1
  · after_results_simp; exact h2
  · after_results_simp; exact hv41
  · after_results_simp
    unfold RefRead.val_main_v90
    rw [← hv82, ← hv83, ← hv84, ← hv85, ← hv86, ← hv87, ← hv88, ← hv89]
    rfl

end Cert.ReferenceIdeal.RefRun

end
-- ==== Proof.RefRunI.lean ====
/- The run of the reference program, ninth stretch: the softmax of the table of time differences
   over its eight lags (row maximum, shifted exponentials, row sum, quotient), and the two
   windowed averages of the samples: one weighted by that softmax, one by the eight kernel totals. Each
   average is then given a unit axis, ready to be paired. -/
import proofs.«121142_j83648783057347_2_alg».proof.Proof.RefRead

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 204 to 229: the row maximum of the table and its broadcast back, the subtraction, the
    exponential, the row sum and its broadcast back, the quotient; the quotient broadcast over the
    channels, the product with the windowed samples and its sum over the lags; the kernel totals
    broadcast over batch, channels and positions, the product with the windowed samples and its sum
    over the lags; the two sums, each with a unit axis inserted before the positions. -/
abbrev opsI : List (HloOp τ sig (Elt F)) :=
  [ nullary main_cst_30 (constant S_ .f32 0xFF800000#32),
    binary main_v90 main_cst_30 main_v91 ((fun x v => Host.reduce FloatOps.maximumf x v reducesTo_S8x4096x8_S8x4096_d2 h_S_) : (⟨S8x4096x8, .f32⟩ : BufTy).Contents (Elt F) → (⟨S_, .f32⟩ : BufTy).Contents (Elt F) → (⟨S8x4096, .f32⟩ : BufTy).Contents (Elt F)),
    nullary main_cst_31 (constant S_ .f32 0xFF800000#32),
    unary main_cst_31 main_v92 (broadcastInDim S8x4096 ![] bcast_S_S8x4096 : (⟨S_, .f32⟩ : BufTy).Contents (Elt F) → (⟨S8x4096, .f32⟩ : BufTy).Contents (Elt F)),
    binary main_v92 main_v91 main_v93 (maximumf : (⟨S8x4096, .f32⟩ : BufTy).Contents (Elt F) → (⟨S8x4096, .f32⟩ : BufTy).Contents (Elt F) → (⟨S8x4096, .f32⟩ : BufTy).Contents (Elt F)),
    unary main_v93 main_v94 (broadcastInDim S8x4096x1 ![0, 1] bcast_S8x4096_S8x4096x1_0_1 : (⟨S8x4096, .f32⟩ : BufTy).Contents (Elt F) → (⟨S8x4096x1, .f32⟩ : BufTy).Contents (Elt F)),
    unary main_v94 main_v95 (broadcastInDim S8x4096x8 ![0, 1, 2] bcast_S8x4096x1_S8x4096x8_0_1_2 : (⟨S8x4096x1, .f32⟩ : BufTy).Contents (Elt F) → (⟨S8x4096x8, .f32⟩ : BufTy).Contents (Elt F)),
    binary main_v90 main_v95 main_v96 (subf : (⟨S8x4096x8, .f32⟩ : BufTy).Contents (Elt F) → (⟨S8x4096x8, .f32⟩ : BufTy).Contents (Elt F) → (⟨S8x4096x8, .f32⟩ : BufTy).Contents (Elt F)),
    unary main_v96 main_v97 (Host.exp : (⟨S8x4096x8, .f32⟩ : BufTy).Contents (Elt F) → (⟨S8x4096x8, .f32⟩ : BufTy).Contents (Elt F)),
    nullary main_cst_32 (constant S_ .f32 0x00000000#32),
    binary main_v97 main_cst_32 main_v98 ((fun x v => Host.reduceAdd x v reducesTo_S8x4096x8_S8x4096_d2 h_S_) : (⟨S8x4096x8, .f32⟩ : BufTy).Contents (Elt F) → (⟨S_, .f32⟩ : BufTy).Contents (Elt F) → (⟨S8x4096, .f32⟩ : BufTy).Contents (Elt F)),
    unary main_v98 main_v99 (broadcastInDim S8x4096x1 ![0, 1] bcast_S8x4096_S8x4096x1_0_1 : (⟨S8x4096, .f32⟩ : BufTy).Contents (Elt F) → (⟨S8x4096x1, .f32⟩ : BufTy).Contents (Elt F)),
    unary main_v99 main_v100 (broadcastInDim S8x4096x8 ![0, 1, 2] bcast_S8x4096x1_S8x4096x8_0_1_2 : (⟨S8x4096x1, .f32⟩ : BufTy).Contents (Elt F) → (⟨S8x4096x8, .f32⟩ : BufTy).Contents (Elt F)),
    binary main_v97 main_v100 main_v101 (Host.divf : (⟨S8x4096x8, .f32⟩ : BufTy).Contents (Elt F) → (⟨S8x4096x8, .f32⟩ : BufTy).Contents (Elt F) → (⟨S8x4096x8, .f32⟩ : BufTy).Contents (Elt F)),
    unary main_v101 main_v102 (broadcastInDim S8x1x4096x8 ![0, 2, 3] bcast_S8x4096x8_S8x1x4096x8_0_2_3 : (⟨S8x4096x8, .f32⟩ : BufTy).Contents (Elt F) → (⟨S8x1x4096x8, .f32⟩ : BufTy).Contents (Elt F)),
    unary main_v102 main_v103 (broadcastInDim S8x256x4096x8 ![0, 1, 2, 3] bcast_S8x1x4096x8_S8x256x4096x8_0_1_2_3 : (⟨S8x1x4096x8, .f32⟩ : BufTy).Contents (Elt F) → (⟨S8x256x4096x8, .f32⟩ : BufTy).Contents (Elt F)),
    binary main_v41 main_v103 main_v104 (mulf : (⟨S8x256x4096x8, .f32⟩ : BufTy).Contents (Elt F) → (⟨S8x256x4096x8, .f32⟩ : BufTy).Contents (Elt F) → (⟨S8x256x4096x8, .f32⟩ : BufTy).Contents (Elt F)),
    nullary main_cst_33 (constant S_ .f32 0x00000000#32),
    binary main_v104 main_cst_33 main_v105 ((fun x v => Host.reduceAdd x v reducesTo_S8x256x4096x8_S8x256x4096_d3 h_S_) : (⟨S8x256x4096x8, .f32⟩ : BufTy).Contents (Elt F) → (⟨S_, .f32⟩ : BufTy).Contents (Elt F) → (⟨S8x256x4096, .f32⟩ : BufTy).Contents (Elt F)),
    unary main_arg2 main_v106 (broadcastInDim S1x1x1x8 ![1, 2, 3] bcast_S1x1x8_S1x1x1x8_1_2_3 : (⟨S1x1x8, .f32⟩ : BufTy).Contents (Elt F) → (⟨S1x1x1x8, .f32⟩ : BufTy).Contents (Elt F)),
    unary main_v106 main_v107 (broadcastInDim S8x256x4096x8 ![0, 1, 2, 3] bcast_S1x1x1x8_S8x256x4096x8_0_1_2_3 : (⟨S1x1x1x8, .f32⟩ : BufTy).Contents (Elt F) → (⟨S8x256x4096x8, .f32⟩ : BufTy).Contents (Elt F)),
    binary main_v41 main_v107 main_v108 (mulf : (⟨S8x256x4096x8, .f32⟩ : BufTy).Contents (Elt F) → (⟨S8x256x4096x8, .f32⟩ : BufTy).Contents (Elt F) → (⟨S8x256x4096x8, .f32⟩ : BufTy).Contents (Elt F)),
    nullary main_cst_34 (constant S_ .f32 0x00000000#32),
    binary main_v108 main_cst_34 main_v109 ((fun x v => Host.reduceAdd x v reducesTo_S8x256x4096x8_S8x256x4096_d3 h_S_) : (⟨S8x256x4096x8, .f32⟩ : BufTy).Contents (Elt F) → (⟨S_, .f32⟩ : BufTy).Contents (Elt F) → (⟨S8x256x4096, .f32⟩ : BufTy).Contents (Elt F)),
    unary main_v105 main_v110 (broadcastInDim S8x256x1x4096 ![0, 1, 3] bcast_S8x256x4096_S8x256x1x4096_0_1_3 : (⟨S8x256x4096, .f32⟩ : BufTy).Contents (Elt F) → (⟨S8x256x1x4096, .f32⟩ : BufTy).Contents (Elt F)),
    unary main_v109 main_v111 (broadcastInDim S8x256x1x4096 ![0, 1, 3] bcast_S8x256x4096_S8x256x1x4096_0_1_3 : (⟨S8x256x4096, .f32⟩ : BufTy).Contents (Elt F) → (⟨S8x256x1x4096, .f32⟩ : BufTy).Contents (Elt F)) ]

theorem opsI_sub : (opsI : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., unary_bufs_sub .., binary_bufs_sub .., nullary_bufs_sub .., binary_bufs_sub .., unary_bufs_sub .., unary_bufs_sub .., binary_bufs_sub .., nullary_bufs_sub .., binary_bufs_sub .., unary_bufs_sub .., unary_bufs_sub ..⟩

theorem opsI_fresh : ∀ op ∈ (opsI : List (HloOp τ sig (Elt F))), op.fresh = ∅ := by
  intro _ h; (repeat (cases h with | head => rfl | tail _ h => ?_)); exact nomatch h

/-- After the stretch, from contents that hold the windowed samples and the table of differences:
    the two averages with their unit axis are the staged values. -/
theorem runI (W : Valuation τ sig (Elt F))
    (x0 : (⟨S8x256x4096, .f32⟩ : BufTy).Contents (Elt F)) (x1 : (⟨S8x4096, .f32⟩ : BufTy).Contents (Elt F))
    (x2 : (⟨S1x1x8, .f32⟩ : BufTy).Contents (Elt F))
    (h0 : W (Proc.devRef .tc main_arg0) = x0) (h1 : W (Proc.devRef .tc main_arg1) = x1)
    (h2 : W (Proc.devRef .tc main_arg2) = x2)
    (hv41 : W (Proc.devRef .tc main_v41) = RefRead.val_main_v41 (F := F) x0)
    (hv90 : W (Proc.devRef .tc main_v90) = RefRead.val_main_v90 (F := F) x1) :
    after (opsI (F := F)) W (Proc.devRef .tc main_arg0) = x0
    ∧ after (opsI (F := F)) W (Proc.devRef .tc main_arg1) = x1
    ∧ after (opsI (F := F)) W (Proc.devRef .tc main_arg2) = x2
    ∧ after (opsI (F := F)) W (Proc.devRef .tc main_v110) = RefRead.val_main_v110 (F := F) x0 x1
    ∧ after (opsI (F := F)) W (Proc.devRef .tc main_v111) = RefRead.val_main_v111 (F := F) x0 x2 := by
  subst h0 h1 h2
  refine ⟨?_, ?_, ?_, ?_, ?_⟩ <;> after_results_simp <;> (try simp only [hv41, hv90]) <;> rfl

end Cert.ReferenceIdeal.RefRun

end
-- ==== Proof.RefRunJ.lean ====
/- The run of the reference program, tenth stretch: the two windowed averages paired along the
   inserted axis. -/
import proofs.«121142_j83648783057347_2_alg».proof.Proof.RefRead

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operation 230: the concatenation of the two averages along the axis of length one each. -/
abbrev opsJ : List (HloOp τ sig (Elt F)) :=
  [ binary main_v110 main_v111 main_v112 ((fun a b => concatenate S8x256x2x4096 2 [⟨S8x256x1x4096, a⟩, ⟨S8x256x1x4096, b⟩] concatenates_S8x256x1x4096_S8x256x1x4096_S8x256x2x4096_d2) : (⟨S8x256x1x4096, .f32⟩ : BufTy).Contents (Elt F) → (⟨S8x256x1x4096, .f32⟩ : BufTy).Contents (Elt F) → (⟨S8x256x2x4096, .f32⟩ : BufTy).Contents (Elt F)) ]

theorem opsJ_sub : (opsJ : List (HloOp τ sig (Elt F))).Forall fun op => op.bufs ⊆ tcRefs τ sig :=
  binary_bufs_sub ..

theorem opsJ_fresh : ∀ op ∈ (opsJ : List (HloOp τ sig (Elt F))), op.fresh = ∅ := by
  intro _ h; (repeat (cases h with | head => rfl | tail _ h => ?_)); exact nomatch h

/-- After the concatenation, from contents that hold the two averages: the pair is the staged value.
    The staged value is unfolded once and compared operand by operand. -/
theorem runJ (W : Valuation τ sig (Elt F))
    (x0 : (⟨S8x256x4096, .f32⟩ : BufTy).Contents (Elt F)) (x1 : (⟨S8x4096, .f32⟩ : BufTy).Contents (Elt F))
    (x2 : (⟨S1x1x8, .f32⟩ : BufTy).Contents (Elt F))
    (h0 : W (Proc.devRef .tc main_arg0) = x0) (h1 : W (Proc.devRef .tc main_arg1) = x1)
    (h2 : W (Proc.devRef .tc main_arg2) = x2)
    (hv110 : W (Proc.devRef .tc main_v110) = RefRead.val_main_v110 (F := F) x0 x1)
    (hv111 : W (Proc.devRef .tc main_v111) = RefRead.val_main_v111 (F := F) x0 x2) :
    after (opsJ (F := F)) W (Proc.devRef .tc main_arg0) = x0
    ∧ after (opsJ (F := F)) W (Proc.devRef .tc main_arg1) = x1
    ∧ after (opsJ (F := F)) W (Proc.devRef .tc main_arg2) = x2
    ∧ after (opsJ (F := F)) W (Proc.devRef .tc main_v112) = RefRead.val_main_v112 (F := F) x0 x1 x2 := by
  refine ⟨?_, ?_, ?_, ?_⟩
  · after_results_simp; exact h0
  · after_results_simp; exact h1
  · after_results_simp; exact h2
  · after_results_simp
    unfold RefRead.val_main_v112
    rw [← hv110, ← hv111]

end Cert.ReferenceIdeal.RefRun

end
-- ==== Proof.RefRunK.lean ====
/- The run of the reference program, last stretch: the 2 × 2 matrix of inner products of the two
   averages over the positions, its row-wise softmax, the softmax applied back to the pair, the sum
   over the pair axis, and the division by two. -/
import proofs.«121142_j83648783057347_2_alg».proof.Proof.RefRead

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 231 to 251: the contraction of the pair with itself over the positions; the row
    maximum, its broadcast back, the subtraction, the exponential, the row sum, its broadcast back and
    the quotient; the contraction of the quotient with the pair over the pair axis; the sum over the
    remaining pair axis; the constant two broadcast; the quotient by it. -/
abbrev opsK : List (HloOp τ sig (Elt F)) :=
  [ binary main_v112 main_v112 main_v113 ((fun l r => Host.dotGeneral dot_S8x256x2x4096_S8x256x2x4096_S8x256x2x2_3_3_2_2_01_01 none l r) : (⟨S8x256x2x4096, .f32⟩ : BufTy).Contents (Elt F) → (⟨S8x256x2x4096, .f32⟩ : BufTy).Contents (Elt F) → (⟨S8x256x2x2, .f32⟩ : BufTy).Contents (Elt F)),
    nullary main_cst_35 (constant S_ .f32 0xFF800000#32),
    binary main_v113 main_cst_35 main_v114 ((fun x v => Host.reduce FloatOps.maximumf x v reducesTo_S8x256x2x2_S8x256x2_d3 h_S_) : (⟨S8x256x2x2, .f32⟩ : BufTy).Contents (Elt F) → (⟨S_, .f32⟩ : BufTy).Contents (Elt F) → (⟨S8x256x2, .f32⟩ : BufTy).Contents (Elt F)),
    nullary main_cst_36 (constant S_ .f32 0xFF800000#32),
    unary main_cst_36 main_v115 (broadcastInDim S8x256x2 ![] bcast_S_S8x256x2 : (⟨S_, .f32⟩ : BufTy).Contents (Elt F) → (⟨S8x256x2, .f32⟩ : BufTy).Contents (Elt F)),
    binary main_v115 main_v114 main_v116 (maximumf : (⟨S8x256x2, .f32⟩ : BufTy).Contents (Elt F) → (⟨S8x256x2, .f32⟩ : BufTy).Contents (Elt F) → (⟨S8x256x2, .f32⟩ : BufTy).Contents (Elt F)),
    unary main_v116 main_v117 (broadcastInDim S8x256x2x1 ![0, 1, 2] bcast_S8x256x2_S8x256x2x1_0_1_2 : (⟨S8x256x2, .f32⟩ : BufTy).Contents (Elt F) → (⟨S8x256x2x1, .f32⟩ : BufTy).Contents (Elt F)),
    unary main_v117 main_v118 (broadcastInDim S8x256x2x2 ![0, 1, 2, 3] bcast_S8x256x2x1_S8x256x2x2_0_1_2_3 : (⟨S8x256x2x1, .f32⟩ : BufTy).Contents (Elt F) → (⟨S8x256x2x2, .f32⟩ : BufTy).Contents (Elt F)),
    binary main_v113 main_v118 main_v119 (subf : (⟨S8x256x2x2, .f32⟩ : BufTy).Contents (Elt F) → (⟨S8x256x2x2, .f32⟩ : BufTy).Contents (Elt F) → (⟨S8x256x2x2, .f32⟩ : BufTy).Contents (Elt F)),
    unary main_v119 main_v120 (Host.exp : (⟨S8x256x2x2, .f32⟩ : BufTy).Contents (Elt F) → (⟨S8x256x2x2, .f32⟩ : BufTy).Contents (Elt F)),
    nullary main_cst_37 (constant S_ .f32 0x00000000#32),
    binary main_v120 main_cst_37 main_v121 ((fun x v => Host.reduceAdd x v reducesTo_S8x256x2x2_S8x256x2_d3 h_S_) : (⟨S8x256x2x2, .f32⟩ : BufTy).Contents (Elt F) → (⟨S_, .f32⟩ : BufTy).Contents (Elt F) → (⟨S8x256x2, .f32⟩ : BufTy).Contents (Elt F)),
    unary main_v121 main_v122 (broadcastInDim S8x256x2x1 ![0, 1, 2] bcast_S8x256x2_S8x256x2x1_0_1_2 : (⟨S8x256x2, .f32⟩ : BufTy).Contents (Elt F) → (⟨S8x256x2x1, .f32⟩ : BufTy).Contents (Elt F)),
    unary main_v122 main_v123 (broadcastInDim S8x256x2x2 ![0, 1, 2, 3] bcast_S8x256x2x1_S8x256x2x2_0_1_2_3 : (⟨S8x256x2x1, .f32⟩ : BufTy).Contents (Elt F) → (⟨S8x256x2x2, .f32⟩ : BufTy).Contents (Elt F)),
    binary main_v120 main_v123 main_v124 (Host.divf : (⟨S8x256x2x2, .f32⟩ : BufTy).Contents (Elt F) → (⟨S8x256x2x2, .f32⟩ : BufTy).Contents (Elt F) → (⟨S8x256x2x2, .f32⟩ : BufTy).Contents (Elt F)),
    binary main_v124 main_v112 main_v125 ((fun l r => Host.dotGeneral dot_S8x256x2x2_S8x256x2x4096_S8x256x2x4096_3_2_2_3_01_01 none l r) : (⟨S8x256x2x2, .f32⟩ : BufTy).Contents (Elt F) → (⟨S8x256x2x4096, .f32⟩ : BufTy).Contents (Elt F) → (⟨S8x256x2x4096, .f32⟩ : BufTy).Contents (Elt F)),
    nullary main_cst_38 (constant S_ .f32 0x00000000#32),
    binary main_v125 main_cst_38 main_v126 ((fun x v => Host.reduceAdd x v reducesTo_S8x256x2x4096_S8x256x4096_d2 h_S_) : (⟨S8x256x2x4096, .f32⟩ : BufTy).Contents (Elt F) → (⟨S_, .f32⟩ : BufTy).Contents (Elt F) → (⟨S8x256x4096, .f32⟩ : BufTy).Contents (Elt F)),
    nullary main_cst_39 (constant S_ .f32 0x40000000#32),
    unary main_cst_39 main_v127 (broadcastInDim S8x256x4096 ![] bcast_S_S8x256x4096 : (⟨S_, .f32⟩ : BufTy).Contents (Elt F) → (⟨S8x256x4096, .f32⟩ : BufTy).Contents (Elt F)),
    binary main_v126 main_v127 main_v128 (Host.divf : (⟨S8x256x4096, .f32⟩ : BufTy).Contents (Elt F) → (⟨S8x256x4096, .f32⟩ : BufTy).Contents (Elt F) → (⟨S8x256x4096, .f32⟩ : BufTy).Contents (Elt F)) ]

theorem opsK_sub : (opsK : List (HloOp τ sig (Elt F))).Forall fun op => op.bufs ⊆ tcRefs τ sig :=
  ⟨binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., nullary_bufs_sub .., binary_bufs_sub .., nullary_bufs_sub .., unary_bufs_sub .., binary_bufs_sub ..⟩

theorem opsK_fresh : ∀ op ∈ (opsK : List (HloOp τ sig (Elt F))), op.fresh = ∅ := by
  intro _ h; (repeat (cases h with | head => rfl | tail _ h => ?_)); exact nomatch h

/-- After the stretch, from contents that hold the pair of averages: the result buffer is the staged
    value of the whole program. -/
theorem runK (W : Valuation τ sig (Elt F))
    (x0 : (⟨S8x256x4096, .f32⟩ : BufTy).Contents (Elt F)) (x1 : (⟨S8x4096, .f32⟩ : BufTy).Contents (Elt F))
    (x2 : (⟨S1x1x8, .f32⟩ : BufTy).Contents (Elt F))
    (h0 : W (Proc.devRef .tc main_arg0) = x0) (h1 : W (Proc.devRef .tc main_arg1) = x1)
    (h2 : W (Proc.devRef .tc main_arg2) = x2)
    (hv112 : W (Proc.devRef .tc main_v112) = RefRead.val_main_v112 (F := F) x0 x1 x2) :
    after (opsK (F := F)) W (Proc.devRef .tc main_arg0) = x0
    ∧ after (opsK (F := F)) W (Proc.devRef .tc main_arg1) = x1
    ∧ after (opsK (F := F)) W (Proc.devRef .tc main_arg2) = x2
    ∧ after (opsK (F := F)) W (Proc.devRef .tc main_v128) = RefRead.val_main_v128 (F := F) x0 x1 x2 := by
  subst h0 h1 h2
  refine ⟨?_, ?_, ?_, ?_⟩ <;> after_results_simp <;> (try simp only [hv112]) <;> rfl

end Cert.ReferenceIdeal.RefRun

end
-- ==== Proof.RefRun.lean ====
/- The run of the reference program. Its 251 operations are taken in ten consecutive stretches; the
   program is the sequence of the stretches, the contents after the whole line are the contents after
   the last stretch started from the contents after the one before, and so on down to the launch
   contents. Each stretch hands the staged values on to the next, so the result buffer ends at the
   staged value of the whole program as a function of the three arguments, which are left unchanged. -/
import proofs.«121142_j83648783057347_2_alg».proof.Proof.RefRunA
import proofs.«121142_j83648783057347_2_alg».proof.Proof.RefRunB
import proofs.«121142_j83648783057347_2_alg».proof.Proof.RefRunC
import proofs.«121142_j83648783057347_2_alg».proof.Proof.RefRunD
import proofs.«121142_j83648783057347_2_alg».proof.Proof.RefRunE
import proofs.«121142_j83648783057347_2_alg».proof.Proof.RefRunG
import proofs.«121142_j83648783057347_2_alg».proof.Proof.RefRunH
import proofs.«121142_j83648783057347_2_alg».proof.Proof.RefRunI
import proofs.«121142_j83648783057347_2_alg».proof.Proof.RefRunJ
import proofs.«121142_j83648783057347_2_alg».proof.Proof.RefRunK

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- A property of every operation of two lines holds of every operation of their concatenation. -/
theorem forall_app {P : HloOp τ sig (Elt F) → Prop} {l₁ l₂ : List (HloOp τ sig (Elt F))}
    (h₁ : l₁.Forall P) (h₂ : l₂.Forall P) : (l₁ ++ l₂).Forall P :=
  List.forall_iff_forall_mem.2 fun op h =>
    (List.mem_append.1 h).elim (List.forall_iff_forall_mem.1 h₁ op) (List.forall_iff_forall_mem.1 h₂ op)

/-- If no operation of two lines allocates, none of their concatenation does. -/
theorem fresh_app {l₁ l₂ : List (HloOp τ sig (Elt F))}
    (h₁ : ∀ op ∈ l₁, op.fresh = ∅) (h₂ : ∀ op ∈ l₂, op.fresh = ∅) : ∀ op ∈ l₁ ++ l₂, op.fresh = ∅ :=
  fun op h => (List.mem_append.1 h).elim (h₁ op) (h₂ op)

/-- The program's 251 operations, in order: the ten stretches one after the other. -/
abbrev ops : List (HloOp τ sig (Elt F)) :=
  opsA ++ (opsB ++ (opsC ++ (opsD ++ (opsE ++ (opsG ++ (opsH ++ (opsI ++ (opsJ ++ opsK))))))))

set_option maxRecDepth 8192 in
set_option maxHeartbeats 4000000 in
/-- The first window of the program is the first three stretches. -/
theorem part0_eq (c : Dev nD) : main_part0 (F := F) c = seq (opsA ++ (opsB ++ opsC)) := rfl

set_option maxRecDepth 8192 in
set_option maxHeartbeats 4000000 in
/-- The second window is the fourth and fifth stretches. -/
theorem part1_eq (c : Dev nD) : main_part1 (F := F) c = seq (opsD ++ opsE) := rfl

set_option maxRecDepth 8192 in
set_option maxHeartbeats 4000000 in
/-- The third window is the last five stretches. -/
theorem part2_eq (c : Dev nD) :
    main_part2 (F := F) c = seq (opsG ++ (opsH ++ (opsI ++ (opsJ ++ opsK)))) := rfl

/-- The program is the line of its operations: its three windows in order, each the line of its
    stretches, and a line of concatenated stretches is the stretches run one after the other. -/
theorem main_eq (c : Dev nD) : main (F := F) c = seq ops := by
  have e : main (F := F) c = (main_part0 c >>= fun _ => main_part1 c >>= fun _ => main_part2 c) := rfl
  rw [e, part0_eq, part1_eq, part2_eq]
  simp only [ops, seq_append, bind_assoc]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  forall_app opsA_sub (forall_app opsB_sub (forall_app opsC_sub (forall_app opsD_sub (forall_app opsE_sub
    (forall_app opsG_sub (forall_app opsH_sub (forall_app opsI_sub (forall_app opsJ_sub opsK_sub))))))))

theorem ops_fresh : ∀ op ∈ (ops : List (HloOp τ sig (Elt F))), op.fresh = ∅ :=
  fresh_app opsA_fresh (fresh_app opsB_fresh (fresh_app opsC_fresh (fresh_app opsD_fresh (fresh_app opsE_fresh
    (fresh_app opsG_fresh (fresh_app opsH_fresh (fresh_app opsI_fresh (fresh_app opsJ_fresh opsK_fresh))))))))

/-- From any contents: after the whole line the result buffer holds the staged value of the program
    over what the three arguments held, and the three arguments hold what they held. The stretches are
    taken in order, each from the contents the earlier ones leave, each receiving the staged values
    it reads from the stretch that wrote them (or passed them through) and handing on its own. -/
theorem ops_result (V : Valuation τ sig (Elt F)) :
    after (ops (F := F)) V (Proc.devRef .tc main_v128)
        = RefRead.val_main_v128 (F := F) (V (Proc.devRef .tc main_arg0)) (V (Proc.devRef .tc main_arg1))
            (V (Proc.devRef .tc main_arg2))
    ∧ after (ops (F := F)) V (Proc.devRef .tc main_arg0) = V (Proc.devRef .tc main_arg0)
    ∧ after (ops (F := F)) V (Proc.devRef .tc main_arg1) = V (Proc.devRef .tc main_arg1)
    ∧ after (ops (F := F)) V (Proc.devRef .tc main_arg2) = V (Proc.devRef .tc main_arg2) := by
  obtain ⟨a0, a1, a2, av0, av4, av8, av12, av16⟩ := runA V _ _ _ rfl rfl rfl
  obtain ⟨b0, b1, b2, bv0, bv33, bv34, bv35, bv36, bv37, bv38, bv39, bv40⟩ :=
    runB (after (opsA (F := F)) V) _ _ _ a0 a1 a2 av0 av4 av8 av12 av16
  obtain ⟨c0, c1, c2, cv0, cv41, cv42⟩ :=
    runC (after (opsB (F := F)) (after (opsA (F := F)) V)) _ _ _ b0 b1 b2 bv0 bv33 bv34 bv35 bv36 bv37 bv38 bv39 bv40
  obtain ⟨d0, d1, d2, dv0, dv41, dv46, dv51, dv56, dv61⟩ :=
    runD (after (opsC (F := F)) (after (opsB (F := F)) (after (opsA (F := F)) V))) _ _ _ c0 c1 c2 cv0 cv41 cv42
  obtain ⟨e0, e1, e2, ev41, ev76, ev81, ev82, ev83, ev84, ev85, ev86, ev87⟩ :=
    runE (after (opsD (F := F)) (after (opsC (F := F)) (after (opsB (F := F)) (after (opsA (F := F)) V)))) _ _ _ d0 d1 d2 dv0 dv41 dv46 dv51 dv56 dv61
  obtain ⟨g0, g1, g2, gv41, gv82, gv83, gv84, gv85, gv86, gv87, gv88, gv89⟩ :=
    runG (after (opsE (F := F)) (after (opsD (F := F)) (after (opsC (F := F)) (after (opsB (F := F)) (after (opsA (F := F)) V))))) _ _ _ e0 e1 e2 ev41 ev76 ev81 ev82 ev83 ev84 ev85 ev86 ev87
  obtain ⟨s0, s1, s2, sv41, sv90⟩ :=
    runH (after (opsG (F := F)) (after (opsE (F := F)) (after (opsD (F := F)) (after (opsC (F := F)) (after (opsB (F := F)) (after (opsA (F := F)) V)))))) _ _ _ g0 g1 g2 gv41 gv82 gv83 gv84 gv85 gv86 gv87 gv88 gv89
  obtain ⟨i0, i1, i2, iv110, iv111⟩ :=
    runI (after (opsH (F := F)) (after (opsG (F := F)) (after (opsE (F := F)) (after (opsD (F := F)) (after (opsC (F := F)) (after (opsB (F := F)) (after (opsA (F := F)) V))))))) _ _ _ s0 s1 s2 sv41 sv90
  obtain ⟨j0, j1, j2, jv112⟩ :=
    runJ (after (opsI (F := F)) (after (opsH (F := F)) (after (opsG (F := F)) (after (opsE (F := F)) (after (opsD (F := F)) (after (opsC (F := F)) (after (opsB (F := F)) (after (opsA (F := F)) V)))))))) _ _ _ i0 i1 i2 iv110 iv111
  obtain ⟨k0, k1, k2, kv128⟩ :=
    runK (after (opsJ (F := F)) (after (opsI (F := F)) (after (opsH (F := F)) (after (opsG (F := F)) (after (opsE (F := F)) (after (opsD (F := F)) (after (opsC (F := F)) (after (opsB (F := F)) (after (opsA (F := F)) V))))))))) _ _ _ j0 j1 j2 jv112
  have e : after (ops (F := F)) V = after (opsK (F := F)) (after (opsJ (F := F)) (after (opsI (F := F)) (after (opsH (F := F)) (after (opsG (F := F)) (after (opsE (F := F)) (after (opsD (F := F)) (after (opsC (F := F)) (after (opsB (F := F)) (after (opsA (F := F)) V))))))))) := by
    simp only [ops, after_app]
  rw [e]
  exact ⟨kv128, k0, k1, k2⟩

/-- On every device, for any float values, from any memory with zero counters: every weakly fair
    execution of the program terminates with the result buffer at the staged value of the program over
    the arguments' launch contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v128) = Cert.ReferenceIdeal.RefRead.val_main_v128 (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨(h c main_v128).trans (ops_result (F := F) (launchContents m c)).1,
       (h c main_arg0).trans (ops_result (F := F) (launchContents m c)).2.1,
       (h c main_arg1).trans (ops_result (F := F) (launchContents m c)).2.2.1,
       (h c main_arg2).trans (ops_result (F := F) (launchContents m c)).2.2.2⟩)
    (run_seq scopedRefs_eq scopedSems_eq defs main (fun _ => ops) main_eq (fun _ => ops_sub) m ρ
      (fun _ => ops_fresh))

end Cert.ReferenceIdeal.RefRun

end
-- ==== Proof.Finite.lean ====
/-
  The precondition read back. The printed predicate is the conjunction of three `all (|v| < +∞)`, one per input;
  an extended real whose absolute value `max v (-v)` lies below +∞ is neither infinity, so it is a real. Hence under
  the precondition x, delta_time and kernel_total hold reals at every index.
-/
import proofs.«121142_j83648783057347_2_alg».proof.Pre_finite_inputs
import Idealize.ShloMosaic.PureOps.Ideal
import Idealize.ShloMosaic.Lib.ReduceAll
import Idealize.ShloMosaic.Lib.ValueIdx

noncomputable section

namespace Cert.Causal

open Idealize.ShloMosaic

instance : Subsingleton (Cert.Pre_finite_inputs.S_.Idx) := ⟨fun a b => funext fun d => d.elim0⟩

/-- An extended real whose absolute value is below +∞ is a real. -/
theorem real_of_abs_lt_top (x : EReal) (h : max x (-x) < ⊤) : ∃ r : ℝ, x = (r : EReal) := by
  induction x using EReal.rec with
  | bot => simp at h
  | top => simp at h
  | coe r => exact ⟨r, rfl⟩

theorem ofBits_inf : Ideal.ofBits .f32 0x7F800000#32 = (⊤ : EReal) := by
  simp [Ideal.ofBits, Ideal.ieee]

/-- One `all (|v| < +∞)` that came out true: every entry of `v` is a real. -/
theorem all_real {s : Shape} {axes : List (Fin s.rank)} (v : FVec Ideal s .f32)
    (hb : Cert.Pre_finite_inputs.S_.BroadcastsInDim s (![] : Fin 0 → Fin s.rank))
    (hr : s.ReducesTo axes Cert.Pre_finite_inputs.S_) (hS : 0 < Cert.Pre_finite_inputs.S_.numel)
    (e : Host.reduce IntOp.andi (cmpf .olt (Host.absf v)
          (broadcastInDim s ![] hb (constant (F := Ideal) Cert.Pre_finite_inputs.S_ .f32 0x7F800000#32)))
        (constantI Cert.Pre_finite_inputs.S_ 1 1#1) hr hS ValueIdx.ix0 = 1#1) (i : s.Idx) :
    ∃ r : ℝ, v i = (r : EReal) := by
  have hi := Host.reduce_andi_all _ _ hr hS _ e i
  have hi' : Ideal.cmp .olt (max (v i) (-(v i))) (Ideal.ofBits .f32 0x7F800000#32) = 1#1 := hi
  rw [ofBits_inf] at hi'
  have hd : BitVec.ofBool (decide (max (v i) (-(v i)) < (⊤ : EReal))) = 1#1 := hi'
  refine real_of_abs_lt_top (v i) ?_
  by_contra hne
  rw [decide_eq_false hne] at hd
  exact absurd hd (by decide)

variable [Cert.Pre_finite_inputs.Facts]

/-- The precondition read back: all three inputs hold reals. -/
theorem inputs_real (x : FVec Ideal Cert.Pre_finite_inputs.S8x256x4096 .f32) (dt : FVec Ideal Cert.Pre_finite_inputs.S8x4096 .f32)
    (kn : FVec Ideal Cert.Pre_finite_inputs.S1x1x8 .f32)
    (h : Cert.Pre_finite_inputs.fn (F := Ideal) x dt kn = fun _ => 1#1) :
    (∀ i, ∃ r : ℝ, x i = (r : EReal)) ∧ (∀ i, ∃ r : ℝ, dt i = (r : EReal)) ∧ (∀ i, ∃ r : ℝ, kn i = (r : EReal)) := by
  have h0 := congrFun h ValueIdx.ix0
  dsimp only [Cert.Pre_finite_inputs.fn] at h0
  obtain ⟨h01, h2⟩ := IntOp.andi_eq_one.1 h0
  obtain ⟨h0', h1⟩ := IntOp.andi_eq_one.1 h01
  exact ⟨all_real x _ _ _ h0', all_real dt _ _ _ h1, all_real kn _ _ _ h2⟩

end Cert.Causal

end
-- ==== Proof.Algebra.lean ====
/-
  The law that joins the two programs, on the extended reals.

  `winR_eq_win`: dropping a lag by a zero sample or by a zero weight is the same product, since zero times anything
  is zero on the extended reals.
  `mixR_eq_mixK`: when the two averaged rows hold reals, so do their inner products; the pair softmax of reals is a
  quotient of positive reals (the larger entry's exponential is 1, so the denominator is at least 1), hence a real; and
  then both re-mixes are the same real, by distributing the half over the sums, the inner product being symmetric.
-/
import proofs.«121142_j83648783057347_2_alg».proof.Proof.Spec

noncomputable section

namespace Cert.Causal

open Idealize.ShloMosaic

/-- A zero sample or a zero weight: the same term. -/
theorem winR_eq_win (r : Fin 4096 → EReal) (u : Fin 4096 → Fin 8 → EReal) (l : Fin 4096) :
    winR r u l = win r (fun k i => if k.val ≤ i.val then u i k else 0) l := by
  unfold winR win
  refine Finset.sum_congr rfl fun k _ => ?_
  by_cases h : k.val ≤ l.val
  · simp only [h, if_true]
  · simp only [h, if_false, zero_mul, mul_zero]

/-- A finite sum of reals is a real. -/
theorem sum_real {ι : Type} (s : Finset ι) (f : ι → EReal) (hf : ∀ i, ∃ a : ℝ, f i = (a : EReal)) :
    ∃ a : ℝ, ∑ i ∈ s, f i = (a : EReal) := by
  classical
  choose g hg using hf
  refine ⟨∑ i ∈ s, g i, ?_⟩
  induction s using Finset.induction_on with
  | empty => simp
  | insert a s ha ih => rw [Finset.sum_insert ha, Finset.sum_insert ha, ih, hg a, EReal.coe_add]

theorem win_real (r : Fin 4096 → EReal) (w : Fin 8 → Fin 4096 → EReal) (hr : ∀ i, ∃ a : ℝ, r i = (a : EReal))
    (hw : ∀ k i, ∃ a : ℝ, w k i = (a : EReal)) (l : Fin 4096) : ∃ a : ℝ, win r w l = (a : EReal) := by
  unfold win
  refine sum_real _ _ fun k => ?_
  obtain ⟨a, ha⟩ := hr (back l k)
  obtain ⟨b, hb⟩ := hw k l
  exact ⟨a * b, by rw [ha, hb, EReal.coe_mul]⟩

theorem gram_real (p q : Fin 4096 → EReal) (hp : ∀ i, ∃ a : ℝ, p i = (a : EReal)) (hq : ∀ i, ∃ a : ℝ, q i = (a : EReal)) :
    ∃ a : ℝ, gram p q = (a : EReal) := by
  unfold gram
  refine sum_real _ _ fun l => ?_
  obtain ⟨a, ha⟩ := hp l
  obtain ⟨b, hb⟩ := hq l
  exact ⟨a * b, by rw [ha, hb, EReal.coe_mul]⟩

theorem gram_comm (p q : Fin 4096 → EReal) : gram p q = gram q p := by
  unfold gram
  exact Finset.sum_congr rfl fun l _ => mul_comm _ _

theorem half_eq : half = ((1 / 2 : ℝ) : EReal) := by
  unfold half
  simp [Ideal.ofBits, Ideal.ieee, -EReal.coe_mul]; norm_num

theorem two_eq : two = ((2 : ℝ) : EReal) := by
  unfold two
  simp [Ideal.ofBits, Ideal.ieee, -EReal.coe_mul]; norm_num

/-- The pair softmax of two reals: both weights are reals. -/
theorem soft_real (a b : ℝ) :
    (∃ s : ℝ, softL (a : EReal) (b : EReal) = (s : EReal)) ∧ (∃ s : ℝ, softR (a : EReal) (b : EReal) = (s : EReal)) := by
  have hmax : max (a : EReal) (b : EReal) = ((max a b : ℝ) : EReal) := (EReal.coe_strictMono.monotone.map_max).symm
  have hL : eL (a : EReal) (b : EReal) = ((Real.exp (a - max a b) : ℝ) : EReal) := by
    unfold eL; rw [hmax, ← EReal.coe_sub, Ideal.exp_coe]
  have hR : eR (a : EReal) (b : EReal) = ((Real.exp (b - max a b) : ℝ) : EReal) := by
    unfold eR; rw [hmax, ← EReal.coe_sub, Ideal.exp_coe]
  have hpos : (Real.exp (a - max a b) + Real.exp (b - max a b) : ℝ) ≠ 0 := by positivity
  constructor
  · refine ⟨Real.exp (a - max a b) * (1 / (Real.exp (a - max a b) + Real.exp (b - max a b))), ?_⟩
    unfold softL; rw [hL, hR, ← EReal.coe_add, Ideal.div_coe hpos, ← EReal.coe_mul]
  · refine ⟨Real.exp (b - max a b) * (1 / (Real.exp (a - max a b) + Real.exp (b - max a b))), ?_⟩
    unfold softR; rw [hL, hR, ← EReal.coe_add, Ideal.div_coe hpos, ← EReal.coe_mul]

/-- On real-valued rows the reference's re-mix is the kernel's. -/
theorem mixR_eq_mixK (p q : Fin 4096 → EReal) (hp : ∀ i, ∃ a : ℝ, p i = (a : EReal)) (hq : ∀ i, ∃ a : ℝ, q i = (a : EReal))
    (l : Fin 4096) : mixR p q l = mixK p q l := by
  obtain ⟨A, hA⟩ := gram_real p p hp hp
  obtain ⟨B, hB⟩ := gram_real p q hp hq
  obtain ⟨C, hC⟩ := gram_real q q hq hq
  obtain ⟨⟨s00, h00⟩, ⟨s01, h01⟩⟩ := soft_real A B
  obtain ⟨⟨s10, h10⟩, ⟨s11, h11⟩⟩ := soft_real B C
  obtain ⟨P, hP⟩ := hp l
  obtain ⟨Q, hQ⟩ := hq l
  unfold mixR mixK
  rw [gram_comm q p, hA, hB, hC, h00, h01, h10, h11, hP, hQ, two_eq, half_eq, Ideal.div_coe (by norm_num : (2 : ℝ) ≠ 0)]
  simp only [← EReal.coe_mul, ← EReal.coe_add]
  congr 1
  ring

end Cert.Causal

end
-- ==== Proof.Bridge.lean ====
/-
  The two programs' results are one function. At (b, c, l) the reference re-mixes the windowed averages of row (b, c)
  of x taken with the early lags' SAMPLES zeroed, against the softmax table W and the fixed kernel; the kernel
  re-mixes the averages taken against the tables `wt`, `kt` whose early lags' WEIGHTS are zeroed. The averages agree
  term by term, and when x, W and the fixed kernel hold reals they are reals, on which the two re-mixes agree.
-/
import proofs.«121142_j83648783057347_2_alg».proof.Proof.Algebra
import Idealize.ShloMosaic.Lib.ValueIdx

noncomputable section

namespace Cert.Causal

open Idealize.ShloMosaic Idealize.ShloMosaic.ValueIdx

theorem bridge (x : (⟨3, ![8, 256, 4096]⟩ : Shape).Idx → EReal) (W : (⟨3, ![8, 4096, 8]⟩ : Shape).Idx → EReal)
    (kn : (⟨3, ![1, 1, 8]⟩ : Shape).Idx → EReal)
    (wt : (⟨3, ![8, 8, 4096]⟩ : Shape).Idx → EReal) (kt : (⟨2, ![8, 4096]⟩ : Shape).Idx → EReal)
    (hwt : ∀ (b k : Fin 8) (i : Fin 4096), wt (ix3 b k i) = if k.val ≤ i.val then W (ix3 b i k) else 0)
    (hkt : ∀ (k : Fin 8) (i : Fin 4096), kt (ix2 k i) = if k.val ≤ i.val then kn (ix3 0 0 k) else 0)
    (hx : ∀ i, ∃ a : ℝ, x i = (a : EReal)) (hW : ∀ i, ∃ a : ℝ, W i = (a : EReal)) (hkn : ∀ i, ∃ a : ℝ, kn i = (a : EReal))
    (b : Fin 8) (c : Fin 256) (l : Fin 4096) :
    mixR (fun j => winR (fun i => x (ix3 b c i)) (fun i k => W (ix3 b i k)) j)
        (fun j => winR (fun i => x (ix3 b c i)) (fun _ k => kn (ix3 0 0 k)) j) l
      = mixK (fun j => win (fun i => x (ix3 b c i)) (fun k i => wt (ix3 b k i)) j)
          (fun j => win (fun i => x (ix3 b c i)) (fun k i => kt (ix2 k i)) j) l := by
  have e0 : (fun j => winR (fun i => x (ix3 b c i)) (fun i k => W (ix3 b i k)) j)
      = (fun j => win (fun i => x (ix3 b c i)) (fun k i => wt (ix3 b k i)) j) := by
    funext j
    rw [winR_eq_win]
    exact congrArg (fun w => win (fun i => x (ix3 b c i)) w j) (funext fun k => funext fun i => (hwt b k i).symm)
  have e1 : (fun j => winR (fun i => x (ix3 b c i)) (fun _ k => kn (ix3 0 0 k)) j)
      = (fun j => win (fun i => x (ix3 b c i)) (fun k i => kt (ix2 k i)) j) := by
    funext j
    rw [winR_eq_win]
    exact congrArg (fun w => win (fun i => x (ix3 b c i)) w j) (funext fun k => funext fun i => (hkt k i).symm)
  rw [e0, e1]
  have hzero : ∃ a : ℝ, (0 : EReal) = (a : EReal) := ⟨0, rfl⟩
  refine mixR_eq_mixK _ _ (fun j => win_real _ _ (fun i => hx _) (fun k i => ?_) j) (fun j => win_real _ _ (fun i => hx _) (fun k i => ?_) j) l
  · rw [hwt]; split
    · exact hW _
    · exact hzero
  · rw [hkt]; split
    · exact hkn _
    · exact hzero

end Cert.Causal

end
-- ==== Proof.lean ====
/-
  The certificate of a causal sliding-window kernel against its jnp reference, over the extended reals.

  Both programs take, along the sequence axis and for each batch entry and channel, two weighted averages of the
  eight most recent samples of x — one weighted by a softmax over the time gaps to those samples, one by a fixed
  kernel — with the lags that would reach before position 0 dropped; they then re-mix the two averaged rows by the
  row softmaxes of their 2×2 matrix of inner products. The kernel drops an early lag by zeroing its WEIGHT in two
  tables the host code prepares, takes the eight shifts cyclically, and folds the mean over the two softmax rows into
  the coefficients; the reference zeroes the shifted SAMPLE, uses einsums and a mean.
  The frames of the two kernel programs come from the run of the one region after the host operations; the
  reference is host operations only. For the value claim: the kernel's result array is one function of the arrays the
  region finds (block by block, the 16 channel tiles covering it), those arrays are the masked tables of the same
  softmax table the reference computes, and under the precondition all inputs — hence the table, the averages and
  their inner products — are reals, on which the two re-mixes are equal.
-/
import proofs.«121142_j83648783057347_2_alg».proof.Defs
import proofs.«121142_j83648783057347_2_alg».proof.Proof.Gen.Kernel
import proofs.«121142_j83648783057347_2_alg».proof.Proof.Gen.KernelIdeal
import proofs.«121142_j83648783057347_2_alg».proof.Proof.Gen.ReferenceIdeal
import proofs.«121142_j83648783057347_2_alg».proof.Proof.Gen.Pre_finite_inputs
import proofs.«121142_j83648783057347_2_alg».proof.Proof.KFrame
import proofs.«121142_j83648783057347_2_alg».proof.Proof.KIRun
import proofs.«121142_j83648783057347_2_alg».proof.Proof.KIHost
import proofs.«121142_j83648783057347_2_alg».proof.Proof.WSame
import proofs.«121142_j83648783057347_2_alg».proof.Proof.WReal
import proofs.«121142_j83648783057347_2_alg».proof.Proof.RefValue
import proofs.«121142_j83648783057347_2_alg».proof.Proof.RefRun
import proofs.«121142_j83648783057347_2_alg».proof.Proof.Finite
import proofs.«121142_j83648783057347_2_alg».proof.Proof.Bridge

noncomputable section

namespace Cert.Proof

open Idealize.ShloMosaic Idealize.ShloMosaic.TcCoe Idealize.ShloMosaic.ValueIdx Idealize.SL.Sem

theorem frame_k : Cert.frame_Kernel := fun m ρ _ => Cert.Kernel.Fr.frame m ρ

theorem frame_ki : Cert.frame_KernelIdeal := fun m ρ _ => Cert.KernelIdeal.Fr.frame m ρ

theorem frame_ri : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- The reference's result is the kernel's result array: index by index the bridge between the two forms, the
    kernel's tables read as the masked softmax table and the masked fixed kernel, everything real under the
    precondition. -/
theorem result_eq (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.ReferenceIdeal.RefRead.val_main_v128 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
      = Cert.KernelIdeal.Fr.G m c := by
  obtain ⟨hx, hdt, hkn⟩ := Cert.Causal.inputs_real _ _ _ (hpre c)
  funext i
  obtain ⟨b, cc, l, rfl⟩ : ∃ (b : Fin 8) (cc : Fin 256) (l : Fin 4096), i = ix3 b cc l := ⟨i 0, i 1, i 2, eq_ix3 i⟩
  rw [Cert.ReferenceIdeal.RefValue.ref_apply]
  show _ = Cert.KernelIdeal.Fr.outAt _ _ _ b cc l
  unfold Cert.KernelIdeal.Fr.outAt
  rw [Cert.KernelIdeal.Fr.V_main_arg0]
  refine Cert.Causal.bridge _ _ _ _ _ (fun b k i => ?_) (fun k i => ?_) hx (Cert.ReferenceIdeal.RefValue.W_real _ hdt) hkn b cc l
  · rw [Cert.KernelIdeal.Fr.V_v68_apply, Cert.KernelIdeal.Fr.V_v60_eq]
  · rw [Cert.KernelIdeal.Fr.V_v78_apply]

theorem algebraic : Cert.algebraic_KernelIdeal_ReferenceIdeal := by
  intro m ρ m' ρ' hpre hagree
  refine ⟨fun c => Cert.KernelIdeal.Fr.G m c, Cert.KernelIdeal.Fr.run_value m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2]
  exact result_eq m hpre c

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
